-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S146763x256 : Shape := ⟨2, ![146763, 256]⟩
abbrev S2048 : Shape := ⟨1, ![2048]⟩
abbrev S256x256 : Shape := ⟨2, ![256, 256]⟩
abbrev S256 : Shape := ⟨1, ![256]⟩
abbrev S_ : Shape := ⟨0, ![]⟩

class Facts : Prop where
  bcast_S_S146763x256 : S_.BroadcastsInDim S146763x256 (![] : Fin 0 → Fin S146763x256.rank)
  reducesTo_S146763x256_S_d0_1 : S146763x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg1 : IVec S2048 32) (main_v33 : IVec S_ 1) : IVec S_ 1 :=
  let main_c_12 : IVec S_ 32 := constantI S_ 32 1#32
  let main_v34 : IVec S2048 32 := broadcastInDim S2048 ![] bcast_S_S2048 main_c_12
  let main_v35 : IVec S2048 1 := cmpi .sge main_arg1 main_v34
  let main_c_13 : IVec S_ 1 := constantI S_ 1 1#1
  let main_v36 : IVec S_ 1 := (fun x v => Host.reduce IntOp.andi x v reducesTo_S2048_S_d0 h_S_) main_v35 main_c_13
  let main_v37 : IVec S_ 1 := andi main_v33 main_v36
  let main_c_14 : IVec S_ 32 := constantI S_ 32 128#32
  let main_v38 : IVec S2048 32 := broadcastInDim S2048 ![] bcast_S_S2048 main_c_14
  let main_v39 : IVec S2048 1 := cmpi .sle main_arg1 main_v38
  let main_c_15 : IVec S_ 1 := constantI S_ 1 1#1
  let main_v40 : IVec S_ 1 := (fun x v => Host.reduce IntOp.andi x v reducesTo_S2048_S_d0 h_S_) main_v39 main_c_15
  let main_v41 : IVec S_ 1 := andi main_v37 main_v40
  main_v41

def fn_part1 {F : FTy → Type} [FloatOps F] (main_arg1 : IVec S2048 32) (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S146763x256 .f32) (main_arg1 : IVec S2048 32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S146763x256 .f32 := Host.absf main_arg0
  let main_cst : FVec F S_ .f32 := constant S_ .f32 0x7F800000#32
  let main_v1 : FVec F S146763x256 .f32 := broadcastInDim S146763x256 ![] bcast_S_S146763x256 main_cst
  let main_v2 : IVec S146763x256 1 := cmpf .olt main_v0 main_v1
  let main_c : IVec S_ 1 := constantI S_ 1 1#1
  let main_v3 : IVec S_ 1 := (fun x v => Host.reduce IntOp.andi x v reducesTo_S146763x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S146763x256 : Shape := ⟨2, ![146763, 256]⟩
abbrev S2048 : Shape := ⟨1, ![2048]⟩
abbrev S256x256 : Shape := ⟨2, ![256, 256]⟩
abbrev S256 : Shape := ⟨1, ![256]⟩
abbrev S_ : Shape := ⟨0, ![]⟩
abbrev S1 : Shape := ⟨1, ![1]⟩
abbrev S2047 : Shape := ⟨1, ![2047]⟩
abbrev S146763 : Shape := ⟨1, ![146763]⟩
abbrev S2048x1 : Shape := ⟨2, ![2048, 1]⟩
abbrev S146763x1 : Shape := ⟨2, ![146763, 1]⟩
abbrev S1x1 : Shape := ⟨2, ![1, 1]⟩
abbrev S2048x256x128 : Shape := ⟨3, ![2048, 256, 128]⟩
abbrev S146763x2 : Shape := ⟨2, ![146763, 2]⟩
abbrev S128 : Shape := ⟨1, ![128]⟩
abbrev S1x128 : Shape := ⟨2, ![1, 128]⟩
abbrev S2048x128 : Shape := ⟨2, ![2048, 128]⟩
abbrev S2048x256 : Shape := ⟨2, ![2048, 256]⟩
abbrev S64x256x128 : Shape := ⟨3, ![64, 256, 128]⟩
abbrev S64x128 : Shape := ⟨2, ![64, 128]⟩
abbrev S64x256 : Shape := ⟨2, ![64, 256]⟩
abbrev S64x1x128 : Shape := ⟨3, ![64, 1, 128]⟩
abbrev S1x256 : Shape := ⟨2, ![1, 256]⟩

abbrev nBuf : Space → Nat
  | .hbm => 112
  | .vmem => 16
  | .smem => 0
  | _ => 0

abbrev bufTy : (tb : Table) → Fin (tcTables nBuf tb) → BufTy
  | .hbm, ⟨0, _⟩ => ⟨S146763x256, .f32⟩
  | .hbm, ⟨1, _⟩ => ⟨S2048, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S1, .i32⟩
  | .hbm, ⟨14, _⟩ => ⟨S2047, .i32⟩
  | .hbm, ⟨15, _⟩ => ⟨S2048, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S_, .i32⟩
  | .hbm, ⟨24, _⟩ => ⟨S146763, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S_, .i32⟩
  | .hbm, ⟨34, _⟩ => ⟨S2048, .i32⟩
  | .hbm, ⟨35, _⟩ => ⟨S146763, .i32⟩
  | .hbm, ⟨36, _⟩ => ⟨S_, .i32⟩
  | .hbm, ⟨37, _⟩ => ⟨S_, .i32⟩
  | .hbm, ⟨38, _⟩ => ⟨S146763, .i32⟩
  | .hbm, ⟨39, _⟩ => ⟨S_, .i32⟩
  | .hbm, ⟨40, _⟩ => ⟨S146763, .i32⟩
  | .hbm, ⟨41, _⟩ => ⟨S146763, .i32⟩
  | .hbm, ⟨42, _⟩ => ⟨S_, .i32⟩
  | .hbm, ⟨43, _⟩ => ⟨S146763, .i32⟩
  | .hbm, ⟨44, _⟩ => ⟨S146763, .i1⟩
  | .hbm, ⟨45, _⟩ => ⟨S_, .i32⟩
  | .hbm, ⟨46, _⟩ => ⟨S146763, .i32⟩
  | .hbm, ⟨47, _⟩ => ⟨S146763, .i32⟩
  | .hbm, ⟨48, _⟩ => ⟨S146763, .i32⟩
  | .hbm, ⟨49, _⟩ => ⟨S146763x1, .i32⟩
  | .hbm, ⟨50, _⟩ => ⟨S1, .i32⟩
  | .hbm, ⟨51, _⟩ => ⟨S_, .i32⟩
  | .hbm, ⟨52, _⟩ => ⟨S146763x1, .i32⟩
  | .hbm, ⟨53, _⟩ => ⟨S146763x1, .i1⟩
  | .hbm, ⟨54, _⟩ => ⟨S1x1, .i32⟩
  | .hbm, ⟨55, _⟩ => ⟨S146763x1, .i32⟩
  | .hbm, ⟨56, _⟩ => ⟨S146763x1, .i1⟩
  | .hbm, ⟨57, _⟩ => ⟨S146763x1, .i1⟩
  | .hbm, ⟨58, _⟩ => ⟨S_, .i1⟩
  | .hbm, ⟨59, _⟩ => ⟨S146763, .i1⟩
  | .hbm, ⟨60, _⟩ => ⟨S146763, .i32⟩
  | .hbm, ⟨61, _⟩ => ⟨S_, .i32⟩
  | .hbm, ⟨62, _⟩ => ⟨S146763, .i32⟩
  | .hbm, ⟨63, _⟩ => ⟨S146763, .i32⟩
  | .hbm, ⟨64, _⟩ => ⟨S146763, .i32⟩
  | .hbm, ⟨65, _⟩ => ⟨S_, .i32⟩
  | .hbm, ⟨66, _⟩ => ⟨S146763, .i32⟩
  | .hbm, ⟨67, _⟩ => ⟨S146763, .i1⟩
  | .hbm, ⟨68, _⟩ => ⟨S_, .i32⟩
  | .hbm, ⟨69, _⟩ => ⟨S146763, .i32⟩
  | .hbm, ⟨70, _⟩ => ⟨S146763, .i32⟩
  | .hbm, ⟨71, _⟩ => ⟨S146763, .i32⟩
  | .hbm, ⟨72, _⟩ => ⟨S146763x1, .i32⟩
  | .hbm, ⟨73, _⟩ => ⟨S146763, .i32⟩
  | .hbm, ⟨74, _⟩ => ⟨S146763, .i32⟩
  | .hbm, ⟨75, _⟩ => ⟨S_, .f32⟩
  | .hbm, ⟨76, _⟩ => ⟨S2048x256x128, .f32⟩
  | .hbm, ⟨77, _⟩ => ⟨S_, .i32⟩
  | .hbm, ⟨78, _⟩ => ⟨S146763, .i32⟩
  | .hbm, ⟨79, _⟩ => ⟨S146763, .i1⟩
  | .hbm, ⟨80, _⟩ => ⟨S_, .i32⟩
  | .hbm, ⟨81, _⟩ => ⟨S146763, .i32⟩
  | .hbm, ⟨82, _⟩ => ⟨S146763, .i32⟩
  | .hbm, ⟨83, _⟩ => ⟨S146763, .i32⟩
  | .hbm, ⟨84, _⟩ => ⟨S_, .i32⟩
  | .hbm, ⟨85, _⟩ => ⟨S146763, .i32⟩
  | .hbm, ⟨86, _⟩ => ⟨S146763, .i1⟩
  | .hbm, ⟨87, _⟩ => ⟨S_, .i32⟩
  | .hbm, ⟨88, _⟩ => ⟨S146763, .i32⟩
  | .hbm, ⟨89, _⟩ => ⟨S146763, .i32⟩
  | .hbm, ⟨90, _⟩ => ⟨S146763, .i32⟩
  | .hbm, ⟨91, _⟩ => ⟨S146763x1, .i32⟩
  | .hbm, ⟨92, _⟩ => ⟨S146763x1, .i32⟩
  | .hbm, ⟨93, _⟩ => ⟨S146763x2, .i32⟩
  | .hbm, ⟨94, _⟩ => ⟨S2048x256x128, .f32⟩
  | .hbm, ⟨95, _⟩ => ⟨S128, .i32⟩
  | .hbm, ⟨96, _⟩ => ⟨S1x128, .i32⟩
  | .hbm, ⟨97, _⟩ => ⟨S2048x1, .i32⟩
  | .hbm, ⟨98, _⟩ => ⟨S2048x128, .i32⟩
  | .hbm, ⟨99, _⟩ => ⟨S2048x128, .i32⟩
  | .hbm, ⟨100, _⟩ => ⟨S2048x128, .i1⟩
  | .hbm, ⟨101, _⟩ => ⟨S2048x128, .f32⟩
  | .hbm, ⟨102, _⟩ => ⟨S2048, .f32⟩
  | .hbm, ⟨103, _⟩ => ⟨S2048x1, .f32⟩
  | .hbm, ⟨104, _⟩ => ⟨S2048x128, .f32⟩
  | .hbm, ⟨105, _⟩ => ⟨S2048x128, .f32⟩
  | .hbm, ⟨106, _⟩ => ⟨S256x256, .bf16⟩
  | .hbm, ⟨107, _⟩ => ⟨S256x256, .bf16⟩
  | .hbm, ⟨108, _⟩ => ⟨S256x256, .bf16⟩
  | .hbm, ⟨109, _⟩ => ⟨S2048x256, .f32⟩
  | .hbm, ⟨110, _⟩ => ⟨S2048x256, .f32⟩
  | .hbm, ⟨111, _⟩ => ⟨S2048x256, .f32⟩
  | .local _ .vmem, ⟨0, _⟩ => ⟨S64x256x128, .f32⟩
  | .local _ .vmem, ⟨1, _⟩ => ⟨S64x256x128, .f32⟩
  | .local _ .vmem, ⟨2, _⟩ => ⟨S64x128, .f32⟩
  | .local _ .vmem, ⟨3, _⟩ => ⟨S64x128, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S146763x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_v1 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_call2_call0_c : Ref sig .tc := ⟨.hbm, 20, rfl⟩
abbrev main_call2_call0_v0 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_call3_call0_c : Ref sig .tc := ⟨.hbm, 36, rfl⟩
abbrev main_call3_call0_v0 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_call4_c : Ref sig .tc := ⟨.hbm, 42, rfl⟩
abbrev main_call4_v0 : Ref sig .tc := ⟨.hbm, 43, rfl⟩
abbrev main_call4_v1 : Ref sig .tc := ⟨.hbm, 44, rfl⟩
abbrev main_call4_c_0 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_c_1 : Ref sig .tc := ⟨.hbm, 50, rfl⟩
abbrev main_call4_c_2 : Ref sig .tc := ⟨.hbm, 51, rfl⟩
abbrev main_call4_v6 : Ref sig .tc := ⟨.hbm, 52, rfl⟩
abbrev main_call4_v7 : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_v11 : Ref sig .tc := ⟨.hbm, 57, rfl⟩
abbrev main_call4_c_3 : Ref sig .tc := ⟨.hbm, 58, rfl⟩
abbrev main_call4_v12 : Ref sig .tc := ⟨.hbm, 59, rfl⟩
abbrev main_call4_v13 : Ref sig .tc := ⟨.hbm, 60, rfl⟩
abbrev main_call4_c_4 : Ref sig .tc := ⟨.hbm, 61, rfl⟩
abbrev main_call4_v14 : Ref sig .tc := ⟨.hbm, 62, rfl⟩
abbrev main_v19 : Ref sig .tc := ⟨.hbm, 63, rfl⟩
abbrev main_v20 : Ref sig .tc := ⟨.hbm, 64, rfl⟩
abbrev main_c_6 : Ref sig .tc := ⟨.hbm, 65, rfl⟩
abbrev main_v21 : Ref sig .tc := ⟨.hbm, 66, rfl⟩
abbrev main_v22 : Ref sig .tc := ⟨.hbm, 67, rfl⟩
abbrev main_c_7 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst : Ref sig .tc := ⟨.hbm, 75, rfl⟩
abbrev main_v29 : Ref sig .tc := ⟨.hbm, 76, rfl⟩
abbrev main_c_8 : Ref sig .tc := ⟨.hbm, 77, rfl⟩
abbrev main_v30 : Ref sig .tc := ⟨.hbm, 78, rfl⟩
abbrev main_v31 : Ref sig .tc := ⟨.hbm, 79, rfl⟩
abbrev main_c_9 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_10 : Ref sig .tc := ⟨.hbm, 84, rfl⟩
abbrev main_v35 : Ref sig .tc := ⟨.hbm, 85, rfl⟩
abbrev main_v36 : Ref sig .tc := ⟨.hbm, 86, rfl⟩
abbrev main_c_11 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58_0 : Ref sig .tc := ⟨.hbm, 109, rfl⟩
abbrev main_v58_1 : Ref sig .tc := ⟨.hbm, 110, rfl⟩
abbrev main_v58_2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S_ : S_.BroadcastsInDim S_ (![] : Fin 0 → Fin S_.rank)
  reduceWindows_S2048_S2048_w2048s1p2047_0 : S2048.ReduceWindows (![2048] : Fin 1 → Nat) ![1] ![2047] ![0] S2048
  h_S_ : 0 < S_.numel
  slices_S2048_S1_2047 : S2048.Slices ![2047] S1
  slices_S2048_S2047_0 : S2048.Slices ![0] S2047
  concatenates_S1_S2047_S2048_d0 : Shape.Concatenates [S1, S2047] S2048 0
  bcast_S_S1 : S_.BroadcastsInDim S1 (![] : Fin 0 → Fin S1.rank)
  bcast_S_S146763 : S_.BroadcastsInDim S146763 (![] : Fin 0 → Fin S146763.rank)
  bcast_S_S2048 : S_.BroadcastsInDim S2048 (![] : Fin 0 → Fin S2048.rank)
  bcast_S2048_S2048x1_0 : S2048.BroadcastsInDim S2048x1 (![0] : Fin 1 → Fin S2048x1.rank)
  reduceWindows_S146763_S146763_w146763s1p146762_0 : S146763.ReduceWindows (![146763] : Fin 1 → Nat) ![1] ![146762] ![0] S146763
  bcast_S146763_S146763x1_0 : S146763.BroadcastsInDim S146763x1 (![0] : Fin 1 → Fin S146763x1.rank)
  bcast_S_S146763x1 : S_.BroadcastsInDim S146763x1 (![] : Fin 0 → Fin S146763x1.rank)
  bcast_S1_S1x1_1 : S1.BroadcastsInDim S1x1 (![1] : Fin 1 → Fin S1x1.rank)
  bcast_S1x1_S146763x1_0_1 : S1x1.BroadcastsInDim S146763x1 (![0, 1] : Fin 2 → Fin S146763x1.rank)
  reducesTo_S146763x1_S146763_d1 : S146763x1.ReducesTo [1] S146763
  bcast_S_S2048x256x128 : S_.BroadcastsInDim S2048x256x128 (![] : Fin 0 → Fin S2048x256x128.rank)
  concatenates_S146763x1_S146763x1_S146763x2_d1 : Shape.Concatenates [S146763x1, S146763x1] S146763x2 1
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S2048x1_S2048x128_0_1 : S2048x1.BroadcastsInDim S2048x128 (![0, 1] : Fin 2 → Fin S2048x128.rank)
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x256x128_S64x256x128_0_0_0 : ∀ a, (![0, 0, 0] : Fin 3 → Nat) a + S64x256x128.size a ≤ S64x256x128.size a
  h_S64x256x128 : 0 < S64x256x128.numel
  shapeCasts_S64x256x128_S64x256x128 : S64x256x128.ShapeCasts S64x256x128
  shapeCasts_S64x128_S64x1x128 : S64x128.ShapeCasts S64x1x128
  broadcasts_S64x1x128_S64x256x128 : S64x1x128.Broadcasts S64x256x128
  reduces_S64x256x128_S64x256 : S64x256x128.Reduces [2] S64x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  scatter_S2048_S1_S__n_0_0_0_wf : ScatterDims.WF S2048 S1 S_ [] [0] [0] 0
  scatter_S146763_S2048x1_S2048_n_0_0_1_wf : ScatterDims.WF S146763 S2048x1 S2048 [] [0] [0] 1
  gather_S2048_S146763x1_S146763_n_0_n_n_0_1_1_wf : GatherDims.WF S2048 S146763x1 S146763 [] [0] [] [0] [] 1 ![1]
  scatter_S2048x256x128_S146763x2_S146763x256_1_02_02_1_wf : ScatterDims.WF S2048x256x128 S146763x2 S146763x256 [1] [0, 2] [0, 2] 1
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x128.size a ≤ S2048x256x128.size a
  hwx0_0 : ∀ i : grid0.Coords, EltTy.bits .f32 = 32 ∨ (Rect.block (s := S2048x256x128) S64x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S2048x128.size a
  hwx0_1 : ∀ i : grid0.Coords, EltTy.bits .f32 = 32 ∨ (Rect.block (s := S2048x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S2048x256.size a
  hwx0_8 : ∀ i : grid0.Coords, EltTy.bits .f32 = 32 ∨ (Rect.block (s := S2048x256) S64x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S2048x256.size a
  hwx0_9 : ∀ i : grid0.Coords, EltTy.bits .f32 = 32 ∨ (Rect.block (s := S2048x256) S64x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x256.size a ≤ S2048x256.size a
  hwx0_10 : ∀ i : grid0.Coords, EltTy.bits .f32 = 32 ∨ (Rect.block (s := S2048x256) S64x256.size (cc0_transform_10 i) (hinb0_10 i)).WholeWords (EltTy.packing .f32)

variable [Facts₀]

def scatter_S2048_S1_S__n_0_0_0 : ScatterDims S2048 S1 S_ where
  updateWindowDims := []
  insertedWindowDims := [0]
  scatterDimsToOperandDims := [0]
  indexVectorDim := 0
  wf := scatter_S2048_S1_S__n_0_0_0_wf
def scatter_S146763_S2048x1_S2048_n_0_0_1 : ScatterDims S146763 S2048x1 S2048 where
  updateWindowDims := []
  insertedWindowDims := [0]
  scatterDimsToOperandDims := [0]
  indexVectorDim := 1
  wf := scatter_S146763_S2048x1_S2048_n_0_0_1_wf
def gather_S2048_S146763x1_S146763_n_0_n_n_0_1_1 : GatherDims S2048 S146763x1 S146763 where
  offsetDims := []
  collapsedSliceDims := [0]
  operandBatchingDims := []
  startIndicesBatchingDims := []
  startIndexMap := [0]
  indexVectorDim := 1
  sliceSizes := ![1]
  wf := gather_S2048_S146763x1_S146763_n_0_n_n_0_1_1_wf
def scatter_S2048x256x128_S146763x2_S146763x256_1_02_02_1 : ScatterDims S2048x256x128 S146763x2 S146763x256 where
  updateWindowDims := [1]
  insertedWindowDims := [0, 2]
  scatterDimsToOperandDims := [0, 2]
  indexVectorDim := 1
  wf := scatter_S2048x256x128_S146763x2_S146763x256_1_02_02_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v43) S64x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v58_0) S64x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v58_1) S64x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v58_2) S64x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S146763x256 : Shape := ⟨2, ![146763, 256]⟩
abbrev S2048 : Shape := ⟨1, ![2048]⟩
abbrev S256x256 : Shape := ⟨2, ![256, 256]⟩
abbrev S256 : Shape := ⟨1, ![256]⟩
abbrev S_ : Shape := ⟨0, ![]⟩
abbrev S1 : Shape := ⟨1, ![1]⟩
abbrev S2047 : Shape := ⟨1, ![2047]⟩
abbrev S146763 : Shape := ⟨1, ![146763]⟩
abbrev S2048x1 : Shape := ⟨2, ![2048, 1]⟩
abbrev S146763x1 : Shape := ⟨2, ![146763, 1]⟩
abbrev S1x1 : Shape := ⟨2, ![1, 1]⟩
abbrev S2048x128x256 : Shape := ⟨3, ![2048, 128, 256]⟩
abbrev S146763x2 : Shape := ⟨2, ![146763, 2]⟩
abbrev S128 : Shape := ⟨1, ![128]⟩
abbrev S1x128 : Shape := ⟨2, ![1, 128]⟩
abbrev S2048x128 : Shape := ⟨2, ![2048, 128]⟩
abbrev S1x1x256 : Shape := ⟨3, ![1, 1, 256]⟩
abbrev S2048x128x1 : Shape := ⟨3, ![2048, 128, 1]⟩
abbrev S2048x256 : Shape := ⟨2, ![2048, 256]⟩

abbrev nBuf : Space → Nat
  | .hbm => 137
  | .vmem => 0
  | .smem => 0
  | _ => 0

abbrev hbmTy0_0 (i : Nat) : BufTy := match i % 128 with
  | 0 => ⟨S146763x256, .f32⟩
  | 1 => ⟨S2048, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S_, .i32⟩
  | 9 => ⟨S_, .i32⟩
  | 10 => ⟨S2048, .i32⟩
  | 11 => ⟨S2048, .i32⟩
  | 12 => ⟨S2048, .i32⟩
  | 13 => ⟨S1, .i32⟩
  | 14 => ⟨S2047, .i32⟩
  | 15 => ⟨S2048, .i32⟩
  | 16 => ⟨S_, .i32⟩
  | 17 => ⟨S1, .i32⟩
  | 18 => ⟨S_, .i32⟩
  | 19 => ⟨S2048, .i32⟩
  | 20 => ⟨S_, .i32⟩
  | 21 => ⟨S_, .i32⟩
  | 22 => ⟨S2048, .i32⟩
  | 23 => ⟨S_, .i32⟩
  | 24 => ⟨S146763, .i32⟩
  | 25 => ⟨S_, .i32⟩
  | 26 => ⟨S2048, .i32⟩
  | 27 => ⟨S2048, .i1⟩
  | 28 => ⟨S_, .i32⟩
  | 29 => ⟨S2048, .i32⟩
  | 30 => ⟨S2048, .i32⟩
  | 31 => ⟨S2048, .i32⟩
  | 32 => ⟨S2048x1, .i32⟩
  | 33 => ⟨S_, .i32⟩
  | 34 => ⟨S2048, .i32⟩
  | 35 => ⟨S146763, .i32⟩
  | 36 => ⟨S_, .i32⟩
  | 37 => ⟨S_, .i32⟩
  | 38 => ⟨S146763, .i32⟩
  | 39 => ⟨S_, .i32⟩
  | 40 => ⟨S146763, .i32⟩
  | 41 => ⟨S146763, .i32⟩
  | 42 => ⟨S_, .i32⟩
  | 43 => ⟨S146763, .i32⟩
  | 44 => ⟨S146763, .i1⟩
  | 45 => ⟨S_, .i32⟩
  | 46 => ⟨S146763, .i32⟩
  | 47 => ⟨S146763, .i32⟩
  | 48 => ⟨S146763, .i32⟩
  | 49 => ⟨S146763x1, .i32⟩
  | 50 => ⟨S1, .i32⟩
  | 51 => ⟨S_, .i32⟩
  | 52 => ⟨S146763x1, .i32⟩
  | 53 => ⟨S146763x1, .i1⟩
  | 54 => ⟨S1x1, .i32⟩
  | 55 => ⟨S146763x1, .i32⟩
  | 56 => ⟨S146763x1, .i1⟩
  | 57 => ⟨S146763x1, .i1⟩
  | 58 => ⟨S_, .i1⟩
  | 59 => ⟨S146763, .i1⟩
  | 60 => ⟨S146763, .i32⟩
  | 61 => ⟨S_, .i32⟩
  | 62 => ⟨S146763, .i32⟩
  | 63 => ⟨S146763, .i32⟩
  | 64 => ⟨S146763, .i32⟩
  | 65 => ⟨S_, .i32⟩
  | 66 => ⟨S146763, .i32⟩
  | 67 => ⟨S146763, .i1⟩
  | 68 => ⟨S_, .i32⟩
  | 69 => ⟨S146763, .i32⟩
  | 70 => ⟨S146763, .i32⟩
  | 71 => ⟨S146763, .i32⟩
  | 72 => ⟨S146763x1, .i32⟩
  | 73 => ⟨S146763, .i32⟩
  | 74 => ⟨S146763, .i32⟩
  | 75 => ⟨S_, .f32⟩
  | 76 => ⟨S2048x128x256, .f32⟩
  | 77 => ⟨S_, .i32⟩
  | 78 => ⟨S146763, .i32⟩
  | 79 => ⟨S146763, .i1⟩
  | 80 => ⟨S_, .i32⟩
  | 81 => ⟨S146763, .i32⟩
  | 82 => ⟨S146763, .i32⟩
  | 83 => ⟨S146763, .i32⟩
  | 84 => ⟨S_, .i32⟩
  | 85 => ⟨S146763, .i32⟩
  | 86 => ⟨S146763, .i1⟩
  | 87 => ⟨S_, .i32⟩
  | 88 => ⟨S146763, .i32⟩
  | 89 => ⟨S146763, .i32⟩
  | 90 => ⟨S146763, .i32⟩
  | 91 => ⟨S146763x1, .i32⟩
  | 92 => ⟨S146763x1, .i32⟩
  | 93 => ⟨S146763x2, .i32⟩
  | 94 => ⟨S2048x128x256, .f32⟩
  | 95 => ⟨S128, .i32⟩
  | 96 => ⟨S1x128, .i32⟩
  | 97 => ⟨S2048x1, .i32⟩
  | 98 => ⟨S2048x128, .i32⟩
  | 99 => ⟨S2048x128, .i32⟩
  | 100 => ⟨S2048x128, .i1⟩
  | 101 => ⟨S2048x128, .f32⟩
  | 102 => ⟨S2048, .f32⟩
  | 103 => ⟨S2048x1, .f32⟩
  | 104 => ⟨S2048x128x256, .f32⟩
  | 105 => ⟨S1x1x256, .f32⟩
  | 106 => ⟨S2048x128x256, .f32⟩
  | 107 => ⟨S2048x128x256, .f32⟩
  | 108 => ⟨S2048x128x1, .f32⟩
  | 109 => ⟨S2048x128x256, .f32⟩
  | 110 => ⟨S2048x128x256, .f32⟩
  | 111 => ⟨S_, .f32⟩
  | 112 => ⟨S2048x256, .f32⟩
  | 113 => ⟨S2048x256, .f32⟩
  | 114 => ⟨S2048x256, .f32⟩
  | 115 => ⟨S2048x128x256, .f32⟩
  | 116 => ⟨S1x1x256, .f32⟩
  | 117 => ⟨S2048x128x256, .f32⟩
  | 118 => ⟨S2048x128x256, .f32⟩
  | 119 => ⟨S2048x128x1, .f32⟩
  | 120 => ⟨S2048x128x256, .f32⟩
  | 121 => ⟨S2048x128x256, .f32⟩
  | 122 => ⟨S_, .f32⟩
  | 123 => ⟨S2048x256, .f32⟩
  | 124 => ⟨S2048x256, .f32⟩
  | 125 => ⟨S2048x256, .f32⟩
  | 126 => ⟨S2048x128x256, .f32⟩
  | 127 => ⟨S1x1x256, .f32⟩
  | _ => ⟨S146763x256, .f32⟩

abbrev hbmTy0_1 (i : Nat) : BufTy := match i % 128 with
  | 0 => ⟨S2048x128x256, .f32⟩
  | 1 => ⟨S2048x128x256, .f32⟩
  | 2 => ⟨S2048x128x1, .f32⟩
  | 3 => ⟨S2048x128x256, .f32⟩
  | 4 => ⟨S2048x128x256, .f32⟩
  | 5 => ⟨S_, .f32⟩
  | 6 => ⟨S2048x256, .f32⟩
  | 7 => ⟨S2048x256, .f32⟩
  | 8 => ⟨S2048x256, .f32⟩
  | _ => ⟨S146763x256, .f32⟩

abbrev hbmTy (i : Nat) : BufTy := match i / 128 with
  | 0 => hbmTy0_0 i
  | 1 => hbmTy0_1 i
  | _ => ⟨S146763x256, .f32⟩

abbrev bufTy : (tb : Table) → Fin (tcTables nBuf tb) → BufTy
  | .hbm, ⟨i, _⟩ => hbmTy i
  | _, _ => ⟨S146763x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_v1 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_call2_call0_c : Ref sig .tc := ⟨.hbm, 20, rfl⟩
abbrev main_call2_call0_v0 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_call3_call0_c : Ref sig .tc := ⟨.hbm, 36, rfl⟩
abbrev main_call3_call0_v0 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_call4_c : Ref sig .tc := ⟨.hbm, 42, rfl⟩
abbrev main_call4_v0 : Ref sig .tc := ⟨.hbm, 43, rfl⟩
abbrev main_call4_v1 : Ref sig .tc := ⟨.hbm, 44, rfl⟩
abbrev main_call4_c_0 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_c_1 : Ref sig .tc := ⟨.hbm, 50, rfl⟩
abbrev main_call4_c_2 : Ref sig .tc := ⟨.hbm, 51, rfl⟩
abbrev main_call4_v6 : Ref sig .tc := ⟨.hbm, 52, rfl⟩
abbrev main_call4_v7 : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_v11 : Ref sig .tc := ⟨.hbm, 57, rfl⟩
abbrev main_call4_c_3 : Ref sig .tc := ⟨.hbm, 58, rfl⟩
abbrev main_call4_v12 : Ref sig .tc := ⟨.hbm, 59, rfl⟩
abbrev main_call4_v13 : Ref sig .tc := ⟨.hbm, 60, rfl⟩
abbrev main_call4_c_4 : Ref sig .tc := ⟨.hbm, 61, rfl⟩
abbrev main_call4_v14 : Ref sig .tc := ⟨.hbm, 62, rfl⟩
abbrev main_v19 : Ref sig .tc := ⟨.hbm, 63, rfl⟩
abbrev main_v20 : Ref sig .tc := ⟨.hbm, 64, rfl⟩
abbrev main_c_6 : Ref sig .tc := ⟨.hbm, 65, rfl⟩
abbrev main_v21 : Ref sig .tc := ⟨.hbm, 66, rfl⟩
abbrev main_v22 : Ref sig .tc := ⟨.hbm, 67, rfl⟩
abbrev main_c_7 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst : Ref sig .tc := ⟨.hbm, 75, rfl⟩
abbrev main_v29 : Ref sig .tc := ⟨.hbm, 76, rfl⟩
abbrev main_c_8 : Ref sig .tc := ⟨.hbm, 77, rfl⟩
abbrev main_v30 : Ref sig .tc := ⟨.hbm, 78, rfl⟩
abbrev main_v31 : Ref sig .tc := ⟨.hbm, 79, rfl⟩
abbrev main_c_9 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_10 : Ref sig .tc := ⟨.hbm, 84, rfl⟩
abbrev main_v35 : Ref sig .tc := ⟨.hbm, 85, rfl⟩
abbrev main_v36 : Ref sig .tc := ⟨.hbm, 86, rfl⟩
abbrev main_c_11 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_12 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_13 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_14 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S2048_S2048_w2048s1p2047_0 : S2048.ReduceWindows (![2048] : Fin 1 → Nat) ![1] ![2047] ![0] S2048
  h_S_ : 0 < S_.numel
  slices_S2048_S1_2047 : S2048.Slices ![2047] S1
  slices_S2048_S2047_0 : S2048.Slices ![0] S2047
  concatenates_S1_S2047_S2048_d0 : Shape.Concatenates [S1, S2047] S2048 0
  bcast_S_S1 : S_.BroadcastsInDim S1 (![] : Fin 0 → Fin S1.rank)
  bcast_S_S146763 : S_.BroadcastsInDim S146763 (![] : Fin 0 → Fin S146763.rank)
  bcast_S_S2048 : S_.BroadcastsInDim S2048 (![] : Fin 0 → Fin S2048.rank)
  bcast_S2048_S2048x1_0 : S2048.BroadcastsInDim S2048x1 (![0] : Fin 1 → Fin S2048x1.rank)
  reduceWindows_S146763_S146763_w146763s1p146762_0 : S146763.ReduceWindows (![146763] : Fin 1 → Nat) ![1] ![146762] ![0] S146763
  bcast_S146763_S146763x1_0 : S146763.BroadcastsInDim S146763x1 (![0] : Fin 1 → Fin S146763x1.rank)
  bcast_S_S146763x1 : S_.BroadcastsInDim S146763x1 (![] : Fin 0 → Fin S146763x1.rank)
  bcast_S1_S1x1_1 : S1.BroadcastsInDim S1x1 (![1] : Fin 1 → Fin S1x1.rank)
  bcast_S1x1_S146763x1_0_1 : S1x1.BroadcastsInDim S146763x1 (![0, 1] : Fin 2 → Fin S146763x1.rank)
  reducesTo_S146763x1_S146763_d1 : S146763x1.ReducesTo [1] S146763
  bcast_S_S2048x128x256 : S_.BroadcastsInDim S2048x128x256 (![] : Fin 0 → Fin S2048x128x256.rank)
  concatenates_S146763x1_S146763x1_S146763x2_d1 : Shape.Concatenates [S146763x1, S146763x1] S146763x2 1
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S2048x1_S2048x128_0_1 : S2048x1.BroadcastsInDim S2048x128 (![0, 1] : Fin 2 → Fin S2048x128.rank)
  bcast_S256_S1x1x256_2 : S256.BroadcastsInDim S1x1x256 (![2] : Fin 1 → Fin S1x1x256.rank)
  bcast_S1x1x256_S2048x128x256_0_1_2 : S1x1x256.BroadcastsInDim S2048x128x256 (![0, 1, 2] : Fin 3 → Fin S2048x128x256.rank)
  bcast_S2048x128_S2048x128x1_0_1 : S2048x128.BroadcastsInDim S2048x128x1 (![0, 1] : Fin 2 → Fin S2048x128x1.rank)
  bcast_S2048x128x1_S2048x128x256_0_1_2 : S2048x128x1.BroadcastsInDim S2048x128x256 (![0, 1, 2] : Fin 3 → Fin S2048x128x256.rank)
  reducesTo_S2048x128x256_S2048x256_d1 : S2048x128x256.ReducesTo [1] S2048x256
  bcast_S2048x1_S2048x256_0_1 : S2048x1.BroadcastsInDim S2048x256 (![0, 1] : Fin 2 → Fin S2048x256.rank)
  scatter_S2048_S1_S__n_0_0_0_wf : ScatterDims.WF S2048 S1 S_ [] [0] [0] 0
  scatter_S146763_S2048x1_S2048_n_0_0_1_wf : ScatterDims.WF S146763 S2048x1 S2048 [] [0] [0] 1
  gather_S2048_S146763x1_S146763_n_0_n_n_0_1_1_wf : GatherDims.WF S2048 S146763x1 S146763 [] [0] [] [0] [] 1 ![1]
  scatter_S2048x128x256_S146763x2_S146763x256_1_01_01_1_wf : ScatterDims.WF S2048x128x256 S146763x2 S146763x256 [1] [0, 1] [0, 1] 1
  dot_S2048x128x256_S256x256_S2048x128x256_2_0_01_1_n_n_wf : DotDims.WF S2048x128x256 S256x256 S2048x128x256 [2] [0] [0, 1] [1] [] []

variable [Facts₀]

def scatter_S2048_S1_S__n_0_0_0 : ScatterDims S2048 S1 S_ where
  updateWindowDims := []
  insertedWindowDims := [0]
  scatterDimsToOperandDims := [0]
  indexVectorDim := 0
  wf := scatter_S2048_S1_S__n_0_0_0_wf
def scatter_S146763_S2048x1_S2048_n_0_0_1 : ScatterDims S146763 S2048x1 S2048 where
  updateWindowDims := []
  insertedWindowDims := [0]
  scatterDimsToOperandDims := [0]
  indexVectorDim := 1
  wf := scatter_S146763_S2048x1_S2048_n_0_0_1_wf
def gather_S2048_S146763x1_S146763_n_0_n_n_0_1_1 : GatherDims S2048 S146763x1 S146763 where
  offsetDims := []
  collapsedSliceDims := [0]
  operandBatchingDims := []
  startIndicesBatchingDims := []
  startIndexMap := [0]
  indexVectorDim := 1
  sliceSizes := ![1]
  wf := gather_S2048_S146763x1_S146763_n_0_n_n_0_1_1_wf
def scatter_S2048x128x256_S146763x2_S146763x256_1_01_01_1 : ScatterDims S2048x128x256 S146763x2 S146763x256 where
  updateWindowDims := [1]
  insertedWindowDims := [0, 1]
  scatterDimsToOperandDims := [0, 1]
  indexVectorDim := 1
  wf := scatter_S2048x128x256_S146763x2_S146763x256_1_01_01_1_wf
def dot_S2048x128x256_S256x256_S2048x128x256_2_0_01_1_n_n : DotDims S2048x128x256 S256x256 S2048x128x256 where
  lhsContracting := [2]
  rhsContracting := [0]
  lhsNonContracting := [0, 1]
  rhsNonContracting := [1]
  lhsBatch := []
  rhsBatch := []
  wf := dot_S2048x128x256_S256x256_S2048x128x256_2_0_01_1_n_n_wf

class Facts : Prop extends Facts₀ where

variable [Facts]
-- ==== Proof.Spec.lean ====
/-
  Mean pooling of a graph's node features through a linear layer, in two arrangements.

  For one graph `g` with `k` real nodes among 128 slots (mask `[n < k]`), node features `P n h`, a weight column
  `W h` and a bias `b`:
    pooling first :  (∑ h, (∑ n, P n h * ([n < k] / k)) * W h) + b
    linear first  :  (∑ n, ((∑ h, P n h * W h) + b) * [n < k]) / k
  Over the reals the two agree exactly when the mask has `k` ones and `k ≠ 0`, that is for `1 ≤ k ≤ 128`: the
  bias is then counted `k` times and divided by `k`, and the double sum is exchanged.
-/
import Idealize.ShloMosaic.Lib.ValueIdx
import Idealize.ShloMosaic.PureOps.Ideal.Laws
import Mathlib.Data.Fintype.Fin
import Mathlib.Algebra.BigOperators.Ring.Finset
import Mathlib.Tactic.FieldSimp
import Mathlib.Tactic.Ring

noncomputable section

namespace Cert.Pool

open Idealize.ShloMosaic Idealize.ShloMosaic.ValueIdx

/-- Node counts, one per graph. -/
abbrev Snn : Shape := ⟨1, ![2048]⟩
/-- A weight matrix and a bias row. -/
abbrev Sw : Shape := ⟨2, ![256, 256]⟩
abbrev Sb : Shape := ⟨1, ![256]⟩
/-- The padded features, node-major (graph, node, feature) and feature-major (graph, feature, node). -/
abbrev Spr : Shape := ⟨3, ![2048, 128, 256]⟩
abbrev Spk : Shape := ⟨3, ![2048, 256, 128]⟩
/-- The per-slot weight (mask over count) and the pooled output. -/
abbrev Swt : Shape := ⟨2, ![2048, 128]⟩
abbrev Sout : Shape := ⟨2, ![2048, 256]⟩

/-- Graph `g`'s node count as an extended real. -/
def cnt (nn : IVec Snn 32) (g : Fin 2048) : EReal := (((nn (ix1 g)).toInt : ℝ) : EReal)

/-- Slot `n` of graph `g` holds a real node: `1` when `n` is below the count, else `0`. -/
def msk (nn : IVec Snn 32) (g : Fin 2048) (n : Fin 128) : EReal := if (n.val : ℤ) < (nn (ix1 g)).toInt then 1 else 0

/-- Pooling first: the weighted node sum of each feature, then the linear layer. -/
def kerForm (P : Spk.Idx → EReal) (wt : Swt.Idx → EReal) (W : Sw.Idx → EReal) (b : Sb.Idx → EReal)
    (g : Fin 2048) (d : Fin 256) : EReal :=
  (∑ h : Fin 256, (∑ n : Fin 128, P (ix3 g h n) * wt (ix2 g n)) * W (ix2 h d)) + b (ix1 d)

/-- Linear layer first on every slot, then the masked sum over slots divided by the count. -/
def refForm (P : Spr.Idx → EReal) (nn : IVec Snn 32) (W : Sw.Idx → EReal) (b : Sb.Idx → EReal)
    (g : Fin 2048) (d : Fin 256) : EReal :=
  Ideal.div (0 + ∑ n : Fin 128, ((∑ h : Fin 256, P (ix3 g n h) * W (ix2 h d)) + b (ix1 d)) * msk nn g n) (cnt nn g)

/-- The inclusion of the reals in the extended reals commutes with finite sums. -/
private theorem ereal_coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among 128 slots, those below `k` number `k` when `0 ≤ k ≤ 128`. -/
private theorem sum_msk_real (k : ℤ) (h0 : 0 ≤ k) (h1 : k ≤ 128) :
    ∑ n : Fin 128, (if (n.val : ℤ) < k then (1 : ℝ) else 0) = (k : ℝ) := by
  obtain ⟨m, rfl⟩ := Int.eq_ofNat_of_zero_le h0
  have hm : m ≤ 128 := by exact_mod_cast h1
  have hcard : (Finset.univ.filter (fun i : Fin 128 => (i : ℕ) < m)).card = m := by
    rw [Fin.card_filter_val_lt]; exact min_eq_right hm
  simp only [Nat.cast_lt, Finset.sum_boole, hcard, Int.cast_natCast]

/-- Pooling first and linear first agree over the reals when the weights `mk` sum to `c ≠ 0`. -/
private theorem pool_real (P : Fin 128 → Fin 256 → ℝ) (W : Fin 256 → ℝ) (b c : ℝ) (mk : Fin 128 → ℝ)
    (hc : c ≠ 0) (hs : ∑ n, mk n = c) :
    (∑ h, (∑ n, P n h * (mk n * (1 / c))) * W h) + b
      = (∑ n, ((∑ h, P n h * W h) + b) * mk n) * (1 / c) := by
  have hb : b = (∑ n, b * mk n) * (1 / c) := by
    rw [← Finset.mul_sum, hs]; field_simp
  have hR : (∑ n, ((∑ h, P n h * W h) + b) * mk n)
      = (∑ n, ∑ h, P n h * W h * mk n) + ∑ n, b * mk n := by
    rw [← Finset.sum_add_distrib]
    refine Finset.sum_congr rfl fun n _ => ?_
    rw [add_mul, Finset.sum_mul]
  have hL : (∑ h, (∑ n, P n h * (mk n * (1 / c))) * W h)
      = (∑ n, ∑ h, P n h * W h * mk n) * (1 / c) := by
    rw [Finset.sum_comm, Finset.sum_mul]
    refine Finset.sum_congr rfl fun h _ => ?_
    rw [Finset.sum_mul, Finset.sum_mul]
    refine Finset.sum_congr rfl fun n _ => ?_
    ring
  rw [hR, add_mul, ← hb, hL]

/-- The two arrangements agree on finite data when every count lies in `1 … 128`. -/
theorem kerForm_eq_refForm (Pk : Spk.Idx → EReal) (Pr : Spr.Idx → EReal) (wt : Swt.Idx → EReal) (nn : IVec Snn 32)
    (W : Sw.Idx → EReal) (b : Sb.Idx → EReal)
    (hP : ∀ (g : Fin 2048) (n : Fin 128) (h : Fin 256), Pk (ix3 g h n) = Pr (ix3 g n h))
    (hwt : ∀ (g : Fin 2048) (n : Fin 128), wt (ix2 g n) = Ideal.div (msk nn g n) (cnt nn g))
    (hPr : ∀ i, ∃ r : ℝ, Pr i = (r : EReal)) (hW : ∀ i, ∃ r : ℝ, W i = (r : EReal)) (hb : ∀ i, ∃ r : ℝ, b i = (r : EReal))
    (hn : ∀ g : Fin 2048, 1 ≤ (nn (ix1 g)).toInt ∧ (nn (ix1 g)).toInt ≤ 128)
    (g : Fin 2048) (d : Fin 256) :
    kerForm Pk wt W b g d = refForm Pr nn W b g d := by
  choose p hp using hPr
  choose w hw using hW
  choose β hβ using hb
  obtain ⟨hk1, hk2⟩ := hn g
  generalize hk : (nn (ix1 g)).toInt = k at hk1 hk2
  have hc : (k : ℝ) ≠ 0 := by
    have : (0 : ℝ) < (k : ℝ) := by exact_mod_cast (by omega : (0 : ℤ) < k)
    exact ne_of_gt this
  -- the mask as a real number
  have hm : ∀ n : Fin 128, msk nn g n = (((if (n.val : ℤ) < k then (1 : ℝ) else 0) : ℝ) : EReal) := by
    intro n
    unfold msk
    rw [hk]
    split_ifs <;> simp
  unfold kerForm refForm
  simp only [hP, hwt, hp, hw, hβ, hm, cnt, hk, Ideal.div_coe hc, zero_add]
  simp only [← EReal.coe_mul, ← ereal_coe_sum, ← EReal.coe_add]
  rw [EReal.coe_eq_coe_iff]
  exact pool_real (fun n h => p (ix3 g n h)) (fun h => w (ix2 h d)) (β (ix1 d)) (k : ℝ) _ hc
    (sum_msk_real k (by omega) hk2)

end Cert.Pool

end
-- ==== Proof.LibScatter.lean ====
/-
  A set-scatter carried through a re-indexing of its operand.

  `Host.scatter d (fun _ b => b) x idx upd` writes the update elements one after another, in row-major order of the
  update index, each at the operand index its scatter index names (or nowhere, when that falls outside). If a second
  operand shape is the first one re-indexed by an injective map `τ`, the two operands agree through `τ`, and every
  update lands at `τ` of where it landed before, then the two results agree through `τ`: the same writes happen
  in the same order, at corresponding places. The same induction shows that a property shared by the operand's
  elements and by the update's elements is shared by the result's.
-/
import Idealize.ShloMosaic.PureOps

namespace Cert.Lib.Scatter

open Idealize.ShloMosaic

/-- One step of the fold, on both sides of the re-indexing. -/
private theorem step_transport {α : Type} {s s' : Shape} (τ : s.Idx → s'.Idx) (hτ : Function.Injective τ)
    (f : α → α → α) (o : Option s.Idx) (v : α) (r : s.Idx → α) (r' : s'.Idx → α) (hr : ∀ i, r' (τ i) = r i) (i : s.Idx) :
    (match o.map τ with
      | some i0 => fun i' => if i' = i0 then f (r' i0) v else r' i'
      | none => r') (τ i)
    = (match o with
      | some i0 => fun i' => if i' = i0 then f (r i0) v else r i'
      | none => r) i := by
  cases o with
  | none => exact hr i
  | some i0 =>
    simp only [Option.map_some]
    by_cases e : i = i0
    · subst e; simp only [if_true, hr]
    · have e' : τ i ≠ τ i0 := fun h => e (hτ h)
      simp only [if_neg e, if_neg e', hr]

/-- A scatter into a re-indexed operand is the re-indexed scatter. -/
theorem scatter_transport {α : Type} {w : Nat} {s s' si u : Shape} (d : ScatterDims s si u) (d' : ScatterDims s' si u)
    (τ : s.Idx → s'.Idx) (hτ : Function.Injective τ) (f : α → α → α) (idx : IVec si w) (upd : u.Idx → α)
    (hres : ∀ j, d'.resultIdx? j idx = (d.resultIdx? j idx).map τ)
    (x : s.Idx → α) (x' : s'.Idx → α) (hx : ∀ i, x' (τ i) = x i) (i : s.Idx) :
    Host.scatter d' f x' idx upd (τ i) = Host.scatter d f x idx upd i := by
  unfold Host.scatter
  generalize List.finRange u.numel = l
  induction l generalizing x x' i with
  | nil => exact hx i
  | cons n l ih =>
    simp only [List.foldl_cons]
    refine ih _ _ (fun i' => ?_) i
    rw [hres]
    exact step_transport τ hτ f _ _ x x' hx i'

/-- A property of every operand element and every update element holds of every element of a set-scatter. -/
theorem scatter_set_forall {α : Type} {w : Nat} {s si u : Shape} (d : ScatterDims s si u) (p : α → Prop)
    (idx : IVec si w) (upd : u.Idx → α) (hu : ∀ j, p (upd j)) (x : s.Idx → α) (hx : ∀ i, p (x i)) (i : s.Idx) :
    p (Host.scatter d (fun _ b => b) x idx upd i) := by
  unfold Host.scatter
  generalize List.finRange u.numel = l
  induction l generalizing x i with
  | nil => exact hx i
  | cons n l ih =>
    simp only [List.foldl_cons]
    refine ih _ (fun i' => ?_) i
    cases d.resultIdx? (u.rowMajor.symm n) idx with
    | none => exact hx i'
    | some i0 =>
      show p (if i' = i0 then upd (u.rowMajor.symm n) else x i')
      split
      · exact hu _
      · exact hx i'

end Cert.Lib.Scatter
-- ==== Proof.IdxChain.lean ====
/-
  Where each feature row is written in the padded tensor: from the node counts, row `i`'s graph
  (the graph whose run of rows contains `i`) and its position inside that graph's run, both normalised the way an
  index into an axis of that extent is (a negative value moved up by the extent).
-/
import proofs.«142141_j40922448396573_1_alg».proof.Proof.Gen.KernelIdeal
import proofs.«142141_j40922448396573_1_alg».proof.Proof.Spec

noncomputable section

namespace Cert.Pool

open Idealize.ShloMosaic Cert.KernelIdeal Cert.KernelIdeal.Facts₀

/-- The feature rows and the (graph, slot) index pairs. -/
abbrev Sfeat : Shape := ⟨2, ![146763, 256]⟩
abbrev Sidx : Shape := ⟨2, ![146763, 2]⟩

/-- The rank-zero zero every running sum starts from. -/
def zeroS : IVec S_ 32 := broadcastInDim S_ ![] bcast_S_S_ (constantI S_ 32 0#32)

/-- Running sums over the graphs: entry `g` is the sum of entries `0 … g`. -/
def cumsumG (x : IVec S2048 32) : IVec S2048 32 :=
  Host.reduceWindow IntOp.addi ![2048] ![1] ![2047] ![0] x zeroS reduceWindows_S2048_S2048_w2048s1p2047_0 h_S_

/-- Running sums over the feature rows. -/
def cumsumR (x : IVec S146763 32) : IVec S146763 32 :=
  Host.reduceWindow IntOp.addi ![146763] ![1] ![146762] ![0] x zeroS reduceWindows_S146763_S146763_w146763s1p146762_0 h_S_

/-- A graph-indexed value, a negative one moved up by the number of feature rows. -/
def wrapG (x : IVec S2048 32) : IVec S2048 32 :=
  select (cmpi .slt x (broadcastInDim S2048 ![] bcast_S_S2048 (constantI S_ 32 0#32)))
    (addi x (broadcastInDim S2048 ![] bcast_S_S2048 (constantI S_ 32 146763#32))) x

/-- A row-indexed value, a negative one moved up by `k`. -/
def wrapR (k : BitVec 32) (x : IVec S146763 32) : IVec S146763 32 :=
  select (cmpi .slt x (broadcastInDim S146763 ![] bcast_S_S146763 (constantI S_ 32 0#32)))
    (addi x (broadcastInDim S146763 ![] bcast_S_S146763 (constantI S_ 32 k))) x

/-- A row-indexed value as a column of one-component index vectors. -/
def colR (x : IVec S146763 32) : IVec S146763x1 32 :=
  broadcastInDim S146763x1 ![0] bcast_S146763_S146763x1_0 x

/-- The first row of each graph's run: the running sum of the counts less the graph's own count. -/
def offsets (nn : IVec S2048 32) : IVec S2048 32 := subi (cumsumG nn) nn

/-- The counts moved one graph up, the last count coming first. -/
def rolled (nn : IVec S2048 32) : IVec S2048 32 :=
  concatenate S2048 0
    [⟨S1, extractStridedSlice S1 ![2047] nn slices_S2048_S1_2047⟩, ⟨S2047, extractStridedSlice S2047 ![0] nn slices_S2048_S2047_0⟩]
    concatenates_S1_S2047_S2048_d0

/-- The same with entry `0` set to zero: entry `g` is the count of graph `g - 1`. -/
def rolled0 (nn : IVec S2048 32) : IVec S2048 32 :=
  Host.scatter scatter_S2048_S1_S__n_0_0_0 (fun _ b => b) (rolled nn)
    (broadcastInDim S1 ![] bcast_S_S1 (constantI S_ 32 0#32)) (constantI S_ 32 0#32)

/-- The first row of each graph's run, as the running sum of the earlier graphs' counts. -/
def starts (nn : IVec S2048 32) : IVec S2048 32 := cumsumG (rolled0 nn)

/-- The same, normalised as an index into the rows. -/
def startsN (nn : IVec S2048 32) : IVec S2048 32 := wrapG (starts nn)

/-- Per row, how many graphs' runs start at it. -/
def marks (nn : IVec S2048 32) : IVec S146763 32 :=
  Host.scatter scatter_S146763_S2048x1_S2048_n_0_0_1 IntOp.addi
    (broadcastInDim S146763 ![] bcast_S_S146763 (constantI S_ 32 0#32))
    (broadcastInDim S2048x1 ![0] bcast_S2048_S2048x1_0 (startsN nn))
    (broadcastInDim S2048 ![] bcast_S_S2048 (constantI S_ 32 1#32))

/-- Per row, the number of runs started at or before it, less one. -/
def gidRaw (nn : IVec S2048 32) : IVec S146763 32 :=
  subi (cumsumR (marks nn)) (broadcastInDim S146763 ![] bcast_S_S146763 (constantI S_ 32 1#32))

/-- The index column a table of `2048` entries is read at: `i` normalised as an index into it. -/
def takeCol (i : IVec S146763 32) : IVec S146763x1 32 := colR (wrapR 2048#32 i)

/-- The table `0, 1, …, 2047` read at `i`: the entry where the normalised index lies in `0 … 2047`, else the least integer. -/
def takeIota (i : IVec S146763 32) : IVec S146763 32 :=
  select
    (Host.reduce IntOp.andi
      (andi (cmpi .sge (takeCol i) (broadcastInDim S146763x1 ![] bcast_S_S146763x1 (constantI S_ 32 0#32)))
        (cmpi .sle (takeCol i)
          (broadcastInDim S146763x1 ![0, 1] bcast_S1x1_S146763x1_0_1
            (broadcastInDim S1x1 ![1] bcast_S1_S1x1_1 (constantI S1 32 2047#32)))))
      (constantI S_ 1 1#1) reducesTo_S146763x1_S146763_d1 h_S_)
    (Host.gather gather_S2048_S146763x1_S146763_n_0_n_n_0_1_1 (iotaInDim S2048 32 0) (takeCol i))
    (broadcastInDim S146763 ![] bcast_S_S146763 (constantI S_ 32 2147483648#32))

/-- Per row, its graph as the table read leaves it. -/
def gidTaken (nn : IVec S2048 32) : IVec S146763 32 := takeIota (gidRaw nn)

/-- Per row, its graph, normalised as an index into the graphs. -/
def gid (nn : IVec S2048 32) : IVec S146763 32 := wrapR 2048#32 (gidTaken nn)

/-- Per row, its position inside its graph's run: the row number less the run's first row. -/
def slotRaw (nn : IVec S2048 32) : IVec S146763 32 :=
  subi (iotaInDim S146763 32 0) (Host.gather gather_S2048_S146763x1_S146763_n_0_n_n_0_1_1 (offsets nn) (colR (gid nn)))

/-- The same, normalised as an index into the slots. -/
def slot (nn : IVec S2048 32) : IVec S146763 32 := wrapR 128#32 (slotRaw nn)

/-- The (graph, slot) pair of every feature row, as the scatter's index tensor. -/
def idxOf (nn : IVec Snn 32) : IVec Sidx 32 :=
  concatenate S146763x2 1 [⟨S146763x1, colR (gid nn)⟩, ⟨S146763x1, colR (slot nn)⟩]
    concatenates_S146763x1_S146763x1_S146763x2_d1

end Cert.Pool

end
-- ==== Proof.ScatterBridge.lean ====
/-
  The padded features in the two layouts hold the same numbers.
-/
import proofs.«142141_j40922448396573_1_alg».proof.KernelIdeal
import proofs.«142141_j40922448396573_1_alg».proof.ReferenceIdeal
import proofs.«142141_j40922448396573_1_alg».proof.Proof.Gen.KernelIdeal
import proofs.«142141_j40922448396573_1_alg».proof.Proof.Gen.ReferenceIdeal
import proofs.«142141_j40922448396573_1_alg».proof.Proof.LibScatter
import proofs.«142141_j40922448396573_1_alg».proof.Proof.Spec
import proofs.«142141_j40922448396573_1_alg».proof.Proof.IdxChain

noncomputable section

namespace Cert.Pool

open Idealize.ShloMosaic Idealize.ShloMosaic.ValueIdx

/-- The zero tensor the rows are written into, in either layout. -/
abbrev zerosK : Spk.Idx → EReal :=
  broadcastInDim Cert.KernelIdeal.S2048x256x128 ![] Cert.KernelIdeal.Facts₀.bcast_S_S2048x256x128 (constant (F := Ideal) Cert.KernelIdeal.S_ .f32 0x00000000#32)
abbrev zerosR : Spr.Idx → EReal :=
  broadcastInDim Cert.ReferenceIdeal.S2048x128x256 ![] Cert.ReferenceIdeal.Facts₀.bcast_S_S2048x128x256 (constant (F := Ideal) Cert.ReferenceIdeal.S_ .f32 0x00000000#32)

/-- The padded features, feature-major (graph, feature, slot). -/
def padK (x : Sfeat.Idx → EReal) (idx : IVec Sidx 32) : Spk.Idx → EReal :=
  Host.scatter Cert.KernelIdeal.scatter_S2048x256x128_S146763x2_S146763x256_1_02_02_1 (fun _ b => b) zerosK idx x
/-- The padded features, slot-major (graph, slot, feature). -/
def padR (x : Sfeat.Idx → EReal) (idx : IVec Sidx 32) : Spr.Idx → EReal :=
  Host.scatter Cert.ReferenceIdeal.scatter_S2048x128x256_S146763x2_S146763x256_1_01_01_1 (fun _ b => b) zerosR idx x

/-- The two scatters' dimension numbers: both write row `i`'s 256 features at (graph, slot) = the index pair of row `i`;
    one operand keeps the feature axis last, the other in the middle. -/
abbrev dK := Cert.KernelIdeal.scatter_S2048x256x128_S146763x2_S146763x256_1_02_02_1
abbrev dR := Cert.ReferenceIdeal.scatter_S2048x128x256_S146763x2_S146763x256_1_01_01_1

/-- (graph, slot, feature) ↦ (graph, feature, slot). -/
def swap (i : Spr.Idx) : Spk.Idx := ix3 (n0 := 2048) (n1 := 256) (n2 := 128) (i 0) (i 2) (i 1)

theorem swap_injective : Function.Injective swap := by
  intro a b h
  funext k
  match k with
  | ⟨0, _⟩ => exact congrFun h 0
  | ⟨1, _⟩ => exact congrFun h 2
  | ⟨2, _⟩ => exact congrFun h 1

/-- An update element lands, in the feature-major operand, at the swap of where it lands in the slot-major one: on
    each axis the start (the graph, the slot, or nothing) and the window coordinate (the feature, or nothing) are
    the same numbers, the two last axes exchanged; so it falls outside one operand exactly when it falls outside the other. -/
theorem resultIdx_swap (idx : IVec Sidx 32) (j : Sfeat.Idx) :
    dK.resultIdx? j idx = (dR.resultIdx? j idx).map swap := by
  unfold ScatterDims.resultIdx?
  by_cases hR : ∀ a, 0 ≤ dR.start j idx a + dR.window j a ∧ dR.start j idx a + dR.window j a < Cert.ReferenceIdeal.S2048x128x256.size a
  · have hK : ∀ a, 0 ≤ dK.start j idx a + dK.window j a ∧ dK.start j idx a + dK.window j a < Cert.KernelIdeal.S2048x256x128.size a := by
      intro a
      match a with
      | ⟨0, _⟩ => exact hR 0
      | ⟨1, _⟩ => exact hR 2
      | ⟨2, _⟩ => exact hR 1
    rw [dif_pos hR, dif_pos hK, Option.map_some]
    refine congrArg some (funext fun a => ?_)
    match a with
    | ⟨0, _⟩ => rfl
    | ⟨1, _⟩ => rfl
    | ⟨2, _⟩ => rfl
  · have hK : ¬ ∀ a, 0 ≤ dK.start j idx a + dK.window j a ∧ dK.start j idx a + dK.window j a < Cert.KernelIdeal.S2048x256x128.size a :=
      fun hK => hR fun a => match a with
        | ⟨0, _⟩ => hK 0
        | ⟨1, _⟩ => hK 2
        | ⟨2, _⟩ => hK 1
    rw [dif_neg hR, dif_neg hK, Option.map_none]

/-- The same rows written at the same (graph, slot) pairs in the same order: the two padded tensors hold the same number at
    (graph, feature, slot) and at (graph, slot, feature). -/
theorem padK_eq_padR (x : Sfeat.Idx → EReal) (idx : IVec Sidx 32) (g : Fin 2048) (n : Fin 128) (h : Fin 256) :
    padK x idx (ix3 g h n) = padR x idx (ix3 g n h) :=
  Cert.Lib.Scatter.scatter_transport dR dK swap swap_injective (fun _ b => b) idx x (fun j => resultIdx_swap idx j)
    zerosR zerosK (fun _ => rfl) (ix3 g n h)

/-- Every entry of the padded tensor is a zero or a feature: a real number when the features are. -/
theorem padR_real (x : Sfeat.Idx → EReal) (hx : ∀ i, ∃ r : ℝ, x i = (r : EReal)) (idx : IVec Sidx 32) (i : Spr.Idx) :
    ∃ r : ℝ, padR x idx i = (r : EReal) :=
  Cert.Lib.Scatter.scatter_set_forall dR (fun v => ∃ r : ℝ, v = (r : EReal)) idx x hx zerosR
    (fun _ => ⟨0, by show Ideal.ofBits .f32 0x00000000#32 = _; rw [Ideal.ofBits_zero_f32]; rfl⟩) i

end Cert.Pool

end
-- ==== Proof.KernelHost.lean ====
/-
  What the kernel's pallas_call is handed: the arrays the host operations before it leave.
-/
import proofs.«142141_j40922448396573_1_alg».proof.Proof.Gen.KernelIdeal.Frame
import proofs.«142141_j40922448396573_1_alg».proof.Proof.Spec
import proofs.«142141_j40922448396573_1_alg».proof.Proof.IdxChain
import proofs.«142141_j40922448396573_1_alg».proof.Proof.ScatterBridge
import Idealize.ShloMosaic.Lib.StableHlo.Run
import Idealize.ShloMosaic.Lib.StableHlo.Predicate
import Idealize.ShloMosaic.Lib.ValueIdx

set_option maxRecDepth 16384

noncomputable section

namespace Cert.KernelIdeal.KHost

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Operations run one stretch after another. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-! ## What each stretch writes, and that it leaves every other buffer alone -/

/-- The buffers stretch 0 writes. -/
abbrev wr0 : List (Ref sig .tc) := [main_call0_call0_c, main_call0_call0_v0, main_v0]
theorem writes0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr0 (W : Valuation τ sig (Elt Ideal)) (r : Ref sig .tc) (h : r ∉ wr0) :
    StableHlo.after hostOps0 W (Proc.devRef .tc r) = W (Proc.devRef .tc r) :=
  StableHlo.after_of_writes_sub hostOps0 W writes0 h

/-- The buffers stretch 1 writes. -/
abbrev wr1 : List (Ref sig .tc) := [main_v1, main_v2]
theorem writes1 : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr1 (W : Valuation τ sig (Elt Ideal)) (r : Ref sig .tc) (h : r ∉ wr1) :
    StableHlo.after hostOps0_1 W (Proc.devRef .tc r) = W (Proc.devRef .tc r) :=
  StableHlo.after_of_writes_sub hostOps0_1 W writes1 h

/-- The buffers stretch 2 writes. -/
abbrev wr2 : List (Ref sig .tc) := [main_call1_v0, main_call1_v1, main_v3]
theorem writes2 : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr2 (W : Valuation τ sig (Elt Ideal)) (r : Ref sig .tc) (h : r ∉ wr2) :
    StableHlo.after hostOps0_2 W (Proc.devRef .tc r) = W (Proc.devRef .tc r) :=
  StableHlo.after_of_writes_sub hostOps0_2 W writes2 h

/-- The buffers stretch 3 writes. -/
abbrev wr3 : List (Ref sig .tc) := [main_c, main_v4, main_c_0, main_v5]
theorem writes3 : (hostOps0_3 : List (HloOp τ sig (Elt Ideal))).Forall fun op => op.writes ⊆ (wr3.map (Proc.devRef (τ := τ) .tc)).toFinset := by
  simp only [hostOps0_3, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr3 (W : Valuation τ sig (Elt Ideal)) (r : Ref sig .tc) (h : r ∉ wr3) :
    StableHlo.after hostOps0_3 W (Proc.devRef .tc r) = W (Proc.devRef .tc r) :=
  StableHlo.after_of_writes_sub hostOps0_3 W writes3 h

/-- The buffers stretch 4 writes. -/
abbrev wr4 : List (Ref sig .tc) := [main_call2_call0_c, main_call2_call0_v0, main_v6]
theorem writes4 : (hostOps0_4 : List (HloOp τ sig (Elt Ideal))).Forall fun op => op.writes ⊆ (wr4.map (Proc.devRef (τ := τ) .tc)).toFinset := by
  simp only [hostOps0_4, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr4 (W : Valuation τ sig (Elt Ideal)) (r : Ref sig .tc) (h : r ∉ wr4) :
    StableHlo.after hostOps0_4 W (Proc.devRef .tc r) = W (Proc.devRef .tc r) :=
  StableHlo.after_of_writes_sub hostOps0_4 W writes4 h

/-- The buffers stretch 5 writes. -/
abbrev wr5 : List (Ref sig .tc) := [main_c_1, main_v7, main_c_2, main_v8, main_v9, main_c_3, main_v10, main_v11, main_v12, main_v13, main_c_4, main_v14, main_v15]
theorem writes5 : (hostOps0_5 : List (HloOp τ sig (Elt Ideal))).Forall fun op => op.writes ⊆ (wr5.map (Proc.devRef (τ := τ) .tc)).toFinset := by
  simp only [hostOps0_5, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr5 (W : Valuation τ sig (Elt Ideal)) (r : Ref sig .tc) (h : r ∉ wr5) :
    StableHlo.after hostOps0_5 W (Proc.devRef .tc r) = W (Proc.devRef .tc r) :=
  StableHlo.after_of_writes_sub hostOps0_5 W writes5 h

/-- The buffers stretch 6 writes. -/
abbrev wr6 : List (Ref sig .tc) := [main_call3_call0_c, main_call3_call0_v0, main_v16]
theorem writes6 : (hostOps0_6 : List (HloOp τ sig (Elt Ideal))).Forall fun op => op.writes ⊆ (wr6.map (Proc.devRef (τ := τ) .tc)).toFinset := by
  simp only [hostOps0_6, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr6 (W : Valuation τ sig (Elt Ideal)) (r : Ref sig .tc) (h : r ∉ wr6) :
    StableHlo.after hostOps0_6 W (Proc.devRef .tc r) = W (Proc.devRef .tc r) :=
  StableHlo.after_of_writes_sub hostOps0_6 W writes6 h

/-- The buffers stretch 7 writes. -/
abbrev wr7 : List (Ref sig .tc) := [main_c_5, main_v17, main_v18]
theorem writes7 : (hostOps0_7 : List (HloOp τ sig (Elt Ideal))).Forall fun op => op.writes ⊆ (wr7.map (Proc.devRef (τ := τ) .tc)).toFinset := by
  simp only [hostOps0_7, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr7 (W : Valuation τ sig (Elt Ideal)) (r : Ref sig .tc) (h : r ∉ wr7) :
    StableHlo.after hostOps0_7 W (Proc.devRef .tc r) = W (Proc.devRef .tc r) :=
  StableHlo.after_of_writes_sub hostOps0_7 W writes7 h

/-- The buffers stretch 8 writes. -/
abbrev wr8 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_c_4, main_call4_v14, main_v19]
theorem writes8 : (hostOps0_8 : List (HloOp τ sig (Elt Ideal))).Forall fun op => op.writes ⊆ (wr8.map (Proc.devRef (τ := τ) .tc)).toFinset := by
  simp only [hostOps0_8, List.Forall, StableHlo.nullary_writes, StableHlo.unary_writes, StableHlo.binary_writes, StableHlo.ternary_writes,
    Finset.singleton_subset_iff, List.mem_toFinset]
  repeat' apply And.intro
  all_goals exact List.mem_map_of_mem (by decide)
theorem fr8 (W : Valuation τ sig (Elt Ideal)) (r : Ref sig .tc) (h : r ∉ wr8) :
    StableHlo.after hostOps0_8 W (Proc.devRef .tc r) = W (Proc.devRef .tc r) :=
  StableHlo.after_of_writes_sub hostOps0_8 W writes8 h

/-! ## What each stretch leaves at the buffers later stretches read -/

section Stages
variable (W : Valuation τ sig (Elt Ideal))

theorem st0_v0 : StableHlo.after hostOps0 W (main_v0 : DevRef τ sig) = Cert.Pool.cumsumG (W (main_arg1 : DevRef τ sig)) := by
  simp only [hostOps0]; after_results; simp only [StableHlo.TRef.toBuf, StableHlo.TRef.ofBuf, cast_eq]
  simp only [Cert.Pool.cumsumG, Cert.Pool.zeroS]

theorem st1_v1 : StableHlo.after hostOps0_1 W (main_v1 : DevRef τ sig) = subi (W (main_v0 : DevRef τ sig)) (W (main_arg1 : DevRef τ sig)) := by
  simp only [hostOps0_1]; after_results
theorem st1_v2 : StableHlo.after hostOps0_1 W (main_v2 : DevRef τ sig) = iotaInDim S2048 32 0 := by
  simp only [hostOps0_1]; after_results

theorem st2_v3 : StableHlo.after hostOps0_2 W (main_v3 : DevRef τ sig) = Cert.Pool.rolled (W (main_arg1 : DevRef τ sig)) := by
  simp only [hostOps0_2]; after_results; simp only [StableHlo.TRef.toBuf, StableHlo.TRef.ofBuf, cast_eq]
  simp only [Cert.Pool.rolled]

theorem st3_v5 (nn : IVec S2048 32) (h3 : W (main_v3 : DevRef τ sig) = Cert.Pool.rolled nn) :
    StableHlo.after hostOps0_3 W (main_v5 : DevRef τ sig) = Cert.Pool.rolled0 nn := by
  simp only [hostOps0_3]; after_results; rw [h3]
  simp only [Cert.Pool.rolled0]

theorem st4_v6 (nn : IVec S2048 32) (h5 : W (main_v5 : DevRef τ sig) = Cert.Pool.rolled0 nn) :
    StableHlo.after hostOps0_4 W (main_v6 : DevRef τ sig) = Cert.Pool.starts nn := by
  simp only [hostOps0_4]; after_results; simp only [StableHlo.TRef.toBuf, StableHlo.TRef.ofBuf, cast_eq]; rw [h5]
  simp only [Cert.Pool.starts, Cert.Pool.cumsumG, Cert.Pool.zeroS]

theorem st5_v15 (nn : IVec S2048 32) (h6 : W (main_v6 : DevRef τ sig) = Cert.Pool.starts nn) :
    StableHlo.after hostOps0_5 W (main_v15 : DevRef τ sig) = Cert.Pool.marks nn := by
  simp only [hostOps0_5]; after_results; rw [h6]
  simp only [Cert.Pool.marks, Cert.Pool.startsN, Cert.Pool.wrapG]

theorem st6_v16 (nn : IVec S2048 32) (h15 : W (main_v15 : DevRef τ sig) = Cert.Pool.marks nn) :
    StableHlo.after hostOps0_6 W (main_v16 : DevRef τ sig) = Cert.Pool.cumsumR (Cert.Pool.marks nn) := by
  simp only [hostOps0_6]; after_results; simp only [StableHlo.TRef.toBuf, StableHlo.TRef.ofBuf, cast_eq]; rw [h15]
  simp only [Cert.Pool.cumsumR, Cert.Pool.zeroS]

theorem st7_v18 (nn : IVec S2048 32) (h16 : W (main_v16 : DevRef τ sig) = Cert.Pool.cumsumR (Cert.Pool.marks nn)) :
    StableHlo.after hostOps0_7 W (main_v18 : DevRef τ sig) = Cert.Pool.gidRaw nn := by
  simp only [hostOps0_7]; after_results; rw [h16]
  simp only [Cert.Pool.gidRaw]

theorem st8_v19 (nn : IVec S2048 32) (h18 : W (main_v18 : DevRef τ sig) = Cert.Pool.gidRaw nn) (h2 : W (main_v2 : DevRef τ sig) = iotaInDim S2048 32 0) :
    StableHlo.after hostOps0_8 W (main_v19 : DevRef τ sig) = Cert.Pool.gidTaken nn := by
  simp only [hostOps0_8]; after_results_simp; simp only [StableHlo.TRef.toBuf, StableHlo.TRef.ofBuf, cast_eq]; rw [h18, h2]
  simp only [Cert.Pool.gidTaken, Cert.Pool.takeIota, Cert.Pool.takeCol, Cert.Pool.colR, Cert.Pool.wrapR]

end Stages

/-! ## The last stretch in three pieces: up to the two index columns, the concatenate and the scatter, the rest -/

abbrev h9A : List (HloOp τ sig (Elt Ideal)) := List.take 29 hostOps0_9
abbrev h9B : List (HloOp τ sig (Elt Ideal)) := List.take 2 (List.drop 29 hostOps0_9)
abbrev h9C : List (HloOp τ sig (Elt Ideal)) := List.drop 31 hostOps0_9
theorem h9_split : (hostOps0_9 : List (HloOp τ sig (Elt Ideal))) = h9A ++ (h9B ++ h9C) := rfl

section Stage9
variable (W : Valuation τ sig (Elt Ideal))

theorem stA_v29 : StableHlo.after h9A W (main_v29 : DevRef τ sig) = Cert.Pool.zerosK := by
  simp only [h9A, hostOps0_9, List.take_succ_cons, List.take_zero]; after_results_simp
theorem stA_v40 (nn : IVec S2048 32) (h19 : W (main_v19 : DevRef τ sig) = Cert.Pool.gidTaken nn) :
    StableHlo.after h9A W (main_v40 : DevRef τ sig) = Cert.Pool.colR (Cert.Pool.gid nn) := by
  simp only [h9A, hostOps0_9, List.take_succ_cons, List.take_zero]; after_results_simp; rw [h19]
  simp only [Cert.Pool.gid, Cert.Pool.colR, Cert.Pool.wrapR]
theorem stA_v41 (nn : IVec S2048 32) (h19 : W (main_v19 : DevRef τ sig) = Cert.Pool.gidTaken nn) (h1 : W (main_v1 : DevRef τ sig) = Cert.Pool.offsets nn) :
    StableHlo.after h9A W (main_v41 : DevRef τ sig) = Cert.Pool.colR (Cert.Pool.slot nn) := by
  simp only [h9A, hostOps0_9, List.take_succ_cons, List.take_zero]; after_results_simp; rw [h19, h1]
  simp only [Cert.Pool.gid, Cert.Pool.slot, Cert.Pool.slotRaw, Cert.Pool.colR, Cert.Pool.wrapR]
theorem frA_main_arg0 : StableHlo.after h9A W (main_arg0 : DevRef τ sig) = W (main_arg0 : DevRef τ sig) := by
  simp only [h9A, hostOps0_9, List.take_succ_cons, List.take_zero]; after_results_simp
theorem frA_main_arg1 : StableHlo.after h9A W (main_arg1 : DevRef τ sig) = W (main_arg1 : DevRef τ sig) := by
  simp only [h9A, hostOps0_9, List.take_succ_cons, List.take_zero]; after_results_simp
theorem frA_main_arg2 : StableHlo.after h9A W (main_arg2 : DevRef τ sig) = W (main_arg2 : DevRef τ sig) := by
  simp only [h9A, hostOps0_9, List.take_succ_cons, List.take_zero]; after_results_simp
theorem frA_main_arg4 : StableHlo.after h9A W (main_arg4 : DevRef τ sig) = W (main_arg4 : DevRef τ sig) := by
  simp only [h9A, hostOps0_9, List.take_succ_cons, List.take_zero]; after_results_simp
theorem frA_main_arg6 : StableHlo.after h9A W (main_arg6 : DevRef τ sig) = W (main_arg6 : DevRef τ sig) := by
  simp only [h9A, hostOps0_9, List.take_succ_cons, List.take_zero]; after_results_simp

theorem stB_v43 (x : Cert.Pool.Sfeat.Idx → EReal) (nn : IVec S2048 32) (h29 : W (main_v29 : DevRef τ sig) = Cert.Pool.zerosK)
    (h40 : W (main_v40 : DevRef τ sig) = Cert.Pool.colR (Cert.Pool.gid nn)) (h41 : W (main_v41 : DevRef τ sig) = Cert.Pool.colR (Cert.Pool.slot nn))
    (h0 : W (main_arg0 : DevRef τ sig) = x) :
    StableHlo.after h9B W (main_v43 : DevRef τ sig) = Cert.Pool.padK x (Cert.Pool.idxOf nn) := by
  simp only [h9B, hostOps0_9, List.take_succ_cons, List.take_zero, List.drop_succ_cons, List.drop_zero]; after_results; rw [h29, h40, h41, h0]
  simp only [Cert.Pool.padK, Cert.Pool.idxOf]
theorem frB_main_arg1 : StableHlo.after h9B W (main_arg1 : DevRef τ sig) = W (main_arg1 : DevRef τ sig) := by
  simp only [h9B, hostOps0_9, List.take_succ_cons, List.take_zero, List.drop_succ_cons, List.drop_zero]; after_results
theorem frB_main_arg2 : StableHlo.after h9B W (main_arg2 : DevRef τ sig) = W (main_arg2 : DevRef τ sig) := by
  simp only [h9B, hostOps0_9, List.take_succ_cons, List.take_zero, List.drop_succ_cons, List.drop_zero]; after_results
theorem frB_main_arg4 : StableHlo.after h9B W (main_arg4 : DevRef τ sig) = W (main_arg4 : DevRef τ sig) := by
  simp only [h9B, hostOps0_9, List.take_succ_cons, List.take_zero, List.drop_succ_cons, List.drop_zero]; after_results
theorem frB_main_arg6 : StableHlo.after h9B W (main_arg6 : DevRef τ sig) = W (main_arg6 : DevRef τ sig) := by
  simp only [h9B, hostOps0_9, List.take_succ_cons, List.take_zero, List.drop_succ_cons, List.drop_zero]; after_results

theorem frC_v43 : StableHlo.after h9C W (main_v43 : DevRef τ sig) = W (main_v43 : DevRef τ sig) := by
  simp only [h9C, hostOps0_9, List.drop_succ_cons, List.drop_zero]; after_results_simp
theorem stC_v55 : StableHlo.after h9C W (main_v55 : DevRef τ sig) = (truncf (F := Ideal) .bf16 (W (main_arg2 : DevRef τ sig)) bitsLt_bf16_f32 : S256x256.Idx → EReal) := by
  simp only [h9C, hostOps0_9, List.drop_succ_cons, List.drop_zero]; after_results_simp
theorem stC_v56 : StableHlo.after h9C W (main_v56 : DevRef τ sig) = (truncf (F := Ideal) .bf16 (W (main_arg4 : DevRef τ sig)) bitsLt_bf16_f32 : S256x256.Idx → EReal) := by
  simp only [h9C, hostOps0_9, List.drop_succ_cons, List.drop_zero]; after_results_simp
theorem stC_v57 : StableHlo.after h9C W (main_v57 : DevRef τ sig) = (truncf (F := Ideal) .bf16 (W (main_arg6 : DevRef τ sig)) bitsLt_bf16_f32 : S256x256.Idx → EReal) := by
  simp only [h9C, hostOps0_9, List.drop_succ_cons, List.drop_zero]; after_results_simp
theorem stC_v54 : StableHlo.after h9C W (main_v54 : DevRef τ sig)
    = Host.divf (F := Ideal)
        (uitofp .f32 (cmpi .slt
          (broadcastInDim S2048x128 ![0, 1] bcast_S1x128_S2048x128_0_1 (broadcastInDim S1x128 ![1] bcast_S128_S1x128_1 (iotaInDim S128 32 0)))
          (broadcastInDim S2048x128 ![0, 1] bcast_S2048x1_S2048x128_0_1 (broadcastInDim S2048x1 ![0] bcast_S2048_S2048x1_0 (W (main_arg1 : DevRef τ sig))))))
        (broadcastInDim S2048x128 ![0, 1] bcast_S2048x1_S2048x128_0_1 (broadcastInDim S2048x1 ![0] bcast_S2048_S2048x1_0 (sitofp .f32 (W (main_arg1 : DevRef τ sig))))) := by
  simp only [h9C, hostOps0_9, List.drop_succ_cons, List.drop_zero]; after_results_simp

end Stage9

/-! ## The buffers after each stretch, from the launch contents -/

section Chain
variable (c : Dev nD)

/-- The node counts as launched. -/
abbrev NN : IVec S2048 32 := m ((c : Thread nD τ).loc main_arg1)

/-- Core `c`'s buffers at launch, and after each stretch in turn. -/
abbrev W0 : Valuation τ sig (Elt Ideal) := fun b => m (c, b)
abbrev W1 : Valuation τ sig (Elt Ideal) := StableHlo.after hostOps0 (W0 m c)
abbrev W2 : Valuation τ sig (Elt Ideal) := StableHlo.after hostOps0_1 (W1 m c)
abbrev W3 : Valuation τ sig (Elt Ideal) := StableHlo.after hostOps0_2 (W2 m c)
abbrev W4 : Valuation τ sig (Elt Ideal) := StableHlo.after hostOps0_3 (W3 m c)
abbrev W5 : Valuation τ sig (Elt Ideal) := StableHlo.after hostOps0_4 (W4 m c)
abbrev W6 : Valuation τ sig (Elt Ideal) := StableHlo.after hostOps0_5 (W5 m c)
abbrev W7 : Valuation τ sig (Elt Ideal) := StableHlo.after hostOps0_6 (W6 m c)
abbrev W8 : Valuation τ sig (Elt Ideal) := StableHlo.after hostOps0_7 (W7 m c)
abbrev W9 : Valuation τ sig (Elt Ideal) := StableHlo.after hostOps0_8 (W8 m c)
abbrev WA : Valuation τ sig (Elt Ideal) := StableHlo.after h9A (W9 m c)
abbrev WB : Valuation τ sig (Elt Ideal) := StableHlo.after h9B (WA m c)
abbrev WC : Valuation τ sig (Elt Ideal) := StableHlo.after h9C (WB m c)

/-- The buffers when the region is entered are those after the last piece. -/
theorem V_eq (b : Ref sig .tc) : V m c b = WC m c (Proc.devRef .tc b) := by
  show StableHlo.after (List.flatten [hostOps0, hostOps0_1, hostOps0_2, hostOps0_3, hostOps0_4, hostOps0_5, hostOps0_6, hostOps0_7, hostOps0_8, hostOps0_9]) (fun b => m (c, b)) (Proc.devRef .tc b) = _
  simp only [List.flatten_cons, List.flatten_nil, List.append_nil]
  rw [h9_split]
  simp only [after_append]

/-! ### The arguments stay as launched -/

theorem main_arg0_W0 : W0 m c (main_arg0 : DevRef τ sig) = m ((c : Thread nD τ).loc main_arg0) := rfl
theorem main_arg0_W1 : W1 m c (main_arg0 : DevRef τ sig) = m ((c : Thread nD τ).loc main_arg0) := (fr0 (W0 m c) main_arg0 (by decide)).trans (main_arg0_W0 m c)
theorem main_arg0_W2 : W2 m c (main_arg0 : DevRef τ sig) = m ((c : Thread nD τ).loc main_arg0) := (fr1 (W1 m c) main_arg0 (by decide)).trans (main_arg0_W1 m c)
theorem main_arg0_W3 : W3 m c (main_arg0 : DevRef τ sig) = m ((c : Thread nD τ).loc main_arg0) := (fr2 (W2 m c) main_arg0 (by decide)).trans (main_arg0_W2 m c)
theorem main_arg0_W4 : W4 m c (main_arg0 : DevRef τ sig) = m ((c : Thread nD τ).loc main_arg0) := (fr3 (W3 m c) main_arg0 (by decide)).trans (main_arg0_W3 m c)
theorem main_arg0_W5 : W5 m c (main_arg0 : DevRef τ sig) = m ((c : Thread nD τ).loc main_arg0) := (fr4 (W4 m c) main_arg0 (by decide)).trans (main_arg0_W4 m c)
theorem main_arg0_W6 : W6 m c (main_arg0 : DevRef τ sig) = m ((c : Thread nD τ).loc main_arg0) := (fr5 (W5 m c) main_arg0 (by decide)).trans (main_arg0_W5 m c)
theorem main_arg0_W7 : W7 m c (main_arg0 : DevRef τ sig) = m ((c : Thread nD τ).loc main_arg0) := (fr6 (W6 m c) main_arg0 (by decide)).trans (main_arg0_W6 m c)
theorem main_arg0_W8 : W8 m c (main_arg0 : DevRef τ sig) = m ((c : Thread nD τ).loc main_arg0) := (fr7 (W7 m c) main_arg0 (by decide)).trans (main_arg0_W7 m c)
theorem main_arg0_W9 : W9 m c (main_arg0 : DevRef τ sig) = m ((c : Thread nD τ).loc main_arg0) := (fr8 (W8 m c) main_arg0 (by decide)).trans (main_arg0_W8 m c)
theorem main_arg0_WA : WA m c (main_arg0 : DevRef τ sig) = m ((c : Thread nD τ).loc main_arg0) := (frA_main_arg0 (W9 m c)).trans (main_arg0_W9 m c)

theorem main_arg1_W0 : W0 m c (main_arg1 : DevRef τ sig) = m ((c : Thread nD τ).loc main_arg1) := rfl
theorem main_arg1_W1 : W1 m c (main_arg1 : DevRef τ sig) = m ((c : Thread nD τ).loc main_arg1) := (fr0 (W0 m c) main_arg1 (by decide)).trans (main_arg1_W0 m c)
theorem main_arg1_W2 : W2 m c (main_arg1 : DevRef τ sig) = m ((c : Thread nD τ).loc main_arg1) := (fr1 (W1 m c) main_arg1 (by decide)).trans (main_arg1_W1 m c)
theorem main_arg1_W3 : W3 m c (main_arg1 : DevRef τ sig) = m ((c : Thread nD τ).loc main_arg1) := (fr2 (W2 m c) main_arg1 (by decide)).trans (main_arg1_W2 m c)
theorem main_arg1_W4 : W4 m c (main_arg1 : DevRef τ sig) = m ((c : Thread nD τ).loc main_arg1) := (fr3 (W3 m c) main_arg1 (by decide)).trans (main_arg1_W3 m c)
theorem main_arg1_W5 : W5 m c (main_arg1 : DevRef τ sig) = m ((c : Thread nD τ).loc main_arg1) := (fr4 (W4 m c) main_arg1 (by decide)).trans (main_arg1_W4 m c)
theorem main_arg1_W6 : W6 m c (main_arg1 : DevRef τ sig) = m ((c : Thread nD τ).loc main_arg1) := (fr5 (W5 m c) main_arg1 (by decide)).trans (main_arg1_W5 m c)
theorem main_arg1_W7 : W7 m c (main_arg1 : DevRef τ sig) = m ((c : Thread nD τ).loc main_arg1) := (fr6 (W6 m c) main_arg1 (by decide)).trans (main_arg1_W6 m c)
theorem main_arg1_W8 : W8 m c (main_arg1 : DevRef τ sig) = m ((c : Thread nD τ).loc main_arg1) := (fr7 (W7 m c) main_arg1 (by decide)).trans (main_arg1_W7 m c)
theorem main_arg1_W9 : W9 m c (main_arg1 : DevRef τ sig) = m ((c : Thread nD τ).loc main_arg1) := (fr8 (W8 m c) main_arg1 (by decide)).trans (main_arg1_W8 m c)
theorem main_arg1_WA : WA m c (main_arg1 : DevRef τ sig) = m ((c : Thread nD τ).loc main_arg1) := (frA_main_arg1 (W9 m c)).trans (main_arg1_W9 m c)
theorem main_arg1_WB : WB m c (main_arg1 : DevRef τ sig) = m ((c : Thread nD τ).loc main_arg1) := (frB_main_arg1 (WA m c)).trans (main_arg1_WA m c)

theorem main_arg2_W0 : W0 m c (main_arg2 : DevRef τ sig) = m ((c : Thread nD τ).loc main_arg2) := rfl
theorem main_arg2_W1 : W1 m c (main_arg2 : DevRef τ sig) = m ((c : Thread nD τ).loc main_arg2) := (fr0 (W0 m c) main_arg2 (by decide)).trans (main_arg2_W0 m c)
theorem main_arg2_W2 : W2 m c (main_arg2 : DevRef τ sig) = m ((c : Thread nD τ).loc main_arg2) := (fr1 (W1 m c) main_arg2 (by decide)).trans (main_arg2_W1 m c)
theorem main_arg2_W3 : W3 m c (main_arg2 : DevRef τ sig) = m ((c : Thread nD τ).loc main_arg2) := (fr2 (W2 m c) main_arg2 (by decide)).trans (main_arg2_W2 m c)
theorem main_arg2_W4 : W4 m c (main_arg2 : DevRef τ sig) = m ((c : Thread nD τ).loc main_arg2) := (fr3 (W3 m c) main_arg2 (by decide)).trans (main_arg2_W3 m c)
theorem main_arg2_W5 : W5 m c (main_arg2 : DevRef τ sig) = m ((c : Thread nD τ).loc main_arg2) := (fr4 (W4 m c) main_arg2 (by decide)).trans (main_arg2_W4 m c)
theorem main_arg2_W6 : W6 m c (main_arg2 : DevRef τ sig) = m ((c : Thread nD τ).loc main_arg2) := (fr5 (W5 m c) main_arg2 (by decide)).trans (main_arg2_W5 m c)
theorem main_arg2_W7 : W7 m c (main_arg2 : DevRef τ sig) = m ((c : Thread nD τ).loc main_arg2) := (fr6 (W6 m c) main_arg2 (by decide)).trans (main_arg2_W6 m c)
theorem main_arg2_W8 : W8 m c (main_arg2 : DevRef τ sig) = m ((c : Thread nD τ).loc main_arg2) := (fr7 (W7 m c) main_arg2 (by decide)).trans (main_arg2_W7 m c)
theorem main_arg2_W9 : W9 m c (main_arg2 : DevRef τ sig) = m ((c : Thread nD τ).loc main_arg2) := (fr8 (W8 m c) main_arg2 (by decide)).trans (main_arg2_W8 m c)
theorem main_arg2_WA : WA m c (main_arg2 : DevRef τ sig) = m ((c : Thread nD τ).loc main_arg2) := (frA_main_arg2 (W9 m c)).trans (main_arg2_W9 m c)
theorem main_arg2_WB : WB m c (main_arg2 : DevRef τ sig) = m ((c : Thread nD τ).loc main_arg2) := (frB_main_arg2 (WA m c)).trans (main_arg2_WA m c)

theorem main_arg4_W0 : W0 m c (main_arg4 : DevRef τ sig) = m ((c : Thread nD τ).loc main_arg4) := rfl
theorem main_arg4_W1 : W1 m c (main_arg4 : DevRef τ sig) = m ((c : Thread nD τ).loc main_arg4) := (fr0 (W0 m c) main_arg4 (by decide)).trans (main_arg4_W0 m c)
theorem main_arg4_W2 : W2 m c (main_arg4 : DevRef τ sig) = m ((c : Thread nD τ).loc main_arg4) := (fr1 (W1 m c) main_arg4 (by decide)).trans (main_arg4_W1 m c)
theorem main_arg4_W3 : W3 m c (main_arg4 : DevRef τ sig) = m ((c : Thread nD τ).loc main_arg4) := (fr2 (W2 m c) main_arg4 (by decide)).trans (main_arg4_W2 m c)
theorem main_arg4_W4 : W4 m c (main_arg4 : DevRef τ sig) = m ((c : Thread nD τ).loc main_arg4) := (fr3 (W3 m c) main_arg4 (by decide)).trans (main_arg4_W3 m c)
theorem main_arg4_W5 : W5 m c (main_arg4 : DevRef τ sig) = m ((c : Thread nD τ).loc main_arg4) := (fr4 (W4 m c) main_arg4 (by decide)).trans (main_arg4_W4 m c)
theorem main_arg4_W6 : W6 m c (main_arg4 : DevRef τ sig) = m ((c : Thread nD τ).loc main_arg4) := (fr5 (W5 m c) main_arg4 (by decide)).trans (main_arg4_W5 m c)
theorem main_arg4_W7 : W7 m c (main_arg4 : DevRef τ sig) = m ((c : Thread nD τ).loc main_arg4) := (fr6 (W6 m c) main_arg4 (by decide)).trans (main_arg4_W6 m c)
theorem main_arg4_W8 : W8 m c (main_arg4 : DevRef τ sig) = m ((c : Thread nD τ).loc main_arg4) := (fr7 (W7 m c) main_arg4 (by decide)).trans (main_arg4_W7 m c)
theorem main_arg4_W9 : W9 m c (main_arg4 : DevRef τ sig) = m ((c : Thread nD τ).loc main_arg4) := (fr8 (W8 m c) main_arg4 (by decide)).trans (main_arg4_W8 m c)
theorem main_arg4_WA : WA m c (main_arg4 : DevRef τ sig) = m ((c : Thread nD τ).loc main_arg4) := (frA_main_arg4 (W9 m c)).trans (main_arg4_W9 m c)
theorem main_arg4_WB : WB m c (main_arg4 : DevRef τ sig) = m ((c : Thread nD τ).loc main_arg4) := (frB_main_arg4 (WA m c)).trans (main_arg4_WA m c)

theorem main_arg6_W0 : W0 m c (main_arg6 : DevRef τ sig) = m ((c : Thread nD τ).loc main_arg6) := rfl
theorem main_arg6_W1 : W1 m c (main_arg6 : DevRef τ sig) = m ((c : Thread nD τ).loc main_arg6) := (fr0 (W0 m c) main_arg6 (by decide)).trans (main_arg6_W0 m c)
theorem main_arg6_W2 : W2 m c (main_arg6 : DevRef τ sig) = m ((c : Thread nD τ).loc main_arg6) := (fr1 (W1 m c) main_arg6 (by decide)).trans (main_arg6_W1 m c)
theorem main_arg6_W3 : W3 m c (main_arg6 : DevRef τ sig) = m ((c : Thread nD τ).loc main_arg6) := (fr2 (W2 m c) main_arg6 (by decide)).trans (main_arg6_W2 m c)
theorem main_arg6_W4 : W4 m c (main_arg6 : DevRef τ sig) = m ((c : Thread nD τ).loc main_arg6) := (fr3 (W3 m c) main_arg6 (by decide)).trans (main_arg6_W3 m c)
theorem main_arg6_W5 : W5 m c (main_arg6 : DevRef τ sig) = m ((c : Thread nD τ).loc main_arg6) := (fr4 (W4 m c) main_arg6 (by decide)).trans (main_arg6_W4 m c)
theorem main_arg6_W6 : W6 m c (main_arg6 : DevRef τ sig) = m ((c : Thread nD τ).loc main_arg6) := (fr5 (W5 m c) main_arg6 (by decide)).trans (main_arg6_W5 m c)
theorem main_arg6_W7 : W7 m c (main_arg6 : DevRef τ sig) = m ((c : Thread nD τ).loc main_arg6) := (fr6 (W6 m c) main_arg6 (by decide)).trans (main_arg6_W6 m c)
theorem main_arg6_W8 : W8 m c (main_arg6 : DevRef τ sig) = m ((c : Thread nD τ).loc main_arg6) := (fr7 (W7 m c) main_arg6 (by decide)).trans (main_arg6_W7 m c)
theorem main_arg6_W9 : W9 m c (main_arg6 : DevRef τ sig) = m ((c : Thread nD τ).loc main_arg6) := (fr8 (W8 m c) main_arg6 (by decide)).trans (main_arg6_W8 m c)
theorem main_arg6_WA : WA m c (main_arg6 : DevRef τ sig) = m ((c : Thread nD τ).loc main_arg6) := (frA_main_arg6 (W9 m c)).trans (main_arg6_W9 m c)
theorem main_arg6_WB : WB m c (main_arg6 : DevRef τ sig) = m ((c : Thread nD τ).loc main_arg6) := (frB_main_arg6 (WA m c)).trans (main_arg6_WA m c)

/-! ### The index chain, value by value -/

theorem v0_W1 : W1 m c (main_v0 : DevRef τ sig) = Cert.Pool.cumsumG (NN m c) := st0_v0 (W0 m c)
theorem v1_W2 : W2 m c (main_v1 : DevRef τ sig) = Cert.Pool.offsets (NN m c) := by
  have h := st1_v1 (W1 m c)
  rw [v0_W1 m c, main_arg1_W1 m c] at h
  exact h
theorem v2_W2 : W2 m c (main_v2 : DevRef τ sig) = iotaInDim S2048 32 0 := st1_v2 (W1 m c)
theorem v1_W3 : W3 m c (main_v1 : DevRef τ sig) = Cert.Pool.offsets (NN m c) := (fr2 (W2 m c) main_v1 (by decide)).trans (v1_W2 m c)
theorem v1_W4 : W4 m c (main_v1 : DevRef τ sig) = Cert.Pool.offsets (NN m c) := (fr3 (W3 m c) main_v1 (by decide)).trans (v1_W3 m c)
theorem v1_W5 : W5 m c (main_v1 : DevRef τ sig) = Cert.Pool.offsets (NN m c) := (fr4 (W4 m c) main_v1 (by decide)).trans (v1_W4 m c)
theorem v1_W6 : W6 m c (main_v1 : DevRef τ sig) = Cert.Pool.offsets (NN m c) := (fr5 (W5 m c) main_v1 (by decide)).trans (v1_W5 m c)
theorem v1_W7 : W7 m c (main_v1 : DevRef τ sig) = Cert.Pool.offsets (NN m c) := (fr6 (W6 m c) main_v1 (by decide)).trans (v1_W6 m c)
theorem v1_W8 : W8 m c (main_v1 : DevRef τ sig) = Cert.Pool.offsets (NN m c) := (fr7 (W7 m c) main_v1 (by decide)).trans (v1_W7 m c)
theorem v1_W9 : W9 m c (main_v1 : DevRef τ sig) = Cert.Pool.offsets (NN m c) := (fr8 (W8 m c) main_v1 (by decide)).trans (v1_W8 m c)
theorem v2_W3 : W3 m c (main_v2 : DevRef τ sig) = iotaInDim S2048 32 0 := (fr2 (W2 m c) main_v2 (by decide)).trans (v2_W2 m c)
theorem v2_W4 : W4 m c (main_v2 : DevRef τ sig) = iotaInDim S2048 32 0 := (fr3 (W3 m c) main_v2 (by decide)).trans (v2_W3 m c)
theorem v2_W5 : W5 m c (main_v2 : DevRef τ sig) = iotaInDim S2048 32 0 := (fr4 (W4 m c) main_v2 (by decide)).trans (v2_W4 m c)
theorem v2_W6 : W6 m c (main_v2 : DevRef τ sig) = iotaInDim S2048 32 0 := (fr5 (W5 m c) main_v2 (by decide)).trans (v2_W5 m c)
theorem v2_W7 : W7 m c (main_v2 : DevRef τ sig) = iotaInDim S2048 32 0 := (fr6 (W6 m c) main_v2 (by decide)).trans (v2_W6 m c)
theorem v2_W8 : W8 m c (main_v2 : DevRef τ sig) = iotaInDim S2048 32 0 := (fr7 (W7 m c) main_v2 (by decide)).trans (v2_W7 m c)
theorem v3_W3 : W3 m c (main_v3 : DevRef τ sig) = Cert.Pool.rolled (NN m c) := by
  have h := st2_v3 (W2 m c)
  rw [main_arg1_W2 m c] at h
  exact h
theorem v5_W4 : W4 m c (main_v5 : DevRef τ sig) = Cert.Pool.rolled0 (NN m c) := st3_v5 (W3 m c) (NN m c) (v3_W3 m c)
theorem v6_W5 : W5 m c (main_v6 : DevRef τ sig) = Cert.Pool.starts (NN m c) := st4_v6 (W4 m c) (NN m c) (v5_W4 m c)
theorem v15_W6 : W6 m c (main_v15 : DevRef τ sig) = Cert.Pool.marks (NN m c) := st5_v15 (W5 m c) (NN m c) (v6_W5 m c)
theorem v16_W7 : W7 m c (main_v16 : DevRef τ sig) = Cert.Pool.cumsumR (Cert.Pool.marks (NN m c)) := st6_v16 (W6 m c) (NN m c) (v15_W6 m c)
theorem v18_W8 : W8 m c (main_v18 : DevRef τ sig) = Cert.Pool.gidRaw (NN m c) := st7_v18 (W7 m c) (NN m c) (v16_W7 m c)
theorem v19_W9 : W9 m c (main_v19 : DevRef τ sig) = Cert.Pool.gidTaken (NN m c) := st8_v19 (W8 m c) (NN m c) (v18_W8 m c) (v2_W8 m c)
theorem v43_WB : WB m c (main_v43 : DevRef τ sig) = Cert.Pool.padK (m ((c : Thread nD τ).loc main_arg0)) (Cert.Pool.idxOf (NN m c)) :=
  stB_v43 (WA m c) _ (NN m c) (stA_v29 (W9 m c)) (stA_v40 (W9 m c) (NN m c) (v19_W9 m c))
    (stA_v41 (W9 m c) (NN m c) (v19_W9 m c) (v1_W9 m c)) (main_arg0_WA m c)

end Chain

/-! ## Reading a broadcast rectangle at a point -/

theorem ij_eq_ix2 {n k : Nat} (p : Fin n) (q : Fin k) : StableHlo.Predicate.ij p q = ix2 p q := by
  funext a; match a with | ⟨0, _⟩ => rfl | ⟨1, _⟩ => rfl
theorem ofFin_eq_ix1 {n : Nat} (p : Fin n) : Shape.Idx.ofFin p = ix1 p := by
  funext a; match a with | ⟨0, _⟩ => exact Fin.ext rfl

/-- A per-graph vector laid along the slots reads, at (g, n), the vector at g. -/
theorem rows_apply {α : Type} (v : S2048.Idx → α) (g : Fin 2048) (n : Fin 128) :
    broadcastInDim S2048x128 ![0, 1] bcast_S2048x1_S2048x128_0_1 (broadcastInDim S2048x1 ![0] bcast_S2048_S2048x1_0 v) (ix2 g n) = v (ix1 g) := by
  rw [← ij_eq_ix2, StableHlo.Predicate.bcast_rows, ofFin_eq_ix1]
/-- A per-slot vector laid along the graphs reads, at (g, n), the vector at n. -/
theorem cols_apply {α : Type} (v : S128.Idx → α) (g : Fin 2048) (n : Fin 128) :
    broadcastInDim S2048x128 ![0, 1] bcast_S1x128_S2048x128_0_1 (broadcastInDim S1x128 ![1] bcast_S128_S1x128_1 v) (ix2 g n) = v (ix1 n) := by
  rw [← ij_eq_ix2, StableHlo.Predicate.bcast_cols, ofFin_eq_ix1]

/-- The signed comparison of a slot number with a count, as a number: one when the slot is below the count, else zero. -/
theorem slt_slot (n : Fin 128) (w : BitVec 32) :
    (((IntOp.cmpi .slt (BitVec.ofNat 32 n.val) w).toNat : ℝ) : EReal) = if (n.val : ℤ) < w.toInt then 1 else 0 := by
  have hn : (BitVec.ofNat 32 n.val).toInt = (n.val : ℤ) := StableHlo.Predicate.toInt_ofNat_small n.val (by have := n.isLt; omega)
  by_cases h : (n.val : ℤ) < w.toInt
  · have : IntOp.cmpi .slt (BitVec.ofNat 32 n.val) w = 1#1 := by
      simp only [IntOp.cmpi, BitVec.slt, hn, h, decide_true, BitVec.ofBool_true]; rfl
    rw [this, if_pos h]; simp
  · have : IntOp.cmpi .slt (BitVec.ofNat 32 n.val) w = 0#1 := by
      simp only [IntOp.cmpi, BitVec.slt, hn, h, decide_false, BitVec.ofBool_false]; rfl
    rw [this, if_neg h]; simp

/-- The mask over the count, read at (g, n). -/
theorem weight_point (nn : IVec S2048 32) (g : Fin 2048) (n : Fin 128) :
    Host.divf (F := Ideal)
        (uitofp .f32 (cmpi .slt
          (broadcastInDim S2048x128 ![0, 1] bcast_S1x128_S2048x128_0_1 (broadcastInDim S1x128 ![1] bcast_S128_S1x128_1 (iotaInDim S128 32 0)))
          (broadcastInDim S2048x128 ![0, 1] bcast_S2048x1_S2048x128_0_1 (broadcastInDim S2048x1 ![0] bcast_S2048_S2048x1_0 nn))))
        (broadcastInDim S2048x128 ![0, 1] bcast_S2048x1_S2048x128_0_1 (broadcastInDim S2048x1 ![0] bcast_S2048_S2048x1_0 (sitofp .f32 nn)))
        (ix2 g n)
      = Ideal.div (Cert.Pool.msk nn g n) (Cert.Pool.cnt nn g) := by
  simp only [Host.divf, uitofp, cmpi]
  rw [cols_apply, rows_apply, rows_apply]
  show Ideal.div (((IntOp.cmpi .slt (BitVec.ofNat 32 n.val) (nn (ix1 g))).toNat : ℝ) : EReal) (Cert.Pool.cnt nn g) = _
  rw [slt_slot]
  rfl

/-! ## What the region is handed -/

/-- The padded feature tensor the region stages: the feature rows written into zeros at their (graph, slot) pairs. -/
theorem V_v43 (c : Dev nD) :
    (V m c main_v43 : S2048x256x128.Idx → EReal)
      = Cert.Pool.padK (m ((c : Thread nD τ).loc main_arg0)) (Cert.Pool.idxOf (m ((c : Thread nD τ).loc main_arg1))) := by
  rw [V_eq]
  exact (frC_v43 (WB m c)).trans (v43_WB m c)

/-- The per-slot weight: the node mask over the node count. -/
theorem V_v54_apply (c : Dev nD) (g : Fin 2048) (n : Fin 128) :
    (V m c main_v54 : S2048x128.Idx → EReal) (ix2 g n)
      = Ideal.div (Cert.Pool.msk (m ((c : Thread nD τ).loc main_arg1)) g n) (Cert.Pool.cnt (m ((c : Thread nD τ).loc main_arg1)) g) := by
  rw [V_eq]
  have h := congrFun (stC_v54 (WB m c)) (ix2 g n)
  rw [main_arg1_WB m c] at h
  exact h.trans (weight_point (m ((c : Thread nD τ).loc main_arg1)) g n)

/-- The three weight matrices reach the region unchanged (a change of float format is the identity on the extended reals). -/
theorem V_v55 (c : Dev nD) : (V m c main_v55 : S256x256.Idx → EReal) = m ((c : Thread nD τ).loc main_arg2) := by
  rw [V_eq]
  exact (stC_v55 (WB m c)).trans (main_arg2_WB m c)
theorem V_v56 (c : Dev nD) : (V m c main_v56 : S256x256.Idx → EReal) = m ((c : Thread nD τ).loc main_arg4) := by
  rw [V_eq]
  exact (stC_v56 (WB m c)).trans (main_arg4_WB m c)
theorem V_v57 (c : Dev nD) : (V m c main_v57 : S256x256.Idx → EReal) = m ((c : Thread nD τ).loc main_arg6) := by
  rw [V_eq]
  exact (stC_v57 (WB m c)).trans (main_arg6_WB m c)

end Cert.KernelIdeal.KHost

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelValue.lean ====
/-
  The kernel's three output arrays, entry by entry: every grid point writes 64 graphs' rows, and the row of graph `g`
  is the weighted node sum of each feature, through the weight matrix, plus the bias.
-/
import proofs.«142141_j40922448396573_1_alg».proof.Proof.Gen.KernelIdeal.Value
import proofs.«142141_j40922448396573_1_alg».proof.Proof.Spec
import proofs.«142141_j40922448396573_1_alg».proof.Proof.LibDot2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## One graph's row of a block: the payload at an entry -/

/-- The product's left operand reads the output's row on its first axis. -/
theorem dot_lhs_row (i : S64x256.Idx) (q : dot_S64x256_S256x256_S64x256_1_0_0_1_n_n.contr.Idx) :
    (dot_S64x256_S256x256_S64x256_1_0_0_1_n_n.lhsIdx i q 0).val = (i 0).val := by
  simp [DotDims.lhsIdx, dot_S64x256_S256x256_S64x256_1_0_0_1_n_n]; rfl

/-- The product's left operand reads the contracted feature on its second axis. -/
theorem dot_lhs_contr (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q

/-- The product's right operand reads the contracted feature on its first axis. -/
theorem dot_rhs_contr (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q

/-- The product's right operand reads the output's column on its second axis. -/
theorem dot_rhs_col (i : S64x256.Idx) (q : dot_S64x256_S256x256_S64x256_1_0_0_1_n_n.contr.Idx) :
    (dot_S64x256_S256x256_S64x256_1_0_0_1_n_n.rhsIdx i q 1).val = (i 1).val := by
  simp [DotDims.rhsIdx, dot_S64x256_S256x256_S64x256_1_0_0_1_n_n]; rfl

/-- The pooled features of a block: for graph `p` of the block and feature `a`, the sum over the 128 node slots of
    the feature times the slot's weight. -/
theorem pooled_apply (v0 : Vec Ideal S64x128 .f32) (v2 : Vec Ideal S64x256x128 .f32) (p : Fin 64) (a : Fin 256) :
    k0_pay1 v0 v2 (ix2 p a) = ∑ n : Fin 128, v2 (ix3 p a n) * v0 (ix2 p n) := by
  unfold k0_pay1
  dsimp only
  rw [shapeCast_self, shapeCast_self]
  rw [truncf_apply]
  refine (Ideal.multiReduction_add_single _ 0x00000000#32 reduces_S64x256x128_S64x256 (.inl rfl) rfl (ix2 p a)).trans ?_
  show ∑ n : Fin 128, _ = _
  refine Finset.sum_congr rfl fun n _ => ?_
  have hlift : reduces_S64x256x128_S64x256.lift (ix2 p a) n = ix3 p a n := funext fun c => Fin.ext (by
    match c with
    | ⟨0, _⟩ => rfl
    | ⟨1, _⟩ => rfl
    | ⟨2, _⟩ => rfl)
  rw [hlift, mulf_apply]
  congr 1
  refine (broadcastTo_apply _ _ (ix3 p a n) (ix3 p (0 : Fin 1) n) fun ax => ?_).trans ?_
  · match ax with
    | ⟨0, _⟩ => rfl
    | ⟨1, _⟩ => rfl
    | ⟨2, _⟩ => rfl
  · refine shapeCast_apply _ _ (ix3 p (0 : Fin 1) n) (ix2 p n) ?_
    rw [Shape.rowMajor_val_two, Shape.rowMajor_val_three]
    show p.val * 128 + n.val = (p.val * 1 + 0) * 128 + n.val
    omega

/-- One entry of a block's result: for graph `p` of the block and output column `j`, the pooled features through
    the weight column, plus the bias. -/
theorem pay_apply (v0 : Vec Ideal S64x128 .f32) (v2 : Vec Ideal S64x256x128 .f32) (v9 : Vec Ideal S256x256 .bf16)
    (v12 : Vec Ideal S256 .f32) (p : Fin 64) (j : Fin 256) :
    k0_pay2 v0 v2 v9 v12 (ix2 p j)
      = (∑ a : Fin 256, (∑ n : Fin 128, v2 (ix3 p a n) * v0 (ix2 p n)) * v9 (ix2 a j)) + v12 (ix1 j) := by
  unfold k0_pay2
  rw [shapeCast_self, addf_apply]
  congr 1
  · refine (Cert.Lib.Dot2.matmul_zero_ix2 dot_S64x256_S256x256_S64x256_1_0_0_1_n_n none rfl rfl
      dot_lhs_row dot_lhs_contr dot_rhs_contr dot_rhs_col (k0_pay1 v0 v2) v9 p j).trans ?_
    exact Finset.sum_congr rfl fun a _ => congrArg (· * v9 (ix2 a j)) (pooled_apply v0 v2 p a)
  · exact (broadcastTo_1b_ab_apply _ _ p j).trans (shapeCast_a_1a_apply v12 _ (0 : Fin 1) j)

/-- The three stores' payloads are one function of the loaded blocks: only the weight matrix and the bias differ. -/
theorem pay3_eq (v0 : Vec Ideal S64x128 .f32) (v2 : Vec Ideal S64x256x128 .f32) (w : Vec Ideal S256x256 .bf16)
    (b : Vec Ideal S256 .f32) : k0_pay3 v0 v2 w b = k0_pay2 v0 v2 w b := rfl
theorem pay4_eq (v0 : Vec Ideal S64x128 .f32) (v2 : Vec Ideal S64x256x128 .f32) (w : Vec Ideal S256x256 .bf16)
    (b : Vec Ideal S256 .f32) : k0_pay4 v0 v2 w b = k0_pay2 v0 v2 w b := rfl

/-! ## Rows of a graph block: where each window's block sits in its array -/

/-- The zero offsets of a whole-buffer access, at ranks 1, 2 and 3. -/
theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- Grid point `t` holds graphs `64 t … 64 t + 63`: the feature window's block index is `(t, 0, 0)`. -/
theorem index_feat : ∀ t : Fin cfg0.N, win0_0.index t (0 : Fin 3) = t.val ∧ win0_0.index t (1 : Fin 3) = 0
    ∧ win0_0.index t (2 : Fin 3) = 0 :=
  (by decide +kernel : ∀ t : Fin grid0.N, _)
/-- The slot-weight window's block index is `(t, 0)`. -/
theorem index_wt : ∀ t : Fin cfg0.N, win0_1.index t (0 : Fin 2) = t.val ∧ win0_1.index t (1 : Fin 2) = 0 :=
  (by decide +kernel : ∀ t : Fin grid0.N, _)
/-- The three weight matrices and the three biases are whole at every point. -/
theorem index_mat2 : ∀ t : Fin cfg0.N, win0_2.index t (0 : Fin 2) = 0 ∧ win0_2.index t (1 : Fin 2) = 0 :=
  (by decide +kernel : ∀ t : Fin grid0.N, _)
theorem index_bias3 : ∀ t : Fin cfg0.N, win0_3.index t (0 : Fin 1) = 0 :=
  (by decide +kernel : ∀ t : Fin grid0.N, _)
theorem index_mat4 : ∀ t : Fin cfg0.N, win0_4.index t (0 : Fin 2) = 0 ∧ win0_4.index t (1 : Fin 2) = 0 :=
  (by decide +kernel : ∀ t : Fin grid0.N, _)
theorem index_bias5 : ∀ t : Fin cfg0.N, win0_5.index t (0 : Fin 1) = 0 :=
  (by decide +kernel : ∀ t : Fin grid0.N, _)
theorem index_mat6 : ∀ t : Fin cfg0.N, win0_6.index t (0 : Fin 2) = 0 ∧ win0_6.index t (1 : Fin 2) = 0 :=
  (by decide +kernel : ∀ t : Fin grid0.N, _)
theorem index_bias7 : ∀ t : Fin cfg0.N, win0_7.index t (0 : Fin 1) = 0 :=
  (by decide +kernel : ∀ t : Fin grid0.N, _)
/-- Each output window's block index is `(t, 0)`. -/
theorem index_out8 : ∀ t : Fin cfg0.N, win0_8.index t (0 : Fin 2) = t.val ∧ win0_8.index t (1 : Fin 2) = 0 :=
  (by decide +kernel : ∀ t : Fin grid0.N, _)
theorem index_out9 : ∀ t : Fin cfg0.N, win0_9.index t (0 : Fin 2) = t.val ∧ win0_9.index t (1 : Fin 2) = 0 :=
  (by decide +kernel : ∀ t : Fin grid0.N, _)
theorem index_out10 : ∀ t : Fin cfg0.N, win0_10.index t (0 : Fin 2) = t.val ∧ win0_10.index t (1 : Fin 2) = 0 :=
  (by decide +kernel : ∀ t : Fin grid0.N, _)

/-! ## Reading an array through a window's block at a grid point (the array any contents) -/

/-- Through the feature window's block at point `t`, graph `p` of the block is graph `64 t + p` of the array. -/
theorem feat_read (A : S2048x256x128.Idx → EReal) (t : Fin cfg0.N) (p : Fin 64) (a : Fin 256) (n : Fin 128) (g : Fin 2048)
    (hg : g.val = 64 * t.val + p.val) :
    ((cfg0.win 0).blk t).view.read (Elt Ideal) A (ix3 p a n) = A (ix3 g a n) := by
  obtain ⟨e0, e1, e2⟩ := index_feat t
  show A (((cfg0.win 0).blk t).view.emb (ix3 p a n)) = A (ix3 g a n)
  refine congrArg A (funext fun ax => Fin.ext ?_)
  match ax with
  | ⟨0, _⟩ => show win0_0.index t (0 : Fin 3) * 64 + 1 * p.val = g.val; omega
  | ⟨1, _⟩ => show win0_0.index t (1 : Fin 3) * 256 + 1 * a.val = a.val; omega
  | ⟨2, _⟩ => show win0_0.index t (2 : Fin 3) * 128 + 1 * n.val = n.val; omega

/-- Through the slot-weight window's block at point `t`, graph `p` of the block is graph `64 t + p` of the array. -/
theorem wt_read (A : S2048x128.Idx → EReal) (t : Fin cfg0.N) (p : Fin 64) (n : Fin 128) (g : Fin 2048)
    (hg : g.val = 64 * t.val + p.val) :
    ((cfg0.win 1).blk t).view.read (Elt Ideal) A (ix2 p n) = A (ix2 g n) := by
  obtain ⟨e0, e1⟩ := index_wt t
  show A (((cfg0.win 1).blk t).view.emb (ix2 p n)) = A (ix2 g n)
  refine congrArg A (funext fun ax => Fin.ext ?_)
  match ax with
  | ⟨0, _⟩ => show win0_1.index t (0 : Fin 2) * 64 + 1 * p.val = g.val; omega
  | ⟨1, _⟩ => show win0_1.index t (1 : Fin 2) * 128 + 1 * n.val = n.val; omega

/-- Window 2's block is its whole weight matrix at every point. -/
theorem mat2_read (A : S256x256.Idx → EReal) (t : Fin cfg0.N) (a : Fin 256) (q : Fin 256) :
    ((cfg0.win 2).blk t).view.read (Elt Ideal) A (ix2 a q) = A (ix2 a q) := by
  obtain ⟨e0, e1⟩ := index_mat2 t
  show A (((cfg0.win 2).blk t).view.emb (ix2 a q)) = A (ix2 a q)
  refine congrArg A (funext fun ax => Fin.ext ?_)
  match ax with
  | ⟨0, _⟩ => show win0_2.index t (0 : Fin 2) * 256 + 1 * a.val = a.val; omega
  | ⟨1, _⟩ => show win0_2.index t (1 : Fin 2) * 256 + 1 * q.val = q.val; omega

/-- Window 3's block is its whole bias row at every point. -/
theorem bias3_read (A : S256.Idx → EReal) (t : Fin cfg0.N) (q : Fin 256) :
    ((cfg0.win 3).blk t).view.read (Elt Ideal) A (ix1 q) = A (ix1 q) := by
  have e0 := index_bias3 t
  show A (((cfg0.win 3).blk t).view.emb (ix1 q)) = A (ix1 q)
  refine congrArg A (funext fun ax => Fin.ext ?_)
  match ax with
  | ⟨0, _⟩ => show win0_3.index t (0 : Fin 1) * 256 + 1 * q.val = q.val; omega

/-- Window 4's block is its whole weight matrix at every point. -/
theorem mat4_read (A : S256x256.Idx → EReal) (t : Fin cfg0.N) (a : Fin 256) (q : Fin 256) :
    ((cfg0.win 4).blk t).view.read (Elt Ideal) A (ix2 a q) = A (ix2 a q) := by
  obtain ⟨e0, e1⟩ := index_mat4 t
  show A (((cfg0.win 4).blk t).view.emb (ix2 a q)) = A (ix2 a q)
  refine congrArg A (funext fun ax => Fin.ext ?_)
  match ax with
  | ⟨0, _⟩ => show win0_4.index t (0 : Fin 2) * 256 + 1 * a.val = a.val; omega
  | ⟨1, _⟩ => show win0_4.index t (1 : Fin 2) * 256 + 1 * q.val = q.val; omega

/-- Window 5's block is its whole bias row at every point. -/
theorem bias5_read (A : S256.Idx → EReal) (t : Fin cfg0.N) (q : Fin 256) :
    ((cfg0.win 5).blk t).view.read (Elt Ideal) A (ix1 q) = A (ix1 q) := by
  have e0 := index_bias5 t
  show A (((cfg0.win 5).blk t).view.emb (ix1 q)) = A (ix1 q)
  refine congrArg A (funext fun ax => Fin.ext ?_)
  match ax with
  | ⟨0, _⟩ => show win0_5.index t (0 : Fin 1) * 256 + 1 * q.val = q.val; omega

/-- Window 6's block is its whole weight matrix at every point. -/
theorem mat6_read (A : S256x256.Idx → EReal) (t : Fin cfg0.N) (a : Fin 256) (q : Fin 256) :
    ((cfg0.win 6).blk t).view.read (Elt Ideal) A (ix2 a q) = A (ix2 a q) := by
  obtain ⟨e0, e1⟩ := index_mat6 t
  show A (((cfg0.win 6).blk t).view.emb (ix2 a q)) = A (ix2 a q)
  refine congrArg A (funext fun ax => Fin.ext ?_)
  match ax with
  | ⟨0, _⟩ => show win0_6.index t (0 : Fin 2) * 256 + 1 * a.val = a.val; omega
  | ⟨1, _⟩ => show win0_6.index t (1 : Fin 2) * 256 + 1 * q.val = q.val; omega

/-- Window 7's block is its whole bias row at every point. -/
theorem bias7_read (A : S256.Idx → EReal) (t : Fin cfg0.N) (q : Fin 256) :
    ((cfg0.win 7).blk t).view.read (Elt Ideal) A (ix1 q) = A (ix1 q) := by
  have e0 := index_bias7 t
  show A (((cfg0.win 7).blk t).view.emb (ix1 q)) = A (ix1 q)
  refine congrArg A (funext fun ax => Fin.ext ?_)
  match ax with
  | ⟨0, _⟩ => show win0_7.index t (0 : Fin 1) * 256 + 1 * q.val = q.val; omega

/-- Through output window 8's block at point `t`, row `p` of the block is row `64 t + p` of the array. -/
theorem out8_read (A : S2048x256.Idx → EReal) (t : Fin cfg0.N) (p : Fin 64) (q : Fin 256) (g : Fin 2048)
    (hg : g.val = 64 * t.val + p.val) :
    ((cfg0.win 8).blk t).view.read (Elt Ideal) A (ix2 p q) = A (ix2 g q) := by
  obtain ⟨e0, e1⟩ := index_out8 t
  show A (((cfg0.win 8).blk t).view.emb (ix2 p q)) = A (ix2 g q)
  refine congrArg A (funext fun ax => Fin.ext ?_)
  match ax with
  | ⟨0, _⟩ => show win0_8.index t (0 : Fin 2) * 64 + 1 * p.val = g.val; omega
  | ⟨1, _⟩ => show win0_8.index t (1 : Fin 2) * 256 + 1 * q.val = q.val; omega

/-- Through output window 9's block at point `t`, row `p` of the block is row `64 t + p` of the array. -/
theorem out9_read (A : S2048x256.Idx → EReal) (t : Fin cfg0.N) (p : Fin 64) (q : Fin 256) (g : Fin 2048)
    (hg : g.val = 64 * t.val + p.val) :
    ((cfg0.win 9).blk t).view.read (Elt Ideal) A (ix2 p q) = A (ix2 g q) := by
  obtain ⟨e0, e1⟩ := index_out9 t
  show A (((cfg0.win 9).blk t).view.emb (ix2 p q)) = A (ix2 g q)
  refine congrArg A (funext fun ax => Fin.ext ?_)
  match ax with
  | ⟨0, _⟩ => show win0_9.index t (0 : Fin 2) * 64 + 1 * p.val = g.val; omega
  | ⟨1, _⟩ => show win0_9.index t (1 : Fin 2) * 256 + 1 * q.val = q.val; omega

/-- Through output window 10's block at point `t`, row `p` of the block is row `64 t + p` of the array. -/
theorem out10_read (A : S2048x256.Idx → EReal) (t : Fin cfg0.N) (p : Fin 64) (q : Fin 256) (g : Fin 2048)
    (hg : g.val = 64 * t.val + p.val) :
    ((cfg0.win 10).blk t).view.read (Elt Ideal) A (ix2 p q) = A (ix2 g q) := by
  obtain ⟨e0, e1⟩ := index_out10 t
  show A (((cfg0.win 10).blk t).view.emb (ix2 p q)) = A (ix2 g q)
  refine congrArg A (funext fun ax => Fin.ext ?_)
  match ax with
  | ⟨0, _⟩ => show win0_10.index t (0 : Fin 2) * 64 + 1 * p.val = g.val; omega
  | ⟨1, _⟩ => show win0_10.index t (1 : Fin 2) * 256 + 1 * q.val = q.val; omega

/-- A block's result at graph `p` of the block and column `q`, when the loaded blocks are graph `g`'s rows of the
    feature and slot-weight arrays and the whole weight matrix and bias: graph `g`'s pooled row of the specification. -/
theorem block_rows (P : S2048x256x128.Idx → EReal) (wt : S2048x128.Idx → EReal) (W : S256x256.Idx → EReal)
    (b : S256.Idx → EReal) (x0 : Vec Ideal S64x256x128 .f32) (x1 : Vec Ideal S64x128 .f32)
    (xw : Vec Ideal S256x256 .bf16) (xb : Vec Ideal S256 .f32) (p : Fin 64) (q : Fin 256) (g : Fin 2048)
    (h0 : ∀ (a : Fin 256) (n : Fin 128), x0 (ix3 p a n) = P (ix3 g a n)) (h1 : ∀ n : Fin 128, x1 (ix2 p n) = wt (ix2 g n))
    (hw : ∀ a : Fin 256, xw (ix2 a q) = W (ix2 a q)) (hb : xb (ix1 q) = b (ix1 q)) :
    k0_pay2 x1 x0 xw xb (ix2 p q) = Cert.Pool.kerForm P wt W b g q := by
  rw [pay_apply]
  unfold Cert.Pool.kerForm
  simp only [h0, h1, hw, hb]

/-- The same for the other two stores' payloads. -/
theorem block_rows3 (P : S2048x256x128.Idx → EReal) (wt : S2048x128.Idx → EReal) (W : S256x256.Idx → EReal)
    (b : S256.Idx → EReal) (x0 : Vec Ideal S64x256x128 .f32) (x1 : Vec Ideal S64x128 .f32)
    (xw : Vec Ideal S256x256 .bf16) (xb : Vec Ideal S256 .f32) (p : Fin 64) (q : Fin 256) (g : Fin 2048)
    (h0 : ∀ (a : Fin 256) (n : Fin 128), x0 (ix3 p a n) = P (ix3 g a n)) (h1 : ∀ n : Fin 128, x1 (ix2 p n) = wt (ix2 g n))
    (hw : ∀ a : Fin 256, xw (ix2 a q) = W (ix2 a q)) (hb : xb (ix1 q) = b (ix1 q)) :
    k0_pay3 x1 x0 xw xb (ix2 p q) = Cert.Pool.kerForm P wt W b g q :=
  (congrFun (pay3_eq x1 x0 xw xb) (ix2 p q)).trans (block_rows P wt W b x0 x1 xw xb p q g h0 h1 hw hb)
theorem block_rows4 (P : S2048x256x128.Idx → EReal) (wt : S2048x128.Idx → EReal) (W : S256x256.Idx → EReal)
    (b : S256.Idx → EReal) (x0 : Vec Ideal S64x256x128 .f32) (x1 : Vec Ideal S64x128 .f32)
    (xw : Vec Ideal S256x256 .bf16) (xb : Vec Ideal S256 .f32) (p : Fin 64) (q : Fin 256) (g : Fin 2048)
    (h0 : ∀ (a : Fin 256) (n : Fin 128), x0 (ix3 p a n) = P (ix3 g a n)) (h1 : ∀ n : Fin 128, x1 (ix2 p n) = wt (ix2 g n))
    (hw : ∀ a : Fin 256, xw (ix2 a q) = W (ix2 a q)) (hb : xb (ix1 q) = b (ix1 q)) :
    k0_pay4 x1 x0 xw xb (ix2 p q) = Cert.Pool.kerForm P wt W b g q :=
  (congrFun (pay4_eq x1 x0 xw xb) (ix2 p q)).trans (block_rows P wt W b x0 x1 xw xb p q g h0 h1 hw hb)

/-! ## Output window 8 (keys) -/

/-- What output window 8's array ends holding: graph by graph, the pooled features through the third weight matrix,
    plus its bias. -/
def rows8 (c : Dev nD) : S2048x256.Idx → EReal := fun i =>
  Cert.Pool.kerForm (V m c main_v43) (V m c main_v54) (V m c main_v57) (V m c main_arg7) (i 0) (i 1)

/-- Grid point `t` writes back rows `64 t … 64 t + 63` of `rows8`: each loaded block is those graphs' rows of its
    array, the weight matrix and the bias whole. -/
theorem flushed8_eq (c : Dev nD) (t : Fin cfg0.N) :
    (dats m 0 c).flushed 8 t = ((cfg0.win 8).blk t).view.read (Elt Ideal) (rows8 m c) := by
  rw [Value.flushed8]
  unfold out0_8
  rw [View.canon_unit_zero off2]
  simp only [View.ld_unit_zero (S := S64x128) off2, View.ld_unit_zero (S := S64x256x128) off3,
    View.ld_unit_zero (S := S256x256) off2, View.ld_unit_zero (S := S256) off1]
  funext j
  obtain ⟨p, q, rfl⟩ : ∃ (p : Fin 64) (q : Fin 256), j = ix2 p q := ⟨j 0, j 1, eq_ix2 j⟩
  have hN : cfg0.N = 32 := N_0
  have hrow : 64 * t.val + p.val < 2048 := by have := t.isLt; have := p.isLt; omega
  refine Eq.trans ?_ (out8_read (rows8 m c) t p q ⟨64 * t.val + p.val, hrow⟩ rfl).symm
  exact block_rows (V m c main_v43) (V m c main_v54) (V m c main_v57) (V m c main_arg7)
    (iblk m c 0 t) (iblk m c 1 t) (iblk m c 6 t) (iblk m c 7 t) p q ⟨64 * t.val + p.val, hrow⟩
    (fun a n => feat_read (V m c main_v43) t p a n _ rfl) (fun n => wt_read (V m c main_v54) t p n _ rfl)
    (fun a => mat6_read (V m c main_v57) t a q) (bias7_read (V m c main_arg7) t q)

/-- An index is in point `t`'s block of output window 8 when each coordinate is in the block's range on its axis. -/
theorem mem_blk8 (t : Fin cfg0.N) (i : S2048x256.Idx) :
    i ∈ ((cfg0.win 8).blk t).view.set ↔ ∀ a : Fin 2, win0_8.index t a * S64x256.size a ≤ (i a).val
      ∧ (i a).val < win0_8.index t a * S64x256.size a + S64x256.size a := by
  show i ∈ ((View.whole main_v58_0).slice (win0_8.rect t)).set ↔ _
  rw [View.set_slice_whole, Rect.mem_set_unit]
  exact Iff.rfl

/-- Every row of the array is written: row `r` by grid point `r / 64`. -/
theorem cover8 (i : S2048x256.Idx) :
    ∃ t : Fin cfg0.N, (cfg0.win 8).flush t = true ∧ i ∈ ((cfg0.win 8).blk t).view.set := by
  have hN : cfg0.N = 32 := N_0
  have hi0 : (i 0).val < 2048 := (i 0).isLt
  have hi1 : (i 1).val < 256 := (i 1).isLt
  have ht : (i 0).val / 64 < cfg0.N := by omega
  obtain ⟨e0, e1⟩ := index_out8 ⟨(i 0).val / 64, ht⟩
  have e0' : win0_8.index ⟨(i 0).val / 64, ht⟩ (0 : Fin 2) = (i 0).val / 64 := e0
  refine ⟨⟨(i 0).val / 64, ht⟩, flush0_8 _, ?_⟩
  rw [mem_blk8]
  intro a
  match a with
  | ⟨0, _⟩ =>
    show win0_8.index ⟨(i 0).val / 64, ht⟩ (0 : Fin 2) * 64 ≤ (i 0).val
      ∧ (i 0).val < win0_8.index ⟨(i 0).val / 64, ht⟩ (0 : Fin 2) * 64 + 64
    omega
  | ⟨1, _⟩ =>
    show win0_8.index ⟨(i 0).val / 64, ht⟩ (1 : Fin 2) * 256 ≤ (i 1).val
      ∧ (i 1).val < win0_8.index ⟨(i 0).val / 64, ht⟩ (1 : Fin 2) * 256 + 256
    omega

/-- So output window 8's array ends holding `rows8`. -/
theorem final8 (c : Dev nD) : (dats m 0 c).arrAt 8 cfg0.N = rows8 m c :=
  (dats m 0 c).arrAt_eq_of_cover 8 (rows8 m c) (fun t _ => flushed8_eq m c t) cover8

/-- Output window 8 (keys): the third weight matrix and bias. -/
theorem final8_apply (c : Dev nD) (g : Fin 2048) (d : Fin 256) :
    ((dats m 0 c).arrAt 8 cfg0.N : S2048x256.Idx → EReal) (ix2 g d)
      = Cert.Pool.kerForm (V m c main_v43) (V m c main_v54) (V m c main_v57) (V m c main_arg7) g d := by
  exact congrFun (final8 m c) (ix2 g d)

/-! ## Output window 9 (p_queries) -/

/-- What output window 9's array ends holding: graph by graph, the pooled features through the first weight matrix,
    plus its bias. -/
def rows9 (c : Dev nD) : S2048x256.Idx → EReal := fun i =>
  Cert.Pool.kerForm (V m c main_v43) (V m c main_v54) (V m c main_v55) (V m c main_arg3) (i 0) (i 1)

/-- Grid point `t` writes back rows `64 t … 64 t + 63` of `rows9`: each loaded block is those graphs' rows of its
    array, the weight matrix and the bias whole. -/
theorem flushed9_eq (c : Dev nD) (t : Fin cfg0.N) :
    (dats m 0 c).flushed 9 t = ((cfg0.win 9).blk t).view.read (Elt Ideal) (rows9 m c) := by
  rw [Value.flushed9]
  unfold out0_9
  rw [View.canon_unit_zero off2]
  simp only [View.ld_unit_zero (S := S64x128) off2, View.ld_unit_zero (S := S64x256x128) off3,
    View.ld_unit_zero (S := S256x256) off2, View.ld_unit_zero (S := S256) off1]
  funext j
  obtain ⟨p, q, rfl⟩ : ∃ (p : Fin 64) (q : Fin 256), j = ix2 p q := ⟨j 0, j 1, eq_ix2 j⟩
  have hN : cfg0.N = 32 := N_0
  have hrow : 64 * t.val + p.val < 2048 := by have := t.isLt; have := p.isLt; omega
  refine Eq.trans ?_ (out9_read (rows9 m c) t p q ⟨64 * t.val + p.val, hrow⟩ rfl).symm
  exact block_rows3 (V m c main_v43) (V m c main_v54) (V m c main_v55) (V m c main_arg3)
    (iblk m c 0 t) (iblk m c 1 t) (iblk m c 2 t) (iblk m c 3 t) p q ⟨64 * t.val + p.val, hrow⟩
    (fun a n => feat_read (V m c main_v43) t p a n _ rfl) (fun n => wt_read (V m c main_v54) t p n _ rfl)
    (fun a => mat2_read (V m c main_v55) t a q) (bias3_read (V m c main_arg3) t q)

/-- An index is in point `t`'s block of output window 9 when each coordinate is in the block's range on its axis. -/
theorem mem_blk9 (t : Fin cfg0.N) (i : S2048x256.Idx) :
    i ∈ ((cfg0.win 9).blk t).view.set ↔ ∀ a : Fin 2, win0_9.index t a * S64x256.size a ≤ (i a).val
      ∧ (i a).val < win0_9.index t a * S64x256.size a + S64x256.size a := by
  show i ∈ ((View.whole main_v58_1).slice (win0_9.rect t)).set ↔ _
  rw [View.set_slice_whole, Rect.mem_set_unit]
  exact Iff.rfl

/-- Every row of the array is written: row `r` by grid point `r / 64`. -/
theorem cover9 (i : S2048x256.Idx) :
    ∃ t : Fin cfg0.N, (cfg0.win 9).flush t = true ∧ i ∈ ((cfg0.win 9).blk t).view.set := by
  have hN : cfg0.N = 32 := N_0
  have hi0 : (i 0).val < 2048 := (i 0).isLt
  have hi1 : (i 1).val < 256 := (i 1).isLt
  have ht : (i 0).val / 64 < cfg0.N := by omega
  obtain ⟨e0, e1⟩ := index_out9 ⟨(i 0).val / 64, ht⟩
  have e0' : win0_9.index ⟨(i 0).val / 64, ht⟩ (0 : Fin 2) = (i 0).val / 64 := e0
  refine ⟨⟨(i 0).val / 64, ht⟩, flush0_9 _, ?_⟩
  rw [mem_blk9]
  intro a
  match a with
  | ⟨0, _⟩ =>
    show win0_9.index ⟨(i 0).val / 64, ht⟩ (0 : Fin 2) * 64 ≤ (i 0).val
      ∧ (i 0).val < win0_9.index ⟨(i 0).val / 64, ht⟩ (0 : Fin 2) * 64 + 64
    omega
  | ⟨1, _⟩ =>
    show win0_9.index ⟨(i 0).val / 64, ht⟩ (1 : Fin 2) * 256 ≤ (i 1).val
      ∧ (i 1).val < win0_9.index ⟨(i 0).val / 64, ht⟩ (1 : Fin 2) * 256 + 256
    omega

/-- So output window 9's array ends holding `rows9`. -/
theorem final9 (c : Dev nD) : (dats m 0 c).arrAt 9 cfg0.N = rows9 m c :=
  (dats m 0 c).arrAt_eq_of_cover 9 (rows9 m c) (fun t _ => flushed9_eq m c t) cover9

/-- Output window 9 (p_queries): the first weight matrix and bias. -/
theorem final9_apply (c : Dev nD) (g : Fin 2048) (d : Fin 256) :
    ((dats m 0 c).arrAt 9 cfg0.N : S2048x256.Idx → EReal) (ix2 g d)
      = Cert.Pool.kerForm (V m c main_v43) (V m c main_v54) (V m c main_v55) (V m c main_arg3) g d := by
  exact congrFun (final9 m c) (ix2 g d)

/-! ## Output window 10 (r_queries) -/

/-- What output window 10's array ends holding: graph by graph, the pooled features through the second weight matrix,
    plus its bias. -/
def rows10 (c : Dev nD) : S2048x256.Idx → EReal := fun i =>
  Cert.Pool.kerForm (V m c main_v43) (V m c main_v54) (V m c main_v56) (V m c main_arg5) (i 0) (i 1)

/-- Grid point `t` writes back rows `64 t … 64 t + 63` of `rows10`: each loaded block is those graphs' rows of its
    array, the weight matrix and the bias whole. -/
theorem flushed10_eq (c : Dev nD) (t : Fin cfg0.N) :
    (dats m 0 c).flushed 10 t = ((cfg0.win 10).blk t).view.read (Elt Ideal) (rows10 m c) := by
  rw [Value.flushed10]
  unfold out0_10
  rw [View.canon_unit_zero off2]
  simp only [View.ld_unit_zero (S := S64x128) off2, View.ld_unit_zero (S := S64x256x128) off3,
    View.ld_unit_zero (S := S256x256) off2, View.ld_unit_zero (S := S256) off1]
  funext j
  obtain ⟨p, q, rfl⟩ : ∃ (p : Fin 64) (q : Fin 256), j = ix2 p q := ⟨j 0, j 1, eq_ix2 j⟩
  have hN : cfg0.N = 32 := N_0
  have hrow : 64 * t.val + p.val < 2048 := by have := t.isLt; have := p.isLt; omega
  refine Eq.trans ?_ (out10_read (rows10 m c) t p q ⟨64 * t.val + p.val, hrow⟩ rfl).symm
  exact block_rows4 (V m c main_v43) (V m c main_v54) (V m c main_v56) (V m c main_arg5)
    (iblk m c 0 t) (iblk m c 1 t) (iblk m c 4 t) (iblk m c 5 t) p q ⟨64 * t.val + p.val, hrow⟩
    (fun a n => feat_read (V m c main_v43) t p a n _ rfl) (fun n => wt_read (V m c main_v54) t p n _ rfl)
    (fun a => mat4_read (V m c main_v56) t a q) (bias5_read (V m c main_arg5) t q)

/-- An index is in point `t`'s block of output window 10 when each coordinate is in the block's range on its axis. -/
theorem mem_blk10 (t : Fin cfg0.N) (i : S2048x256.Idx) :
    i ∈ ((cfg0.win 10).blk t).view.set ↔ ∀ a : Fin 2, win0_10.index t a * S64x256.size a ≤ (i a).val
      ∧ (i a).val < win0_10.index t a * S64x256.size a + S64x256.size a := by
  show i ∈ ((View.whole main_v58_2).slice (win0_10.rect t)).set ↔ _
  rw [View.set_slice_whole, Rect.mem_set_unit]
  exact Iff.rfl

/-- Every row of the array is written: row `r` by grid point `r / 64`. -/
theorem cover10 (i : S2048x256.Idx) :
    ∃ t : Fin cfg0.N, (cfg0.win 10).flush t = true ∧ i ∈ ((cfg0.win 10).blk t).view.set := by
  have hN : cfg0.N = 32 := N_0
  have hi0 : (i 0).val < 2048 := (i 0).isLt
  have hi1 : (i 1).val < 256 := (i 1).isLt
  have ht : (i 0).val / 64 < cfg0.N := by omega
  obtain ⟨e0, e1⟩ := index_out10 ⟨(i 0).val / 64, ht⟩
  have e0' : win0_10.index ⟨(i 0).val / 64, ht⟩ (0 : Fin 2) = (i 0).val / 64 := e0
  refine ⟨⟨(i 0).val / 64, ht⟩, flush0_10 _, ?_⟩
  rw [mem_blk10]
  intro a
  match a with
  | ⟨0, _⟩ =>
    show win0_10.index ⟨(i 0).val / 64, ht⟩ (0 : Fin 2) * 64 ≤ (i 0).val
      ∧ (i 0).val < win0_10.index ⟨(i 0).val / 64, ht⟩ (0 : Fin 2) * 64 + 64
    omega
  | ⟨1, _⟩ =>
    show win0_10.index ⟨(i 0).val / 64, ht⟩ (1 : Fin 2) * 256 ≤ (i 1).val
      ∧ (i 1).val < win0_10.index ⟨(i 0).val / 64, ht⟩ (1 : Fin 2) * 256 + 256
    omega

/-- So output window 10's array ends holding `rows10`. -/
theorem final10 (c : Dev nD) : (dats m 0 c).arrAt 10 cfg0.N = rows10 m c :=
  (dats m 0 c).arrAt_eq_of_cover 10 (rows10 m c) (fun t _ => flushed10_eq m c t) cover10

/-- Output window 10 (r_queries): the second weight matrix and bias. -/
theorem final10_apply (c : Dev nD) (g : Fin 2048) (d : Fin 256) :
    ((dats m 0 c).arrAt 10 cfg0.N : S2048x256.Idx → EReal) (ix2 g d)
      = Cert.Pool.kerForm (V m c main_v43) (V m c main_v54) (V m c main_v56) (V m c main_arg5) g d := by
  exact congrFun (final10 m c) (ix2 g d)

end Cert.KernelIdeal.KValue

end
-- ==== Proof.RefRun.lean ====
/-
  The reference program as one straight line of host operations, and its run.
-/
import proofs.«142141_j40922448396573_1_alg».proof.ReferenceIdeal
import proofs.«142141_j40922448396573_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Gen

variable {F : FTy → Type} [FloatOps F]

/-! ## The operations, stretch by stretch

Each call of an outlined function is one stretch (its body's operations over that call's buffers), each run of
@main's own operations between two calls another; the last run is cut after the scatter that builds the padded
feature tensor. -/

/-- The fold over two lines run one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The prefix sum of the node counts (@cumsum): the zero, its broadcast, the windowed sum. -/
abbrev ops0 : List (HloOp τ sig (Elt F)) :=
  [ StableHlo.TRef.nullary main_call0.call0.c (constantI S_ 32 0#32),
    StableHlo.TRef.unary main_call0.call0.c main_call0.call0.v0 (broadcastInDim S_ ![] bcast_S_S_),
    StableHlo.TRef.binary (.of main_arg1 : StableHlo.TRef sig ⟨S2048, .i32⟩) main_call0.call0.v0 main_call0.call0.v1 (fun x v => Host.reduceWindow IntOp.addi ![2048] ![1] ![2047] ![0] x v reduceWindows_S2048_S2048_w2048s1p2047_0 h_S_) ]

/-- The exclusive prefix sum (inclusive minus the counts) and the graph numbers `0 … 2047`. -/
abbrev ops1 : List (HloOp τ sig (Elt F)) :=
  [ StableHlo.binary main_v0 main_arg1 main_v1 (subi : (⟨S2048, .i32⟩ : BufTy).Contents (Elt F) → (⟨S2048, .i32⟩ : BufTy).Contents (Elt F) → (⟨S2048, .i32⟩ : BufTy).Contents (Elt F)),
    StableHlo.nullary main_v2 (iotaInDim S2048 32 0) ]

/-- The counts rotated right by one (@_roll_static): the last count, the first 2047, their concatenation. -/
abbrev ops2 : List (HloOp τ sig (Elt F)) :=
  [ StableHlo.TRef.unary (.of main_arg1 : StableHlo.TRef sig ⟨S2048, .i32⟩) main_call1.v0 (extractStridedSlice S1 ![2047] · slices_S2048_S1_2047),
    StableHlo.TRef.unary (.of main_arg1 : StableHlo.TRef sig ⟨S2048, .i32⟩) main_call1.v1 (extractStridedSlice S2047 ![0] · slices_S2048_S2047_0),
    StableHlo.TRef.binary main_call1.v0 main_call1.v1 main_call1.v2 (fun a b => concatenate S2048 0 [⟨S1, a⟩, ⟨S2047, b⟩] concatenates_S1_S2047_S2048_d0) ]

/-- The rotated counts with position 0 overwritten by zero. -/
abbrev ops3 : List (HloOp τ sig (Elt F)) :=
  [ StableHlo.nullary main_c (constantI S_ 32 0#32),
    StableHlo.unary main_c main_v4 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v3 main_v4 main_c_0 main_v5 ((fun x i u => Host.scatter scatter_S2048_S1_S__n_0_0_0 (fun _ b => b) x i u) : (⟨S2048, .i32⟩ : BufTy).Contents (Elt F) → (⟨S1, .i32⟩ : BufTy).Contents (Elt F) → (⟨S_, .i32⟩ : BufTy).Contents (Elt F) → (⟨S2048, .i32⟩ : BufTy).Contents (Elt F)) ]

/-- Their prefix sum (@cumsum_1): the first node row of every graph. -/
abbrev ops4 : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v5 : StableHlo.TRef sig ⟨S2048, .i32⟩) main_call2.call0.v0 main_call2.call0.v1 (fun x v => Host.reduceWindow IntOp.addi ![2048] ![1] ![2047] ![0] x v reduceWindows_S2048_S2048_w2048s1p2047_0 h_S_) ]

/-- A mark `1` added at every graph's first node row (rows below zero wrapped by the number of rows), over a zero vector of one entry per node row. -/
abbrev ops5 : List (HloOp τ sig (Elt F)) :=
  [ StableHlo.nullary main_c_1 (constantI S_ 32 0#32),
    StableHlo.unary main_c_1 main_v7 (broadcastInDim S146763 ![] bcast_S_S146763 : (⟨S_, .i32⟩ : BufTy).Contents (Elt F) → (⟨S146763, .i32⟩ : BufTy).Contents (Elt F)),
    StableHlo.nullary main_c_2 (constantI S_ 32 0#32),
    StableHlo.unary main_c_2 main_v8 (broadcastInDim S2048 ![] bcast_S_S2048 : (⟨S_, .i32⟩ : BufTy).Contents (Elt F) → (⟨S2048, .i32⟩ : BufTy).Contents (Elt F)),
    StableHlo.binary main_v6 main_v8 main_v9 (cmpi .slt : (⟨S2048, .i32⟩ : BufTy).Contents (Elt F) → (⟨S2048, .i32⟩ : BufTy).Contents (Elt F) → (⟨S2048, .i1⟩ : BufTy).Contents (Elt F)),
    StableHlo.nullary main_c_3 (constantI S_ 32 146763#32),
    StableHlo.unary main_c_3 main_v10 (broadcastInDim S2048 ![] bcast_S_S2048 : (⟨S_, .i32⟩ : BufTy).Contents (Elt F) → (⟨S2048, .i32⟩ : BufTy).Contents (Elt F)),
    StableHlo.binary main_v6 main_v10 main_v11 (addi : (⟨S2048, .i32⟩ : BufTy).Contents (Elt F) → (⟨S2048, .i32⟩ : BufTy).Contents (Elt F) → (⟨S2048, .i32⟩ : BufTy).Contents (Elt F)),
    StableHlo.ternary main_v9 main_v11 main_v6 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v12 main_v13 (broadcastInDim S2048x1 ![0] bcast_S2048_S2048x1_0 : (⟨S2048, .i32⟩ : BufTy).Contents (Elt F) → (⟨S2048x1, .i32⟩ : BufTy).Contents (Elt F)),
    StableHlo.nullary main_c_4 (constantI S_ 32 1#32),
    StableHlo.unary main_c_4 main_v14 (broadcastInDim S2048 ![] bcast_S_S2048 : (⟨S_, .i32⟩ : BufTy).Contents (Elt F) → (⟨S2048, .i32⟩ : BufTy).Contents (Elt F)),
    StableHlo.ternary main_v7 main_v13 main_v14 main_v15 ((fun x i u => Host.scatter scatter_S146763_S2048x1_S2048_n_0_0_1 IntOp.addi x i u) : (⟨S146763, .i32⟩ : BufTy).Contents (Elt F) → (⟨S2048x1, .i32⟩ : BufTy).Contents (Elt F) → (⟨S2048, .i32⟩ : BufTy).Contents (Elt F) → (⟨S146763, .i32⟩ : BufTy).Contents (Elt F)) ]

/-- The prefix sum of the marks (@cumsum_3). -/
abbrev ops6 : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S146763, .i32⟩) main_call3.call0.v0 main_call3.call0.v1 (fun x v => Host.reduceWindow IntOp.addi ![146763] ![1] ![146762] ![0] x v reduceWindows_S146763_S146763_w146763s1p146762_0 h_S_) ]

/-- Minus one: every node row's graph number. -/
abbrev ops7 : List (HloOp τ sig (Elt F)) :=
  [ StableHlo.nullary main_c_5 (constantI S_ 32 1#32),
    StableHlo.unary main_c_5 main_v17 (broadcastInDim S146763 ![] bcast_S_S146763 : (⟨S_, .i32⟩ : BufTy).Contents (Elt F) → (⟨S146763, .i32⟩ : BufTy).Contents (Elt F)),
    StableHlo.binary main_v16 main_v17 main_v18 (subi : (⟨S146763, .i32⟩ : BufTy).Contents (Elt F) → (⟨S146763, .i32⟩ : BufTy).Contents (Elt F) → (⟨S146763, .i32⟩ : BufTy).Contents (Elt F)) ]

/-- The graph numbers looked up at those positions (@_take): negative positions wrapped, the in-range test, the gather, the fill value. -/
abbrev ops8 : List (HloOp τ sig (Elt F)) :=
  [ StableHlo.TRef.nullary main_call4.c (constantI S_ 32 0#32),
    StableHlo.TRef.unary main_call4.c main_call4.v0 (broadcastInDim S146763 ![] bcast_S_S146763),
    StableHlo.TRef.binary (.of main_v18 : StableHlo.TRef sig ⟨S146763, .i32⟩) main_call4.v0 main_call4.v1 (cmpi .slt),
    StableHlo.TRef.nullary main_call4.c_0 (constantI S_ 32 2048#32),
    StableHlo.TRef.unary main_call4.c_0 main_call4.v2 (broadcastInDim S146763 ![] bcast_S_S146763),
    StableHlo.TRef.binary (.of main_v18 : StableHlo.TRef sig ⟨S146763, .i32⟩) main_call4.v2 main_call4.v3 addi,
    StableHlo.TRef.ternary (main_call4.v1 : StableHlo.TRef sig ⟨S146763, .i1⟩) (main_call4.v3 : StableHlo.TRef sig ⟨S146763, .i32⟩) (.of main_v18 : StableHlo.TRef sig ⟨S146763, .i32⟩) main_call4.call0.v0 select,
    StableHlo.TRef.unary main_call4.call0.v0 main_call4.v5 (broadcastInDim S146763x1 ![0] bcast_S146763_S146763x1_0),
    StableHlo.TRef.nullary main_call4.c_1 (constantI S1 32 2047#32),
    StableHlo.TRef.nullary main_call4.c_2 (constantI S_ 32 0#32),
    StableHlo.TRef.unary main_call4.c_2 main_call4.v6 (broadcastInDim S146763x1 ![] bcast_S_S146763x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S146763x1 ![0, 1] bcast_S1x1_S146763x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S146763x1_S146763_d1 h_S_),
    StableHlo.TRef.binary (.of main_v2 : StableHlo.TRef sig ⟨S2048, .i32⟩) main_call4.v5 main_call4.v13 (fun x i => Host.gather gather_S2048_S146763x1_S146763_n_0_n_n_0_1_1 x i),
    StableHlo.TRef.nullary main_call4.c_4 (constantI S_ 32 2147483648#32),
    StableHlo.TRef.unary main_call4.c_4 main_call4.v14 (broadcastInDim S146763 ![] bcast_S_S146763),
    StableHlo.TRef.ternary main_call4.v12 main_call4.v13 main_call4.v14 main_call4.v15 select ]

/-- Every node row's slot inside its graph (row number minus the graph's first row), the wrapped graph and slot numbers paired, and the rows scattered into the zero tensor of (graph, slot, feature). -/
abbrev ops9 : List (HloOp τ sig (Elt F)) :=
  [ StableHlo.nullary main_v20 (iotaInDim S146763 32 0),
    StableHlo.nullary main_c_6 (constantI S_ 32 0#32),
    StableHlo.unary main_c_6 main_v21 (broadcastInDim S146763 ![] bcast_S_S146763 : (⟨S_, .i32⟩ : BufTy).Contents (Elt F) → (⟨S146763, .i32⟩ : BufTy).Contents (Elt F)),
    StableHlo.binary main_v19 main_v21 main_v22 (cmpi .slt : (⟨S146763, .i32⟩ : BufTy).Contents (Elt F) → (⟨S146763, .i32⟩ : BufTy).Contents (Elt F) → (⟨S146763, .i1⟩ : BufTy).Contents (Elt F)),
    StableHlo.nullary main_c_7 (constantI S_ 32 2048#32),
    StableHlo.unary main_c_7 main_v23 (broadcastInDim S146763 ![] bcast_S_S146763 : (⟨S_, .i32⟩ : BufTy).Contents (Elt F) → (⟨S146763, .i32⟩ : BufTy).Contents (Elt F)),
    StableHlo.binary main_v19 main_v23 main_v24 (addi : (⟨S146763, .i32⟩ : BufTy).Contents (Elt F) → (⟨S146763, .i32⟩ : BufTy).Contents (Elt F) → (⟨S146763, .i32⟩ : BufTy).Contents (Elt F)),
    StableHlo.ternary main_v22 main_v24 main_v19 main_v25 (select : (⟨S146763, .i1⟩ : BufTy).Contents (Elt F) → (⟨S146763, .i32⟩ : BufTy).Contents (Elt F) → (⟨S146763, .i32⟩ : BufTy).Contents (Elt F) → (⟨S146763, .i32⟩ : BufTy).Contents (Elt F)),
    StableHlo.unary main_v25 main_v26 (broadcastInDim S146763x1 ![0] bcast_S146763_S146763x1_0 : (⟨S146763, .i32⟩ : BufTy).Contents (Elt F) → (⟨S146763x1, .i32⟩ : BufTy).Contents (Elt F)),
    StableHlo.binary main_v1 main_v26 main_v27 ((fun x i => Host.gather gather_S2048_S146763x1_S146763_n_0_n_n_0_1_1 x i) : (⟨S2048, .i32⟩ : BufTy).Contents (Elt F) → (⟨S146763x1, .i32⟩ : BufTy).Contents (Elt F) → (⟨S146763, .i32⟩ : BufTy).Contents (Elt F)),
    StableHlo.binary main_v20 main_v27 main_v28 (subi : (⟨S146763, .i32⟩ : BufTy).Contents (Elt F) → (⟨S146763, .i32⟩ : BufTy).Contents (Elt F) → (⟨S146763, .i32⟩ : BufTy).Contents (Elt F)),
    StableHlo.nullary main_cst (constant S_ .f32 0x00000000#32),
    StableHlo.unary main_cst main_v29 (broadcastInDim S2048x128x256 ![] bcast_S_S2048x128x256 : (⟨S_, .f32⟩ : BufTy).Contents (Elt F) → (⟨S2048x128x256, .f32⟩ : BufTy).Contents (Elt F)),
    StableHlo.nullary main_c_8 (constantI S_ 32 0#32),
    StableHlo.unary main_c_8 main_v30 (broadcastInDim S146763 ![] bcast_S_S146763 : (⟨S_, .i32⟩ : BufTy).Contents (Elt F) → (⟨S146763, .i32⟩ : BufTy).Contents (Elt F)),
    StableHlo.binary main_v19 main_v30 main_v31 (cmpi .slt : (⟨S146763, .i32⟩ : BufTy).Contents (Elt F) → (⟨S146763, .i32⟩ : BufTy).Contents (Elt F) → (⟨S146763, .i1⟩ : BufTy).Contents (Elt F)),
    StableHlo.nullary main_c_9 (constantI S_ 32 2048#32),
    StableHlo.unary main_c_9 main_v32 (broadcastInDim S146763 ![] bcast_S_S146763 : (⟨S_, .i32⟩ : BufTy).Contents (Elt F) → (⟨S146763, .i32⟩ : BufTy).Contents (Elt F)),
    StableHlo.binary main_v19 main_v32 main_v33 (addi : (⟨S146763, .i32⟩ : BufTy).Contents (Elt F) → (⟨S146763, .i32⟩ : BufTy).Contents (Elt F) → (⟨S146763, .i32⟩ : BufTy).Contents (Elt F)),
    StableHlo.ternary main_v31 main_v33 main_v19 main_v34 (select : (⟨S146763, .i1⟩ : BufTy).Contents (Elt F) → (⟨S146763, .i32⟩ : BufTy).Contents (Elt F) → (⟨S146763, .i32⟩ : BufTy).Contents (Elt F) → (⟨S146763, .i32⟩ : BufTy).Contents (Elt F)),
    StableHlo.nullary main_c_10 (constantI S_ 32 0#32),
    StableHlo.unary main_c_10 main_v35 (broadcastInDim S146763 ![] bcast_S_S146763 : (⟨S_, .i32⟩ : BufTy).Contents (Elt F) → (⟨S146763, .i32⟩ : BufTy).Contents (Elt F)),
    StableHlo.binary main_v28 main_v35 main_v36 (cmpi .slt : (⟨S146763, .i32⟩ : BufTy).Contents (Elt F) → (⟨S146763, .i32⟩ : BufTy).Contents (Elt F) → (⟨S146763, .i1⟩ : BufTy).Contents (Elt F)),
    StableHlo.nullary main_c_11 (constantI S_ 32 128#32),
    StableHlo.unary main_c_11 main_v37 (broadcastInDim S146763 ![] bcast_S_S146763 : (⟨S_, .i32⟩ : BufTy).Contents (Elt F) → (⟨S146763, .i32⟩ : BufTy).Contents (Elt F)),
    StableHlo.binary main_v28 main_v37 main_v38 (addi : (⟨S146763, .i32⟩ : BufTy).Contents (Elt F) → (⟨S146763, .i32⟩ : BufTy).Contents (Elt F) → (⟨S146763, .i32⟩ : BufTy).Contents (Elt F)),
    StableHlo.ternary main_v36 main_v38 main_v28 main_v39 (select : (⟨S146763, .i1⟩ : BufTy).Contents (Elt F) → (⟨S146763, .i32⟩ : BufTy).Contents (Elt F) → (⟨S146763, .i32⟩ : BufTy).Contents (Elt F) → (⟨S146763, .i32⟩ : BufTy).Contents (Elt F)),
    StableHlo.unary main_v34 main_v40 (broadcastInDim S146763x1 ![0] bcast_S146763_S146763x1_0 : (⟨S146763, .i32⟩ : BufTy).Contents (Elt F) → (⟨S146763x1, .i32⟩ : BufTy).Contents (Elt F)),
    StableHlo.unary main_v39 main_v41 (broadcastInDim S146763x1 ![0] bcast_S146763_S146763x1_0 : (⟨S146763, .i32⟩ : BufTy).Contents (Elt F) → (⟨S146763x1, .i32⟩ : BufTy).Contents (Elt F)),
    StableHlo.binary main_v40 main_v41 main_v42 ((fun a b => concatenate S146763x2 1 [⟨S146763x1, a⟩, ⟨S146763x1, b⟩] concatenates_S146763x1_S146763x1_S146763x2_d1) : (⟨S146763x1, .i32⟩ : BufTy).Contents (Elt F) → (⟨S146763x1, .i32⟩ : BufTy).Contents (Elt F) → (⟨S146763x2, .i32⟩ : BufTy).Contents (Elt F)),
    StableHlo.ternary main_v29 main_v42 main_arg0 main_v43 ((fun x i u => Host.scatter scatter_S2048x128x256_S146763x2_S146763x256_1_01_01_1 (fun _ b => b) x i u) : (⟨S2048x128x256, .f32⟩ : BufTy).Contents (Elt F) → (⟨S146763x2, .i32⟩ : BufTy).Contents (Elt F) → (⟨S146763x256, .f32⟩ : BufTy).Contents (Elt F) → (⟨S2048x128x256, .f32⟩ : BufTy).Contents (Elt F)) ]

/-- The slot mask `[n < count]` as a float, the count as a float, and per linear layer: the product with the weights, the bias added on every slot, the mask, the sum over slots, the division by the count. -/
abbrev opsT : List (HloOp τ sig (Elt F)) :=
  [ StableHlo.nullary main_v44 (iotaInDim S128 32 0),
    StableHlo.unary main_v44 main_v45 (broadcastInDim S1x128 ![1] bcast_S128_S1x128_1 : (⟨S128, .i32⟩ : BufTy).Contents (Elt F) → (⟨S1x128, .i32⟩ : BufTy).Contents (Elt F)),
    StableHlo.unary main_arg1 main_v46 (broadcastInDim S2048x1 ![0] bcast_S2048_S2048x1_0 : (⟨S2048, .i32⟩ : BufTy).Contents (Elt F) → (⟨S2048x1, .i32⟩ : BufTy).Contents (Elt F)),
    StableHlo.unary main_v45 main_v47 (broadcastInDim S2048x128 ![0, 1] bcast_S1x128_S2048x128_0_1 : (⟨S1x128, .i32⟩ : BufTy).Contents (Elt F) → (⟨S2048x128, .i32⟩ : BufTy).Contents (Elt F)),
    StableHlo.unary main_v46 main_v48 (broadcastInDim S2048x128 ![0, 1] bcast_S2048x1_S2048x128_0_1 : (⟨S2048x1, .i32⟩ : BufTy).Contents (Elt F) → (⟨S2048x128, .i32⟩ : BufTy).Contents (Elt F)),
    StableHlo.binary main_v47 main_v48 main_v49 (cmpi .slt : (⟨S2048x128, .i32⟩ : BufTy).Contents (Elt F) → (⟨S2048x128, .i32⟩ : BufTy).Contents (Elt F) → (⟨S2048x128, .i1⟩ : BufTy).Contents (Elt F)),
    StableHlo.unary main_v49 main_v50 (uitofp .f32 : (⟨S2048x128, .i1⟩ : BufTy).Contents (Elt F) → (⟨S2048x128, .f32⟩ : BufTy).Contents (Elt F)),
    StableHlo.unary main_arg1 main_v51 (sitofp .f32 : (⟨S2048, .i32⟩ : BufTy).Contents (Elt F) → (⟨S2048, .f32⟩ : BufTy).Contents (Elt F)),
    StableHlo.unary main_v51 main_v52 (broadcastInDim S2048x1 ![0] bcast_S2048_S2048x1_0 : (⟨S2048, .f32⟩ : BufTy).Contents (Elt F) → (⟨S2048x1, .f32⟩ : BufTy).Contents (Elt F)),
    StableHlo.binary main_v43 main_arg2 main_v53 ((fun l r => Host.dotGeneral dot_S2048x128x256_S256x256_S2048x128x256_2_0_01_1_n_n none l r) : (⟨S2048x128x256, .f32⟩ : BufTy).Contents (Elt F) → (⟨S256x256, .f32⟩ : BufTy).Contents (Elt F) → (⟨S2048x128x256, .f32⟩ : BufTy).Contents (Elt F)),
    StableHlo.unary main_arg3 main_v54 (broadcastInDim S1x1x256 ![2] bcast_S256_S1x1x256_2 : (⟨S256, .f32⟩ : BufTy).Contents (Elt F) → (⟨S1x1x256, .f32⟩ : BufTy).Contents (Elt F)),
    StableHlo.unary main_v54 main_v55 (broadcastInDim S2048x128x256 ![0, 1, 2] bcast_S1x1x256_S2048x128x256_0_1_2 : (⟨S1x1x256, .f32⟩ : BufTy).Contents (Elt F) → (⟨S2048x128x256, .f32⟩ : BufTy).Contents (Elt F)),
    StableHlo.binary main_v53 main_v55 main_v56 (addf : (⟨S2048x128x256, .f32⟩ : BufTy).Contents (Elt F) → (⟨S2048x128x256, .f32⟩ : BufTy).Contents (Elt F) → (⟨S2048x128x256, .f32⟩ : BufTy).Contents (Elt F)),
    StableHlo.unary main_v50 main_v57 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v57 main_v58 (broadcastInDim S2048x128x256 ![0, 1, 2] bcast_S2048x128x1_S2048x128x256_0_1_2 : (⟨S2048x128x1, .f32⟩ : BufTy).Contents (Elt F) → (⟨S2048x128x256, .f32⟩ : BufTy).Contents (Elt F)),
    StableHlo.binary main_v56 main_v58 main_v59 (mulf : (⟨S2048x128x256, .f32⟩ : BufTy).Contents (Elt F) → (⟨S2048x128x256, .f32⟩ : BufTy).Contents (Elt F) → (⟨S2048x128x256, .f32⟩ : BufTy).Contents (Elt F)),
    StableHlo.nullary main_cst_12 (constant S_ .f32 0x00000000#32),
    StableHlo.binary main_v59 main_cst_12 main_v60 ((fun x v => Host.reduceAdd x v reducesTo_S2048x128x256_S2048x256_d1 h_S_) : (⟨S2048x128x256, .f32⟩ : BufTy).Contents (Elt F) → (⟨S_, .f32⟩ : BufTy).Contents (Elt F) → (⟨S2048x256, .f32⟩ : BufTy).Contents (Elt F)),
    StableHlo.unary main_v52 main_v61 (broadcastInDim S2048x256 ![0, 1] bcast_S2048x1_S2048x256_0_1 : (⟨S2048x1, .f32⟩ : BufTy).Contents (Elt F) → (⟨S2048x256, .f32⟩ : BufTy).Contents (Elt F)),
    StableHlo.binary main_v60 main_v61 main_v62 (Host.divf : (⟨S2048x256, .f32⟩ : BufTy).Contents (Elt F) → (⟨S2048x256, .f32⟩ : BufTy).Contents (Elt F) → (⟨S2048x256, .f32⟩ : BufTy).Contents (Elt F)),
    StableHlo.binary main_v43 main_arg4 main_v63 ((fun l r => Host.dotGeneral dot_S2048x128x256_S256x256_S2048x128x256_2_0_01_1_n_n none l r) : (⟨S2048x128x256, .f32⟩ : BufTy).Contents (Elt F) → (⟨S256x256, .f32⟩ : BufTy).Contents (Elt F) → (⟨S2048x128x256, .f32⟩ : BufTy).Contents (Elt F)),
    StableHlo.unary main_arg5 main_v64 (broadcastInDim S1x1x256 ![2] bcast_S256_S1x1x256_2 : (⟨S256, .f32⟩ : BufTy).Contents (Elt F) → (⟨S1x1x256, .f32⟩ : BufTy).Contents (Elt F)),
    StableHlo.unary main_v64 main_v65 (broadcastInDim S2048x128x256 ![0, 1, 2] bcast_S1x1x256_S2048x128x256_0_1_2 : (⟨S1x1x256, .f32⟩ : BufTy).Contents (Elt F) → (⟨S2048x128x256, .f32⟩ : BufTy).Contents (Elt F)),
    StableHlo.binary main_v63 main_v65 main_v66 (addf : (⟨S2048x128x256, .f32⟩ : BufTy).Contents (Elt F) → (⟨S2048x128x256, .f32⟩ : BufTy).Contents (Elt F) → (⟨S2048x128x256, .f32⟩ : BufTy).Contents (Elt F)),
    StableHlo.unary main_v50 main_v67 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v67 main_v68 (broadcastInDim S2048x128x256 ![0, 1, 2] bcast_S2048x128x1_S2048x128x256_0_1_2 : (⟨S2048x128x1, .f32⟩ : BufTy).Contents (Elt F) → (⟨S2048x128x256, .f32⟩ : BufTy).Contents (Elt F)),
    StableHlo.binary main_v66 main_v68 main_v69 (mulf : (⟨S2048x128x256, .f32⟩ : BufTy).Contents (Elt F) → (⟨S2048x128x256, .f32⟩ : BufTy).Contents (Elt F) → (⟨S2048x128x256, .f32⟩ : BufTy).Contents (Elt F)),
    StableHlo.nullary main_cst_13 (constant S_ .f32 0x00000000#32),
    StableHlo.binary main_v69 main_cst_13 main_v70 ((fun x v => Host.reduceAdd x v reducesTo_S2048x128x256_S2048x256_d1 h_S_) : (⟨S2048x128x256, .f32⟩ : BufTy).Contents (Elt F) → (⟨S_, .f32⟩ : BufTy).Contents (Elt F) → (⟨S2048x256, .f32⟩ : BufTy).Contents (Elt F)),
    StableHlo.unary main_v52 main_v71 (broadcastInDim S2048x256 ![0, 1] bcast_S2048x1_S2048x256_0_1 : (⟨S2048x1, .f32⟩ : BufTy).Contents (Elt F) → (⟨S2048x256, .f32⟩ : BufTy).Contents (Elt F)),
    StableHlo.binary main_v70 main_v71 main_v72 (Host.divf : (⟨S2048x256, .f32⟩ : BufTy).Contents (Elt F) → (⟨S2048x256, .f32⟩ : BufTy).Contents (Elt F) → (⟨S2048x256, .f32⟩ : BufTy).Contents (Elt F)),
    StableHlo.binary main_v43 main_arg6 main_v73 ((fun l r => Host.dotGeneral dot_S2048x128x256_S256x256_S2048x128x256_2_0_01_1_n_n none l r) : (⟨S2048x128x256, .f32⟩ : BufTy).Contents (Elt F) → (⟨S256x256, .f32⟩ : BufTy).Contents (Elt F) → (⟨S2048x128x256, .f32⟩ : BufTy).Contents (Elt F)),
    StableHlo.unary main_arg7 main_v74 (broadcastInDim S1x1x256 ![2] bcast_S256_S1x1x256_2 : (⟨S256, .f32⟩ : BufTy).Contents (Elt F) → (⟨S1x1x256, .f32⟩ : BufTy).Contents (Elt F)),
    StableHlo.unary main_v74 main_v75 (broadcastInDim S2048x128x256 ![0, 1, 2] bcast_S1x1x256_S2048x128x256_0_1_2 : (⟨S1x1x256, .f32⟩ : BufTy).Contents (Elt F) → (⟨S2048x128x256, .f32⟩ : BufTy).Contents (Elt F)),
    StableHlo.binary main_v73 main_v75 main_v76 (addf : (⟨S2048x128x256, .f32⟩ : BufTy).Contents (Elt F) → (⟨S2048x128x256, .f32⟩ : BufTy).Contents (Elt F) → (⟨S2048x128x256, .f32⟩ : BufTy).Contents (Elt F)),
    StableHlo.unary main_v50 main_v77 (broadcastInDim S2048x128x1 ![0, 1] bcast_S2048x128_S2048x128x1_0_1 : (⟨S2048x128, .f32⟩ : BufTy).Contents (Elt F) → (⟨S2048x128x1, .f32⟩ : BufTy).Contents (Elt F)),
    StableHlo.unary main_v77 main_v78 (broadcastInDim S2048x128x256 ![0, 1, 2] bcast_S2048x128x1_S2048x128x256_0_1_2 : (⟨S2048x128x1, .f32⟩ : BufTy).Contents (Elt F) → (⟨S2048x128x256, .f32⟩ : BufTy).Contents (Elt F)),
    StableHlo.binary main_v76 main_v78 main_v79 (mulf : (⟨S2048x128x256, .f32⟩ : BufTy).Contents (Elt F) → (⟨S2048x128x256, .f32⟩ : BufTy).Contents (Elt F) → (⟨S2048x128x256, .f32⟩ : BufTy).Contents (Elt F)),
    StableHlo.nullary main_cst_14 (constant S_ .f32 0x00000000#32),
    StableHlo.binary main_v79 main_cst_14 main_v80 ((fun x v => Host.reduceAdd x v reducesTo_S2048x128x256_S2048x256_d1 h_S_) : (⟨S2048x128x256, .f32⟩ : BufTy).Contents (Elt F) → (⟨S_, .f32⟩ : BufTy).Contents (Elt F) → (⟨S2048x256, .f32⟩ : BufTy).Contents (Elt F)),
    StableHlo.unary main_v52 main_v81 (broadcastInDim S2048x256 ![0, 1] bcast_S2048x1_S2048x256_0_1 : (⟨S2048x1, .f32⟩ : BufTy).Contents (Elt F) → (⟨S2048x256, .f32⟩ : BufTy).Contents (Elt F)),
    StableHlo.binary main_v80 main_v81 main_v82 (Host.divf : (⟨S2048x256, .f32⟩ : BufTy).Contents (Elt F) → (⟨S2048x256, .f32⟩ : BufTy).Contents (Elt F) → (⟨S2048x256, .f32⟩ : BufTy).Contents (Elt F)) ]

/-- @main's operations in order, the outlined functions' bodies inlined at their calls. -/
abbrev ops : List (HloOp τ sig (Elt F)) :=
  ops0 ++ ops1 ++ ops2 ++ ops3 ++ ops4 ++ ops5 ++ ops6 ++ ops7 ++ ops8 ++ ops9 ++ opsT

/-! ## The stretches' side conditions -/

/-- Each operation of the stretch touches TensorCore references only. -/
theorem ops0_sub : (ops0 : List (HloOp τ sig (Elt F))).Forall fun op => op.bufs ⊆ tcRefs τ sig :=
  ⟨nullary_bufs_sub .., unary_bufs_sub .., binary_bufs_sub ..⟩
/-- Each operation of the stretch determines its result. -/
theorem ops0_fresh : (ops0 : List (HloOp τ sig (Elt F))).Forall fun op => op.fresh = ∅ := by
  simp only [List.Forall]; repeat' constructor

/-- Each operation of the stretch touches TensorCore references only. -/
theorem ops1_sub : (ops1 : List (HloOp τ sig (Elt F))).Forall fun op => op.bufs ⊆ tcRefs τ sig :=
  ⟨binary_bufs_sub .., nullary_bufs_sub ..⟩
/-- Each operation of the stretch determines its result. -/
theorem ops1_fresh : (ops1 : List (HloOp τ sig (Elt F))).Forall fun op => op.fresh = ∅ := by
  simp only [List.Forall]; repeat' constructor

/-- Each operation of the stretch touches TensorCore references only. -/
theorem ops2_sub : (ops2 : List (HloOp τ sig (Elt F))).Forall fun op => op.bufs ⊆ tcRefs τ sig :=
  ⟨unary_bufs_sub .., unary_bufs_sub .., binary_bufs_sub ..⟩
/-- Each operation of the stretch determines its result. -/
theorem ops2_fresh : (ops2 : List (HloOp τ sig (Elt F))).Forall fun op => op.fresh = ∅ := by
  simp only [List.Forall]; repeat' constructor

/-- Each operation of the stretch touches TensorCore references only. -/
theorem ops3_sub : (ops3 : List (HloOp τ sig (Elt F))).Forall fun op => op.bufs ⊆ tcRefs τ sig :=
  ⟨nullary_bufs_sub .., unary_bufs_sub .., nullary_bufs_sub .., ternary_bufs_sub ..⟩
/-- Each operation of the stretch determines its result. -/
theorem ops3_fresh : (ops3 : List (HloOp τ sig (Elt F))).Forall fun op => op.fresh = ∅ := by
  simp only [List.Forall]; repeat' constructor

/-- Each operation of the stretch touches TensorCore references only. -/
theorem ops4_sub : (ops4 : List (HloOp τ sig (Elt F))).Forall fun op => op.bufs ⊆ tcRefs τ sig :=
  ⟨nullary_bufs_sub .., unary_bufs_sub .., binary_bufs_sub ..⟩
/-- Each operation of the stretch determines its result. -/
theorem ops4_fresh : (ops4 : List (HloOp τ sig (Elt F))).Forall fun op => op.fresh = ∅ := by
  simp only [List.Forall]; repeat' constructor

/-- Each operation of the stretch touches TensorCore references only. -/
theorem ops5_sub : (ops5 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
/-- Each operation of the stretch determines its result. -/
theorem ops5_fresh : (ops5 : List (HloOp τ sig (Elt F))).Forall fun op => op.fresh = ∅ := by
  simp only [List.Forall]; repeat' constructor

/-- Each operation of the stretch touches TensorCore references only. -/
theorem ops6_sub : (ops6 : List (HloOp τ sig (Elt F))).Forall fun op => op.bufs ⊆ tcRefs τ sig :=
  ⟨nullary_bufs_sub .., unary_bufs_sub .., binary_bufs_sub ..⟩
/-- Each operation of the stretch determines its result. -/
theorem ops6_fresh : (ops6 : List (HloOp τ sig (Elt F))).Forall fun op => op.fresh = ∅ := by
  simp only [List.Forall]; repeat' constructor

/-- Each operation of the stretch touches TensorCore references only. -/
theorem ops7_sub : (ops7 : List (HloOp τ sig (Elt F))).Forall fun op => op.bufs ⊆ tcRefs τ sig :=
  ⟨nullary_bufs_sub .., unary_bufs_sub .., binary_bufs_sub ..⟩
/-- Each operation of the stretch determines its result. -/
theorem ops7_fresh : (ops7 : List (HloOp τ sig (Elt F))).Forall fun op => op.fresh = ∅ := by
  simp only [List.Forall]; repeat' constructor

/-- Each operation of the stretch touches TensorCore references only. -/
theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- Each operation of the stretch determines its result. -/
theorem ops8_fresh : (ops8 : List (HloOp τ sig (Elt F))).Forall fun op => op.fresh = ∅ := by
  simp only [List.Forall]; repeat' constructor

/-- Each operation of the stretch touches TensorCore references only. -/
theorem ops9_sub : (ops9 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩
/-- Each operation of the stretch determines its result. -/
theorem ops9_fresh : (ops9 : List (HloOp τ sig (Elt F))).Forall fun op => op.fresh = ∅ := by
  simp only [List.Forall]; repeat' constructor

/-- Each operation of the stretch touches TensorCore references only. -/
theorem opsT_sub : (opsT : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., binary_bufs_sub .., binary_bufs_sub .., unary_bufs_sub .., unary_bufs_sub .., binary_bufs_sub .., unary_bufs_sub .., unary_bufs_sub .., binary_bufs_sub .., nullary_bufs_sub .., binary_bufs_sub .., unary_bufs_sub .., binary_bufs_sub .., binary_bufs_sub .., unary_bufs_sub .., unary_bufs_sub .., binary_bufs_sub .., unary_bufs_sub .., unary_bufs_sub .., binary_bufs_sub .., nullary_bufs_sub .., binary_bufs_sub .., unary_bufs_sub .., binary_bufs_sub ..⟩
/-- Each operation of the stretch determines its result. -/
theorem opsT_fresh : (opsT : List (HloOp τ sig (Elt F))).Forall fun op => op.fresh = ∅ := by
  simp only [List.Forall]; repeat' constructor

/-! ## The whole line -/

theorem ops_sub : (ops : List (HloOp τ sig (Elt F))).Forall fun op => op.bufs ⊆ tcRefs τ sig := by
  simp only [ops, List.forall_append]
  exact ⟨⟨⟨⟨⟨⟨⟨⟨⟨⟨ops0_sub, ops1_sub⟩, ops2_sub⟩, ops3_sub⟩, ops4_sub⟩, ops5_sub⟩, ops6_sub⟩, ops7_sub⟩, ops8_sub⟩, ops9_sub⟩, opsT_sub⟩

theorem ops_fresh : ∀ op ∈ (ops : List (HloOp τ sig (Elt F))), op.fresh = ∅ := by
  have h : (ops : List (HloOp τ sig (Elt F))).Forall fun op => op.fresh = ∅ := by
    simp only [ops, List.forall_append]
    exact ⟨⟨⟨⟨⟨⟨⟨⟨⟨⟨ops0_fresh, ops1_fresh⟩, ops2_fresh⟩, ops3_fresh⟩, ops4_fresh⟩, ops5_fresh⟩, ops6_fresh⟩, ops7_fresh⟩, ops8_fresh⟩, ops9_fresh⟩, opsT_fresh⟩
  exact List.forall_iff_forall_mem.mp h

theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
set_option maxHeartbeats 4000000 in
/-- @main is that straight line: the windows and the functions' definitions unfolded at their calls, both sides are
    one chain of operation steps once sequencing is reassociated. -/
theorem main_eq (c : Dev nD) : main (F := F) c = seq ops := by
  simp only [main, main_part0, main_part1, fn_cumsum.body, fn_cumsum_0.body, fn_roll_static.body, fn_cumsum_1.body, fn_cumsum_2.body,
    fn_cumsum_3.body, fn_cumsum_4.body, fn_take.body, fn_where.body, ops, seq_append, ops0, ops1, ops2, ops3, ops4, ops5, ops6, ops7, ops8, ops9, opsT, seq, bind_assoc, pure_bind]

/-- Every weakly fair execution of @main terminates, and every TensorCore buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (b : DevRef τ sig) :=
  run_seq scopedRefs_eq scopedSems_eq defs main (fun _ => ops) main_eq (fun _ => ops_sub) m ρ (fun _ => ops_fresh)

end Cert.ReferenceIdeal.RefRun

end
-- ==== Proof.RefTail.lean ====
/-
  One pooled branch of the reference as a function of the padded tensor, the node counts, a weight matrix and a bias,
  and that function read at an entry.
-/
import proofs.«142141_j40922448396573_1_alg».proof.ReferenceIdeal
import proofs.«142141_j40922448396573_1_alg».proof.Proof.Gen.ReferenceIdeal
import proofs.«142141_j40922448396573_1_alg».proof.Proof.Spec
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RefTail

open Cert.ReferenceIdeal Cert.ReferenceIdeal.Facts₀ Idealize.ShloMosaic Idealize.ShloMosaic.ValueIdx

/-- The linear layer on every slot, the mask, the sum over slots, the division by the count: the operations from the
    node iota down to one branch's quotient, as one function. -/
def poolRef (P : FVec Ideal S2048x128x256 .f32) (nn : IVec S2048 32) (W : FVec Ideal S256x256 .f32) (b : FVec Ideal S256 .f32) :
    FVec Ideal S2048x256 .f32 :=
  -- the slot numbers 0 … 127, laid along every graph's row
  let slot : IVec S128 32 := iotaInDim S128 32 0
  let slotRow : IVec S1x128 32 := broadcastInDim S1x128 ![1] bcast_S128_S1x128_1 slot
  -- the node counts, laid along every slot's column
  let cntCol : IVec S2048x1 32 := broadcastInDim S2048x1 ![0] bcast_S2048_S2048x1_0 nn
  let slots : IVec S2048x128 32 := broadcastInDim S2048x128 ![0, 1] bcast_S1x128_S2048x128_0_1 slotRow
  let cnts : IVec S2048x128 32 := broadcastInDim S2048x128 ![0, 1] bcast_S2048x1_S2048x128_0_1 cntCol
  -- the mask: slot below count, as a float
  let below : IVec S2048x128 1 := cmpi .slt slots cnts
  let mask : FVec Ideal S2048x128 .f32 := uitofp .f32 below
  -- the counts as floats, one column
  let cntF : FVec Ideal S2048 .f32 := sitofp .f32 nn
  let cntFCol : FVec Ideal S2048x1 .f32 := broadcastInDim S2048x1 ![0] bcast_S2048_S2048x1_0 cntF
  -- the linear layer on every slot
  let lin : FVec Ideal S2048x128x256 .f32 :=
    Host.dotGeneral (F := Ideal) dot_S2048x128x256_S256x256_S2048x128x256_2_0_01_1_n_n none P W
  let bias1 : FVec Ideal S1x1x256 .f32 := broadcastInDim S1x1x256 ![2] bcast_S256_S1x1x256_2 b
  let bias : FVec Ideal S2048x128x256 .f32 := broadcastInDim S2048x128x256 ![0, 1, 2] bcast_S1x1x256_S2048x128x256_0_1_2 bias1
  let aff : FVec Ideal S2048x128x256 .f32 := addf lin bias
  -- masked, summed over the slots, divided by the count
  let mask1 : FVec Ideal S2048x128x1 .f32 := broadcastInDim S2048x128x1 ![0, 1] bcast_S2048x128_S2048x128x1_0_1 mask
  let maskB : FVec Ideal S2048x128x256 .f32 := broadcastInDim S2048x128x256 ![0, 1, 2] bcast_S2048x128x1_S2048x128x256_0_1_2 mask1
  let masked : FVec Ideal S2048x128x256 .f32 := mulf aff maskB
  let zero : FVec Ideal S_ .f32 := constant (F := Ideal) S_ .f32 0x00000000#32
  let total : FVec Ideal S2048x256 .f32 :=
    Host.reduceAdd (F := Ideal) masked zero reducesTo_S2048x128x256_S2048x256_d1 h_S_
  let cntB : FVec Ideal S2048x256 .f32 := broadcastInDim S2048x256 ![0, 1] bcast_S2048x1_S2048x256_0_1 cntFCol
  Host.divf (F := Ideal) total cntB

/-! ### The layout operations at an entry -/

/-- A vector laid along the last axis of a one-row matrix. -/
theorem row_apply {α : Type} (x : S128.Idx → α) (n : Fin 128) (z : Fin 1) :
    broadcastInDim S1x128 ![1] bcast_S128_S1x128_1 x (ix2 z n) = x (ix1 n) :=
  broadcastInDim_apply _ _ x _ (ix1 n) (fun a => by match a with | ⟨0, _⟩ => rfl)

/-- A vector laid down the one column of a matrix. -/
theorem col_apply {α : Type} (x : S2048.Idx → α) (g : Fin 2048) (z : Fin 1) :
    broadcastInDim S2048x1 ![0] bcast_S2048_S2048x1_0 x (ix2 g z) = x (ix1 g) :=
  broadcastInDim_apply _ _ x _ (ix1 g) (fun a => by match a with | ⟨0, _⟩ => rfl)

/-- A one-row matrix repeated down the graphs. -/
theorem rows_apply {α : Type} (x : S1x128.Idx → α) (g : Fin 2048) (n : Fin 128) :
    broadcastInDim S2048x128 ![0, 1] bcast_S1x128_S2048x128_0_1 x (ix2 g n) = x (ix2 0 n) :=
  broadcastInDim_apply _ _ x _ (ix2 0 n) (fun a => by match a with | ⟨0, _⟩ => rfl | ⟨1, _⟩ => rfl)

/-- A one-column matrix repeated along the slots. -/
theorem cols_apply {α : Type} (x : S2048x1.Idx → α) (g : Fin 2048) (n : Fin 128) :
    broadcastInDim S2048x128 ![0, 1] bcast_S2048x1_S2048x128_0_1 x (ix2 g n) = x (ix2 g 0) :=
  broadcastInDim_apply _ _ x _ (ix2 g 0) (fun a => by match a with | ⟨0, _⟩ => rfl | ⟨1, _⟩ => rfl)

/-- A one-column matrix repeated along the output columns. -/
theorem colsOut_apply {α : Type} (x : S2048x1.Idx → α) (g : Fin 2048) (d : Fin 256) :
    broadcastInDim S2048x256 ![0, 1] bcast_S2048x1_S2048x256_0_1 x (ix2 g d) = x (ix2 g 0) :=
  broadcastInDim_apply _ _ x _ (ix2 g 0) (fun a => by match a with | ⟨0, _⟩ => rfl | ⟨1, _⟩ => rfl)

/-- The bias row as a [1,1,256] block. -/
theorem bias1_apply {α : Type} (x : S256.Idx → α) (z z' : Fin 1) (d : Fin 256) :
    broadcastInDim S1x1x256 ![2] bcast_S256_S1x1x256_2 x (ix3 z z' d) = x (ix1 d) :=
  broadcastInDim_apply _ _ x _ (ix1 d) (fun a => by match a with | ⟨0, _⟩ => rfl)

/-- That block repeated over graphs and slots. -/
theorem biasB_apply {α : Type} (x : S1x1x256.Idx → α) (g : Fin 2048) (n : Fin 128) (d : Fin 256) :
    broadcastInDim S2048x128x256 ![0, 1, 2] bcast_S1x1x256_S2048x128x256_0_1_2 x (ix3 g n d) = x (ix3 0 0 d) :=
  broadcastInDim_apply _ _ x _ (ix3 0 0 d) (fun a => by match a with | ⟨0, _⟩ => rfl | ⟨1, _⟩ => rfl | ⟨2, _⟩ => rfl)

/-- The mask with a unit last axis. -/
theorem mask1_apply {α : Type} (x : S2048x128.Idx → α) (g : Fin 2048) (n : Fin 128) (z : Fin 1) :
    broadcastInDim S2048x128x1 ![0, 1] bcast_S2048x128_S2048x128x1_0_1 x (ix3 g n z) = x (ix2 g n) :=
  broadcastInDim_apply _ _ x _ (ix2 g n) (fun a => by match a with | ⟨0, _⟩ => rfl | ⟨1, _⟩ => rfl)

/-- That mask repeated along the output columns. -/
theorem maskB_apply {α : Type} (x : S2048x128x1.Idx → α) (g : Fin 2048) (n : Fin 128) (d : Fin 256) :
    broadcastInDim S2048x128x256 ![0, 1, 2] bcast_S2048x128x1_S2048x128x256_0_1_2 x (ix3 g n d) = x (ix3 g n 0) :=
  broadcastInDim_apply _ _ x _ (ix3 g n 0) (fun a => by match a with | ⟨0, _⟩ => rfl | ⟨1, _⟩ => rfl | ⟨2, _⟩ => rfl)

/-! ### The mask and the count at an entry -/

/-- The signed comparison of a slot number with a count word, read as a float: one below the count, else zero. -/
theorem below_float (n : Fin 128) (c : BitVec 32) :
    (FloatOps.uitofp (F := Ideal) .f32 (IntOp.cmpi .slt (BitVec.ofNat 32 n.val) c) : EReal)
      = if (n.val : ℤ) < c.toInt then 1 else 0 := by
  show (((BitVec.ofBool ((BitVec.ofNat 32 n.val).slt c)).toNat : ℝ) : EReal) = _
  rw [BitVec.slt, StableHlo.Predicate.toInt_ofNat_small n.val (by have := n.isLt; omega)]
  by_cases h : (n.val : ℤ) < c.toInt
  · rw [if_pos h, decide_eq_true h]; simp
  · rw [if_neg h, decide_eq_false h]; simp

/-! ### The linear layer at an entry -/

/-- The left operand's index on its graph axis: the result's. -/
theorem lhs_axis0 (i : S2048x128x256.Idx) (q : dot_S2048x128x256_S256x256_S2048x128x256_2_0_01_1_n_n.contr.Idx) :
    (dot_S2048x128x256_S256x256_S2048x128x256_2_0_01_1_n_n.lhsIdx i q 0).val = (i 0).val := by
  unfold DotDims.lhsIdx
  rw [dif_neg (show ¬(0 : Fin S2048x128x256.rank) ∈ dot_S2048x128x256_S256x256_S2048x128x256_2_0_01_1_n_n.lhsBatch by decide),
    dif_pos (show (0 : Fin S2048x128x256.rank) ∈ dot_S2048x128x256_S256x256_S2048x128x256_2_0_01_1_n_n.lhsNonContracting by decide)]
  rfl

/-- … on its slot axis: the result's. -/
theorem lhs_axis1 (i : S2048x128x256.Idx) (q : dot_S2048x128x256_S256x256_S2048x128x256_2_0_01_1_n_n.contr.Idx) :
    (dot_S2048x128x256_S256x256_S2048x128x256_2_0_01_1_n_n.lhsIdx i q 1).val = (i 1).val := by
  unfold DotDims.lhsIdx
  rw [dif_neg (show ¬(1 : Fin S2048x128x256.rank) ∈ dot_S2048x128x256_S256x256_S2048x128x256_2_0_01_1_n_n.lhsBatch by decide),
    dif_pos (show (1 : Fin S2048x128x256.rank) ∈ dot_S2048x128x256_S256x256_S2048x128x256_2_0_01_1_n_n.lhsNonContracting by decide)]
  rfl

/-- … on its feature axis: the contraction's coordinate. -/
theorem lhs_axis2 (i : S2048x128x256.Idx) (q : dot_S2048x128x256_S256x256_S2048x128x256_2_0_01_1_n_n.contr.Idx) :
    (dot_S2048x128x256_S256x256_S2048x128x256_2_0_01_1_n_n.lhsIdx i q 2).val = (q ⟨0, by decide⟩).val :=
  dot_S2048x128x256_S256x256_S2048x128x256_2_0_01_1_n_n.lhsIdx_val_of_single rfl i q

/-- The weight matrix's row: the contraction's coordinate. -/
theorem rhs_axis0 (i : S2048x128x256.Idx) (q : dot_S2048x128x256_S256x256_S2048x128x256_2_0_01_1_n_n.contr.Idx) :
    (dot_S2048x128x256_S256x256_S2048x128x256_2_0_01_1_n_n.rhsIdx i q 0).val = (q ⟨0, by decide⟩).val :=
  dot_S2048x128x256_S256x256_S2048x128x256_2_0_01_1_n_n.rhsIdx_val_of_single rfl i q

/-- The weight matrix's column: the result's last coordinate. -/
theorem rhs_axis1 (i : S2048x128x256.Idx) (q : dot_S2048x128x256_S256x256_S2048x128x256_2_0_01_1_n_n.contr.Idx) :
    (dot_S2048x128x256_S256x256_S2048x128x256_2_0_01_1_n_n.rhsIdx i q 1).val = (i 2).val := by
  unfold DotDims.rhsIdx
  rw [dif_neg (show ¬(1 : Fin S256x256.rank) ∈ dot_S2048x128x256_S256x256_S2048x128x256_2_0_01_1_n_n.rhsBatch by decide),
    dif_pos (show (1 : Fin S256x256.rank) ∈ dot_S2048x128x256_S256x256_S2048x128x256_2_0_01_1_n_n.rhsNonContracting by decide)]
  rfl

/-- The product of the padded features with a weight matrix, at slot `n` of graph `g` and column `d`:
    the sum over the features. -/
theorem lin_apply (P : FVec Ideal S2048x128x256 .f32) (W : FVec Ideal S256x256 .f32) (g : Fin 2048) (n : Fin 128) (d : Fin 256) :
    Host.dotGeneral (F := Ideal) dot_S2048x128x256_S256x256_S2048x128x256_2_0_01_1_n_n none P W (ix3 g n d)
      = ∑ h : Fin 256, P (ix3 g n h) * W (ix2 h d) := by
  simp only [Host.dotGeneral]
  rw [Ideal.dotGeneral_apply, ← Equiv.sum_comp (contrEquiv1 dot_S2048x128x256_S256x256_S2048x128x256_2_0_01_1_n_n 256 rfl rfl).symm]
  refine Finset.sum_congr rfl fun k _ => ?_
  have hk := contrEquiv1_symm_val dot_S2048x128x256_S256x256_S2048x128x256_2_0_01_1_n_n 256 rfl rfl k
  have el : dot_S2048x128x256_S256x256_S2048x128x256_2_0_01_1_n_n.lhsIdx (ix3 g n d) ((contrEquiv1 dot_S2048x128x256_S256x256_S2048x128x256_2_0_01_1_n_n 256 rfl rfl).symm k) = ix3 g n k :=
    funext fun a => Fin.ext (by
      match a with
      | ⟨0, _⟩ => exact lhs_axis0 _ _
      | ⟨1, _⟩ => exact lhs_axis1 _ _
      | ⟨2, _⟩ => exact (lhs_axis2 _ _).trans hk)
  have er : dot_S2048x128x256_S256x256_S2048x128x256_2_0_01_1_n_n.rhsIdx (ix3 g n d) ((contrEquiv1 dot_S2048x128x256_S256x256_S2048x128x256_2_0_01_1_n_n 256 rfl rfl).symm k) = ix2 k d :=
    funext fun a => Fin.ext (by
      match a with
      | ⟨0, _⟩ => exact (rhs_axis0 _ _).trans hk
      | ⟨1, _⟩ => exact rhs_axis1 _ _)
  rw [el, er]

/-! ### The sum over the slots at an entry -/

/-- The host sum over the slot axis from the zero word: zero plus the sum over the slots. -/
theorem total_apply (x : FVec Ideal S2048x128x256 .f32) (g : Fin 2048) (d : Fin 256) :
    Host.reduceAdd (F := Ideal) x (constant (F := Ideal) S_ .f32 0x00000000#32) reducesTo_S2048x128x256_S2048x256_d1 h_S_ (ix2 g d)
      = 0 + ∑ n : Fin 128, x (ix3 g n d) := by
  simp only [Host.reduceAdd, Ideal.hostReduceAdd_def]
  rw [Ideal.hostReduceAdd_single reducesTo_S2048x128x256_S2048x256_d1 (by decide), constant_apply, Ideal.ofBits_zero_f32]
  refine congrArg (_ + ·) (Finset.sum_congr rfl fun k _ => ?_)
  exact congrArg x (funext fun a => Fin.ext (by match a with | ⟨0, _⟩ => rfl | ⟨1, _⟩ => rfl | ⟨2, _⟩ => rfl))

/-- A float of a word comparison, entry by entry. -/
theorem maskOf_apply (s c : IVec S2048x128 32) (j : S2048x128.Idx) :
    (uitofp (F := Ideal) .f32 (cmpi .slt s c) : FVec Ideal S2048x128 .f32) j
      = FloatOps.uitofp (F := Ideal) .f32 (IntOp.cmpi .slt (s j) (c j)) := rfl

/-- The mask the reference builds — slot number below node count, as a float — is the specification's. -/
theorem mask_apply (nn : IVec S2048 32) (g : Fin 2048) (n : Fin 128) :
    (uitofp (F := Ideal) .f32 (cmpi .slt
        (broadcastInDim S2048x128 ![0, 1] bcast_S1x128_S2048x128_0_1
          (broadcastInDim S1x128 ![1] bcast_S128_S1x128_1 (iotaInDim S128 32 0)))
        (broadcastInDim S2048x128 ![0, 1] bcast_S2048x1_S2048x128_0_1
          (broadcastInDim S2048x1 ![0] bcast_S2048_S2048x1_0 nn))) : FVec Ideal S2048x128 .f32) (ix2 g n)
      = Cert.Pool.msk nn g n := by
  rw [maskOf_apply, rows_apply, row_apply, cols_apply, col_apply]
  exact below_float n (nn (ix1 g))

/-- The host quotient, entry by entry. -/
theorem quot_apply (a c : FVec Ideal S2048x256 .f32) (i : S2048x256.Idx) :
    Host.divf (F := Ideal) a c i = Ideal.div (a i) (c i) := by
  show FloatOps.hostDivf _ _ = _
  rw [Ideal.hostDivf_def]

/-- Read at graph `g` and output column `d`. -/
theorem poolRef_apply (P : FVec Ideal S2048x128x256 .f32) (nn : IVec S2048 32) (W : FVec Ideal S256x256 .f32) (b : FVec Ideal S256 .f32)
    (g : Fin 2048) (d : Fin 256) :
    poolRef P nn W b (ix2 g d) = Cert.Pool.refForm P nn W b g d := by
  unfold poolRef Cert.Pool.refForm
  dsimp only
  rw [quot_apply, total_apply, colsOut_apply, col_apply]
  refine congrArg₂ Ideal.div (congrArg (0 + ·) (Finset.sum_congr rfl fun n _ => ?_)) rfl
  rw [mulf_apply, addf_apply, lin_apply, biasB_apply, bias1_apply, maskB_apply, mask1_apply, mask_apply]

end Cert.ReferenceIdeal.RefTail

end
-- ==== Proof.RefValue.lean ====
/-
  The reference's three results, entry by entry: the linear layer on every slot of the padded tensor, the masked sum
  over slots, divided by the node count.
-/
import proofs.«142141_j40922448396573_1_alg».proof.Proof.RefRun
import proofs.«142141_j40922448396573_1_alg».proof.Proof.RefTail
import proofs.«142141_j40922448396573_1_alg».proof.Proof.Spec
import proofs.«142141_j40922448396573_1_alg».proof.Proof.IdxChain
import proofs.«142141_j40922448396573_1_alg».proof.Proof.ScatterBridge
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.RefRun Idealize.ShloMosaic Idealize.ShloMosaic.TcCoe Idealize.SL.Sem Idealize.ShloMosaic.StableHlo
open Idealize.ShloMosaic.ValueIdx

variable (V : Valuation τ sig (Elt Ideal))

/-! ## Each stretch, from any contents

What a stretch leaves at the buffer a later stretch reads, as a function of the contents it started from at the
buffers it reads itself. -/

section Stages

open Cert.ReferenceIdeal.Gen

variable (X : Valuation τ sig (Elt Ideal))

/-- The (graph, slot) pairs, from the graph numbers as the table read leaves them and the graphs' first rows. -/
def idxFrom (gt : IVec S146763 32) (off : IVec S2048 32) : IVec S146763x2 32 :=
  concatenate S146763x2 1
    [⟨S146763x1, Cert.Pool.colR (Cert.Pool.wrapR 2048#32 gt)⟩,
     ⟨S146763x1, Cert.Pool.colR (Cert.Pool.wrapR 128#32
        (subi (iotaInDim S146763 32 0)
          (Host.gather gather_S2048_S146763x1_S146763_n_0_n_n_0_1_1 off (Cert.Pool.colR (Cert.Pool.wrapR 2048#32 gt)))))⟩]
    concatenates_S146763x1_S146763x1_S146763x2_d1

/-- The running sum of the counts. -/
theorem s0_v0 : after (ops0 (F := Ideal)) X (main_v0 : DevRef τ sig) = Cert.Pool.cumsumG (X (main_arg1 : DevRef τ sig)) := by
  simp only [ops0]
  after_results
  simp only [TRef.ofBuf, TRef.toBuf, cast_eq]
  rfl

/-- Less the counts themselves: each graph's first row. -/
theorem s1_v1 : after (ops1 (F := Ideal)) X (main_v1 : DevRef τ sig) = subi (X (main_v0 : DevRef τ sig)) (X (main_arg1 : DevRef τ sig)) := by
  simp only [ops1]
  after_results

/-- The graph numbers. -/
theorem s1_v2 : after (ops1 (F := Ideal)) X (main_v2 : DevRef τ sig) = iotaInDim S2048 32 0 := by
  simp only [ops1]
  after_results

/-- The counts moved one graph up. -/
theorem s2_v3 : after (ops2 (F := Ideal)) X (main_v3 : DevRef τ sig) = Cert.Pool.rolled (X (main_arg1 : DevRef τ sig)) := by
  simp only [ops2]
  after_results
  simp only [TRef.ofBuf, TRef.toBuf, cast_eq]
  rfl

/-- Entry zero set to zero. -/
theorem s3_v5 : after (ops3 (F := Ideal)) X (main_v5 : DevRef τ sig)
    = Host.scatter scatter_S2048_S1_S__n_0_0_0 (fun _ b => b) (X (main_v3 : DevRef τ sig))
        (broadcastInDim S1 ![] bcast_S_S1 (constantI S_ 32 0#32)) (constantI S_ 32 0#32) := by
  simp only [ops3]
  after_results
  rfl

/-- Its running sum. -/
theorem s4_v6 : after (ops4 (F := Ideal)) X (main_v6 : DevRef τ sig) = Cert.Pool.cumsumG (X (main_v5 : DevRef τ sig)) := by
  simp only [ops4]
  after_results
  simp only [TRef.ofBuf, TRef.toBuf, cast_eq]
  rfl

/-- One mark added at each graph's (normalised) first row. -/
theorem s5_v15 : after (ops5 (F := Ideal)) X (main_v15 : DevRef τ sig)
    = Host.scatter scatter_S146763_S2048x1_S2048_n_0_0_1 IntOp.addi
        (broadcastInDim S146763 ![] bcast_S_S146763 (constantI S_ 32 0#32))
        (broadcastInDim S2048x1 ![0] bcast_S2048_S2048x1_0 (Cert.Pool.wrapG (X (main_v6 : DevRef τ sig))))
        (broadcastInDim S2048 ![] bcast_S_S2048 (constantI S_ 32 1#32)) := by
  simp only [ops5]
  after_results
  rfl

/-- The marks' running sum. -/
theorem s6_v16 : after (ops6 (F := Ideal)) X (main_v16 : DevRef τ sig) = Cert.Pool.cumsumR (X (main_v15 : DevRef τ sig)) := by
  simp only [ops6]
  after_results
  simp only [TRef.ofBuf, TRef.toBuf, cast_eq]
  rfl

/-- Less one. -/
theorem s7_v18 : after (ops7 (F := Ideal)) X (main_v18 : DevRef τ sig)
    = subi (X (main_v16 : DevRef τ sig)) (broadcastInDim S146763 ![] bcast_S_S146763 (constantI S_ 32 1#32)) := by
  simp only [ops7]
  after_results

set_option maxHeartbeats 4000000 in
/-- The table of graph numbers read at those positions. -/
theorem s8_v19 : after (ops8 (F := Ideal)) X (main_v19 : DevRef τ sig)
    = select
        (Host.reduce IntOp.andi
          (andi (cmpi .sge (Cert.Pool.takeCol (X (main_v18 : DevRef τ sig))) (broadcastInDim S146763x1 ![] bcast_S_S146763x1 (constantI S_ 32 0#32)))
            (cmpi .sle (Cert.Pool.takeCol (X (main_v18 : DevRef τ sig)))
              (broadcastInDim S146763x1 ![0, 1] bcast_S1x1_S146763x1_0_1
                (broadcastInDim S1x1 ![1] bcast_S1_S1x1_1 (constantI S1 32 2047#32)))))
          (constantI S_ 1 1#1) reducesTo_S146763x1_S146763_d1 h_S_)
        (Host.gather gather_S2048_S146763x1_S146763_n_0_n_n_0_1_1 (X (main_v2 : DevRef τ sig)) (Cert.Pool.takeCol (X (main_v18 : DevRef τ sig))))
        (broadcastInDim S146763 ![] bcast_S_S146763 (constantI S_ 32 2147483648#32)) := by
  simp only [ops8]
  after_results
  simp only [TRef.ofBuf, TRef.toBuf, cast_eq]
  rfl

set_option maxHeartbeats 4000000 in
/-- The feature rows written at their (graph, slot) pairs into the zero tensor. -/
theorem s9_v43 : after (ops9 (F := Ideal)) X (main_v43 : DevRef τ sig)
    = Cert.Pool.padR (X (main_arg0 : DevRef τ sig)) (idxFrom (X (main_v19 : DevRef τ sig)) (X (main_v1 : DevRef τ sig))) := by
  simp only [ops9]
  after_results
  rfl

set_option maxHeartbeats 4000000 in
/-- The first pooled branch, from the padded tensor, the counts, the first weight matrix and bias. -/
theorem sT_v62 : after (opsT (F := Ideal)) X (main_v62 : DevRef τ sig)
    = RefTail.poolRef (X (main_v43 : DevRef τ sig)) (X (main_arg1 : DevRef τ sig)) (X (main_arg2 : DevRef τ sig)) (X (main_arg3 : DevRef τ sig)) := by
  simp only [opsT]
  after_results_simp
  rfl

set_option maxHeartbeats 4000000 in
/-- The second. -/
theorem sT_v72 : after (opsT (F := Ideal)) X (main_v72 : DevRef τ sig)
    = RefTail.poolRef (X (main_v43 : DevRef τ sig)) (X (main_arg1 : DevRef τ sig)) (X (main_arg4 : DevRef τ sig)) (X (main_arg5 : DevRef τ sig)) := by
  simp only [opsT]
  after_results_simp
  rfl

set_option maxHeartbeats 4000000 in
/-- The third. -/
theorem sT_v82 : after (opsT (F := Ideal)) X (main_v82 : DevRef τ sig)
    = RefTail.poolRef (X (main_v43 : DevRef τ sig)) (X (main_arg1 : DevRef τ sig)) (X (main_arg6 : DevRef τ sig)) (X (main_arg7 : DevRef τ sig)) := by
  simp only [opsT]
  after_results_simp
  rfl

end Stages

/-! ## The stretches in order

From the launch contents `V`: what the buffers read later hold after each prefix of the line. No operation writes an
argument, the graphs' first rows (`%1`) stay as the second stretch leaves them until the ninth reads them, and the graph
numbers (`%2`) until the eighth does. -/

/-- The line up to and including each stretch. -/
abbrev pre1 : List (HloOp τ sig (Elt Ideal)) := ops0 ++ ops1
abbrev pre2 : List (HloOp τ sig (Elt Ideal)) := pre1 ++ ops2
abbrev pre3 : List (HloOp τ sig (Elt Ideal)) := pre2 ++ ops3
abbrev pre4 : List (HloOp τ sig (Elt Ideal)) := pre3 ++ ops4
abbrev pre5 : List (HloOp τ sig (Elt Ideal)) := pre4 ++ ops5
abbrev pre6 : List (HloOp τ sig (Elt Ideal)) := pre5 ++ ops6
abbrev pre7 : List (HloOp τ sig (Elt Ideal)) := pre6 ++ ops7
abbrev pre8 : List (HloOp τ sig (Elt Ideal)) := pre7 ++ ops8
abbrev pre9 : List (HloOp τ sig (Elt Ideal)) := pre8 ++ ops9
/-- The stretches after the second, up to the seventh and to the eighth. -/
abbrev mid7 : List (HloOp τ sig (Elt Ideal)) := ops2 ++ ops3 ++ ops4 ++ ops5 ++ ops6 ++ ops7
abbrev mid8 : List (HloOp τ sig (Elt Ideal)) := mid7 ++ ops8

theorem ops_eq : (ops (F := Ideal)) = pre9 ++ opsT := rfl
theorem pre7_eq : pre7 = pre1 ++ mid7 := by
  simp only [pre7, pre6, pre5, pre4, pre3, pre2, mid7, List.append_assoc]
theorem pre8_eq : pre8 = pre1 ++ mid8 := by
  simp only [pre8, pre7, pre6, pre5, pre4, pre3, pre2, mid8, mid7, List.append_assoc]

/-- Closes `after l X r = X r` for a literal reference `r` that no operation of the literal line `l` writes: operation
    by operation, the written reference is another one. -/
local macro "not_written" : tactic =>
  `(tactic| (
    refine after_of_forall_not_mem _ _ (List.forall_iff_forall_mem.mp ?_)
    simp only [ops, pre9, pre8, pre7, pre6, pre5, pre4, pre3, pre2, pre1, mid8, mid7,
      ops0, ops1, ops2, ops3, ops4, ops5, ops6, ops7, ops8, ops9, opsT, List.cons_append, List.nil_append, List.Forall,
      nullary_writes, unary_writes, binary_writes, ternary_writes, quaternary_writes, reshape_writes, binaryIndexed_writes,
      Finset.mem_singleton]
    repeat' apply And.intro
    all_goals exact devRef_ne_of_ne (by decide)))

theorem p0_arg1 : after (ops0 (F := Ideal)) V (main_arg1 : DevRef τ sig) = V (main_arg1 : DevRef τ sig) := by not_written
theorem p1_arg1 : after pre1 V (main_arg1 : DevRef τ sig) = V (main_arg1 : DevRef τ sig) := by not_written
theorem p8_arg0 : after pre8 V (main_arg0 : DevRef τ sig) = V (main_arg0 : DevRef τ sig) := by not_written
theorem p9_arg1 : after pre9 V (main_arg1 : DevRef τ sig) = V (main_arg1 : DevRef τ sig) := by not_written
theorem p9_arg2 : after pre9 V (main_arg2 : DevRef τ sig) = V (main_arg2 : DevRef τ sig) := by not_written
theorem p9_arg3 : after pre9 V (main_arg3 : DevRef τ sig) = V (main_arg3 : DevRef τ sig) := by not_written
theorem p9_arg4 : after pre9 V (main_arg4 : DevRef τ sig) = V (main_arg4 : DevRef τ sig) := by not_written
theorem p9_arg5 : after pre9 V (main_arg5 : DevRef τ sig) = V (main_arg5 : DevRef τ sig) := by not_written
theorem p9_arg6 : after pre9 V (main_arg6 : DevRef τ sig) = V (main_arg6 : DevRef τ sig) := by not_written
theorem p9_arg7 : after pre9 V (main_arg7 : DevRef τ sig) = V (main_arg7 : DevRef τ sig) := by not_written
theorem mid8_v1 : after mid8 V (main_v1 : DevRef τ sig) = V (main_v1 : DevRef τ sig) := by not_written
theorem mid7_v2 : after mid7 V (main_v2 : DevRef τ sig) = V (main_v2 : DevRef τ sig) := by not_written

/-- The graphs' first rows. -/
theorem p1_v1 : after pre1 V (main_v1 : DevRef τ sig) = Cert.Pool.offsets (V (main_arg1 : DevRef τ sig)) := by
  rw [pre1, after_append, s1_v1, s0_v0, p0_arg1]
  rfl
theorem p1_v2 : after pre1 V (main_v2 : DevRef τ sig) = iotaInDim S2048 32 0 := by
  rw [pre1, after_append, s1_v2]
theorem p2_v3 : after pre2 V (main_v3 : DevRef τ sig) = Cert.Pool.rolled (V (main_arg1 : DevRef τ sig)) := by
  rw [pre2, after_append, s2_v3, p1_arg1]
theorem p3_v5 : after pre3 V (main_v5 : DevRef τ sig) = Cert.Pool.rolled0 (V (main_arg1 : DevRef τ sig)) := by
  rw [pre3, after_append, s3_v5, p2_v3]
  rfl
theorem p4_v6 : after pre4 V (main_v6 : DevRef τ sig) = Cert.Pool.starts (V (main_arg1 : DevRef τ sig)) := by
  rw [pre4, after_append, s4_v6, p3_v5]
  rfl
theorem p5_v15 : after pre5 V (main_v15 : DevRef τ sig) = Cert.Pool.marks (V (main_arg1 : DevRef τ sig)) := by
  rw [pre5, after_append, s5_v15, p4_v6]
  rfl
theorem p6_v16 : after pre6 V (main_v16 : DevRef τ sig) = Cert.Pool.cumsumR (Cert.Pool.marks (V (main_arg1 : DevRef τ sig))) := by
  rw [pre6, after_append, s6_v16, p5_v15]
theorem p7_v18 : after pre7 V (main_v18 : DevRef τ sig) = Cert.Pool.gidRaw (V (main_arg1 : DevRef τ sig)) := by
  rw [pre7, after_append, s7_v18, p6_v16]
  rfl
theorem p7_v2 : after pre7 V (main_v2 : DevRef τ sig) = iotaInDim S2048 32 0 := by
  rw [pre7_eq, after_append, mid7_v2, p1_v2]
/-- Every row's graph, as the table read leaves it. -/
theorem p8_v19 : after pre8 V (main_v19 : DevRef τ sig) = Cert.Pool.gidTaken (V (main_arg1 : DevRef τ sig)) := by
  rw [pre8, after_append, s8_v19, p7_v18, p7_v2]
  rfl
theorem p8_v1 : after pre8 V (main_v1 : DevRef τ sig) = Cert.Pool.offsets (V (main_arg1 : DevRef τ sig)) := by
  rw [pre8_eq, after_append, mid8_v1, p1_v1]
/-- The padded tensor. -/
theorem p9_v43 : after pre9 V (main_v43 : DevRef τ sig)
    = Cert.Pool.padR (V (main_arg0 : DevRef τ sig)) (Cert.Pool.idxOf (V (main_arg1 : DevRef τ sig))) := by
  rw [pre9, after_append, s9_v43, p8_v19, p8_v1, p8_arg0]
  rfl

/-- The three results as whole tensors. -/
theorem out_v62 : after (ops (F := Ideal)) V (main_v62 : DevRef τ sig)
    = RefTail.poolRef (Cert.Pool.padR (V (main_arg0 : DevRef τ sig)) (Cert.Pool.idxOf (V (main_arg1 : DevRef τ sig))))
        (V (main_arg1 : DevRef τ sig)) (V (main_arg2 : DevRef τ sig)) (V (main_arg3 : DevRef τ sig)) := by
  rw [ops_eq, after_append, sT_v62, p9_v43, p9_arg1, p9_arg2, p9_arg3]
theorem out_v72 : after (ops (F := Ideal)) V (main_v72 : DevRef τ sig)
    = RefTail.poolRef (Cert.Pool.padR (V (main_arg0 : DevRef τ sig)) (Cert.Pool.idxOf (V (main_arg1 : DevRef τ sig))))
        (V (main_arg1 : DevRef τ sig)) (V (main_arg4 : DevRef τ sig)) (V (main_arg5 : DevRef τ sig)) := by
  rw [ops_eq, after_append, sT_v72, p9_v43, p9_arg1, p9_arg4, p9_arg5]
theorem out_v82 : after (ops (F := Ideal)) V (main_v82 : DevRef τ sig)
    = RefTail.poolRef (Cert.Pool.padR (V (main_arg0 : DevRef τ sig)) (Cert.Pool.idxOf (V (main_arg1 : DevRef τ sig))))
        (V (main_arg1 : DevRef τ sig)) (V (main_arg6 : DevRef τ sig)) (V (main_arg7 : DevRef τ sig)) := by
  rw [ops_eq, after_append, sT_v82, p9_v43, p9_arg1, p9_arg6, p9_arg7]

/-- keys: the third weight matrix and bias. -/
theorem out_v82_apply (g : Fin 2048) (d : Fin 256) :
    (after (ops (F := Ideal)) V (main_v82 : DevRef τ sig) : S2048x256.Idx → EReal) (ix2 g d)
      = Cert.Pool.refForm (Cert.Pool.padR (V (main_arg0 : DevRef τ sig)) (Cert.Pool.idxOf (V (main_arg1 : DevRef τ sig))))
          (V (main_arg1 : DevRef τ sig)) (V (main_arg6 : DevRef τ sig)) (V (main_arg7 : DevRef τ sig)) g d := by
  exact (congrFun (out_v82 V) (ix2 g d)).trans (RefTail.poolRef_apply _ _ _ _ g d)

/-- p_queries: the first weight matrix and bias. -/
theorem out_v62_apply (g : Fin 2048) (d : Fin 256) :
    (after (ops (F := Ideal)) V (main_v62 : DevRef τ sig) : S2048x256.Idx → EReal) (ix2 g d)
      = Cert.Pool.refForm (Cert.Pool.padR (V (main_arg0 : DevRef τ sig)) (Cert.Pool.idxOf (V (main_arg1 : DevRef τ sig))))
          (V (main_arg1 : DevRef τ sig)) (V (main_arg2 : DevRef τ sig)) (V (main_arg3 : DevRef τ sig)) g d := by
  exact (congrFun (out_v62 V) (ix2 g d)).trans (RefTail.poolRef_apply _ _ _ _ g d)

/-- r_queries: the second weight matrix and bias. -/
theorem out_v72_apply (g : Fin 2048) (d : Fin 256) :
    (after (ops (F := Ideal)) V (main_v72 : DevRef τ sig) : S2048x256.Idx → EReal) (ix2 g d)
      = Cert.Pool.refForm (Cert.Pool.padR (V (main_arg0 : DevRef τ sig)) (Cert.Pool.idxOf (V (main_arg1 : DevRef τ sig))))
          (V (main_arg1 : DevRef τ sig)) (V (main_arg4 : DevRef τ sig)) (V (main_arg5 : DevRef τ sig)) g d := by
  exact (congrFun (out_v72 V) (ix2 g d)).trans (RefTail.poolRef_apply _ _ _ _ g d)

/-- No operation writes an argument. -/
theorem arg0_eq : after (ops (F := Ideal)) V (main_arg0 : DevRef τ sig) = V (main_arg0 : DevRef τ sig) := by not_written
theorem arg1_eq : after (ops (F := Ideal)) V (main_arg1 : DevRef τ sig) = V (main_arg1 : DevRef τ sig) := by not_written
theorem arg2_eq : after (ops (F := Ideal)) V (main_arg2 : DevRef τ sig) = V (main_arg2 : DevRef τ sig) := by not_written
theorem arg3_eq : after (ops (F := Ideal)) V (main_arg3 : DevRef τ sig) = V (main_arg3 : DevRef τ sig) := by not_written
theorem arg4_eq : after (ops (F := Ideal)) V (main_arg4 : DevRef τ sig) = V (main_arg4 : DevRef τ sig) := by not_written
theorem arg5_eq : after (ops (F := Ideal)) V (main_arg5 : DevRef τ sig) = V (main_arg5 : DevRef τ sig) := by not_written
theorem arg6_eq : after (ops (F := Ideal)) V (main_arg6 : DevRef τ sig) = V (main_arg6 : DevRef τ sig) := by not_written
theorem arg7_eq : after (ops (F := Ideal)) V (main_arg7 : DevRef τ sig) = V (main_arg7 : DevRef τ sig) := by not_written

end Cert.ReferenceIdeal.RefValue

end
-- ==== Proof.PreDecode.lean ====
/-
  What the precondition says: every float input is a real number, and every node count lies in 1 … 128.

  The printed precondition is a conjunction (by `and` on one-bit words) of nine all-entries reductions. Seven of them
  test |x| < +∞ entrywise on a float input: over the extended reals |x| is max x (-x) and the comparison is the
  order, so the test holds exactly when x is neither ⊤ nor ⊥, that is when x is a real number. The last two compare
  every node count with the literals 1 and 128 as signed words.
-/
import proofs.«142141_j40922448396573_1_alg».proof.Pre_finite_inputs
import proofs.«142141_j40922448396573_1_alg».proof.Proof.Gen.Pre_finite_inputs
import proofs.«142141_j40922448396573_1_alg».proof.Proof.Spec
import Idealize.ShloMosaic.Lib.ValueIdx
import Idealize.ShloMosaic.Lib.ReduceAll
import Idealize.ShloMosaic.Lib.StableHlo.Predicate
import Mathlib.Data.EReal.Basic
import Mathlib.Data.EReal.Operations

noncomputable section

namespace Cert.Pool

open Idealize.ShloMosaic Idealize.ShloMosaic.ValueIdx Cert.Pre_finite_inputs

/-- A shape of rank zero has exactly one index. -/
instance subsingleton_scalar_idx : Subsingleton S_.Idx := ⟨fun a b => funext fun d => d.elim0⟩

/-- The f32 pattern with a clear sign, an all-ones exponent and a zero fraction denotes +∞. -/
theorem inf_bits : Ideal.ofBits .f32 0x7F800000#32 = (⊤ : EReal) := by
  simp [Ideal.ofBits, Ideal.ieee]

/-- An extended real whose absolute value max x (-x) tests strictly below +∞ is a real number:
    x < ⊤ excludes ⊤, and -x < ⊤ excludes ⊥. -/
theorem real_of_abs_lt_top (x : EReal) (h : Ideal.cmp .olt (max x (-x)) ⊤ = 1#1) : ∃ r : ℝ, x = (r : EReal) := by
  have hlt : max x (-x) < ⊤ := by
    simpa only [Ideal.cmp, StableHlo.Predicate.ofBool_eq_one_iff, decide_eq_true_eq] using h
  obtain ⟨h1, h2⟩ := max_lt_iff.1 hlt
  have hbot : x ≠ ⊥ := by
    rintro rfl
    rw [EReal.neg_bot] at h2
    exact lt_irrefl _ h2
  exact ⟨x.toReal, (EReal.coe_toReal h1.ne hbot).symm⟩

/-- A float input all of whose entries pass the printed test |x| < +∞ (reduced by `and` to a scalar that is 1)
    has only real entries. -/
theorem all_real {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant S_ .f32 0x7F800000#32)))
      (constantI S_ 1 1#1) hr hu ix0 = 1#1) (i : s.Idx) : ∃ r : ℝ, x i = (r : EReal) := by
  have hi := Host.reduce_andi_all _ _ hr hu ix0 e i
  apply real_of_abs_lt_top
  rw [← inf_bits]
  exact hi

/-- Every word of an integer input passes the printed signed test c ≤ x. -/
theorem all_sge {s : Shape} {axes : List (Fin s.rank)} (x : IVec s 32) (c : BitVec 32)
    (bc : S_.BroadcastsInDim s (![] : Fin 0 → Fin s.rank)) (hr : s.ReducesTo axes S_) (hu : 0 < S_.numel)
    (e : Host.reduce IntOp.andi (cmpi .sge x (broadcastInDim s ![] bc (constantI S_ 32 c)))
      (constantI S_ 1 1#1) hr hu ix0 = 1#1) (i : s.Idx) : c.toInt ≤ (x i).toInt :=
  IntOp.cmpi_sge.1 (Host.reduce_andi_all _ _ hr hu ix0 e i)

/-- Every word of an integer input passes the printed signed test x ≤ c. -/
theorem all_sle {s : Shape} {axes : List (Fin s.rank)} (x : IVec s 32) (c : BitVec 32)
    (bc : S_.BroadcastsInDim s (![] : Fin 0 → Fin s.rank)) (hr : s.ReducesTo axes S_) (hu : 0 < S_.numel)
    (e : Host.reduce IntOp.andi (cmpi .sle x (broadcastInDim s ![] bc (constantI S_ 32 c)))
      (constantI S_ 1 1#1) hr hu ix0 = 1#1) (i : s.Idx) : (x i).toInt ≤ c.toInt :=
  IntOp.cmpi_sle.1 (Host.reduce_andi_all _ _ hr hu ix0 e i)

theorem pre_decode (x0 : FVec Ideal S146763x256 .f32) (nn : IVec S2048 32) (w2 : FVec Ideal S256x256 .f32) (b3 : FVec Ideal S256 .f32)
    (w4 : FVec Ideal S256x256 .f32) (b5 : FVec Ideal S256 .f32) (w6 : FVec Ideal S256x256 .f32) (b7 : FVec Ideal S256 .f32)
    (h : Cert.Pre_finite_inputs.fn (F := Ideal) x0 nn w2 b3 w4 b5 w6 b7 = fun _ => 1#1) :
    (∀ i, ∃ r : ℝ, x0 i = (r : EReal)) ∧ (∀ i, ∃ r : ℝ, w2 i = (r : EReal)) ∧ (∀ i, ∃ r : ℝ, b3 i = (r : EReal))
    ∧ (∀ i, ∃ r : ℝ, w4 i = (r : EReal)) ∧ (∀ i, ∃ r : ℝ, b5 i = (r : EReal))
    ∧ (∀ i, ∃ r : ℝ, w6 i = (r : EReal)) ∧ (∀ i, ∃ r : ℝ, b7 i = (r : EReal))
    ∧ (∀ g : Fin 2048, 1 ≤ (nn (ix1 g)).toInt ∧ (nn (ix1 g)).toInt ≤ 128) := by
  have h0 := congrFun h ix0
  simp only [fn, fn_part1, fn_part2, andi, IntOp.andi_eq_one] at h0
  obtain ⟨⟨⟨⟨⟨⟨⟨⟨e0, e2⟩, e3⟩, e4⟩, e5⟩, e6⟩, e7⟩, eg⟩, el⟩ := h0
  refine ⟨all_real x0 _ _ _ e0, all_real w2 _ _ _ e2, all_real b3 _ _ _ e3, all_real w4 _ _ _ e4, all_real b5 _ _ _ e5,
    all_real w6 _ _ _ e6, all_real b7 _ _ _ e7, fun g => ⟨?_, ?_⟩⟩
  · have := all_sge nn 1#32 _ _ _ eg (ix1 g)
    rwa [show (1#32 : BitVec 32).toInt = 1 from by decide] at this
  · have := all_sle nn 128#32 _ _ _ el (ix1 g)
    rwa [show (128#32 : BitVec 32).toInt = 128 from by decide] at this

end Cert.Pool

end
-- ==== Proof.lean ====
/-
  Mean pooling commutes with a linear layer.

  The kernel pools each graph's node features first — the masked mean over the graph's slots of the padded feature
  tensor, one lane reduction per feature — and then applies the three linear layers to the pooled row; the reference
  applies each linear layer to every slot of the padded tensor, masks, sums over the slots and divides by the node
  count. Over the extended reals, on finite inputs, the two agree exactly when the mask of a graph has as many ones
  as its count and the count is not zero, that is for counts in 1 … 128 (the precondition says so): the bias is then
  added `count` times and divided by `count`, and the sum over slots is exchanged with the sum over features.
  Both programs build the padded tensor by the same chain of integer operations on the counts (which graph a
  feature row belongs to, and its position inside the graph) followed by one scatter of the rows into zeros; the
  kernel keeps the slot axis last and the reference the feature axis, and the two tensors hold the same numbers
  (Proof/ScatterBridge.lean). The kernel's arrays are read off its generated frame run block by block
  (Proof/KernelValue.lean over the host operations' results, Proof/KernelHost.lean); the reference's run is its
  operations in a straight line (Proof/RefRun.lean), read at an entry (Proof/RefValue.lean, Proof/RefTail.lean); the
  algebra is Proof/Spec.lean; the precondition is decoded in Proof/PreDecode.lean.
-/
import proofs.«142141_j40922448396573_1_alg».proof.Defs
import proofs.«142141_j40922448396573_1_alg».proof.Proof.Gen.Kernel
import proofs.«142141_j40922448396573_1_alg».proof.Proof.Gen.Kernel.Frame
import proofs.«142141_j40922448396573_1_alg».proof.Proof.Gen.KernelIdeal
import proofs.«142141_j40922448396573_1_alg».proof.Proof.Gen.KernelIdeal.Frame
import proofs.«142141_j40922448396573_1_alg».proof.Proof.Gen.KernelIdeal.Value
import proofs.«142141_j40922448396573_1_alg».proof.Proof.Gen.ReferenceIdeal
import proofs.«142141_j40922448396573_1_alg».proof.Proof.Gen.Pre_finite_inputs
import proofs.«142141_j40922448396573_1_alg».proof.Proof.Spec
import proofs.«142141_j40922448396573_1_alg».proof.Proof.ScatterBridge
import proofs.«142141_j40922448396573_1_alg».proof.Proof.KernelHost
import proofs.«142141_j40922448396573_1_alg».proof.Proof.KernelValue
import proofs.«142141_j40922448396573_1_alg».proof.Proof.RefRun
import proofs.«142141_j40922448396573_1_alg».proof.Proof.RefValue
import proofs.«142141_j40922448396573_1_alg».proof.Proof.PreDecode
import Idealize.ShloMosaic.Adequacy
import Idealize.ShloMosaic.Init

noncomputable section

namespace Cert.Proof

open Idealize.ShloMosaic Idealize.SL.Sem Idealize.ShloMosaic.StableHlo Idealize.ShloMosaic.ValueIdx

/-! ## One output: the kernel's array is the reference's -/

section Bridge

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- For one branch (weight matrix `W`, bias `b`, as the kernel's region finds them and as the reference's arguments hold
    them): at every entry the kernel's pooled-then-projected value is the reference's projected-then-pooled one. -/
theorem branch_eq (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (Wk : Cert.Pool.Sw.Idx → EReal) (bk : Cert.Pool.Sb.Idx → EReal) (Wr : Cert.Pool.Sw.Idx → EReal) (br : Cert.Pool.Sb.Idx → EReal)
    (hW : Wk = Wr) (hb : bk = br) (hWr : ∀ i, ∃ r : ℝ, Wr i = (r : EReal)) (hbr : ∀ i, ∃ r : ℝ, br i = (r : EReal))
    (g : Fin 2048) (d : Fin 256) :
    Cert.Pool.kerForm (Cert.KernelIdeal.Gen.V m c Cert.KernelIdeal.main_v43) (Cert.KernelIdeal.Gen.V m c Cert.KernelIdeal.main_v54) Wk bk g d
      = Cert.Pool.refForm (Cert.Pool.padR (m' ((c.tc : Thread Cert.ReferenceIdeal.nD Cert.ReferenceIdeal.τ).loc Cert.ReferenceIdeal.main_arg0)) (Cert.Pool.idxOf (m' ((c.tc : Thread Cert.ReferenceIdeal.nD Cert.ReferenceIdeal.τ).loc Cert.ReferenceIdeal.main_arg1))))
          (m' ((c.tc : Thread Cert.ReferenceIdeal.nD Cert.ReferenceIdeal.τ).loc Cert.ReferenceIdeal.main_arg1)) Wr br g d := by
  have hd := Cert.Pool.pre_decode _ _ _ _ _ _ _ _ (hpre c)
  subst hW hb
  refine Cert.Pool.kerForm_eq_refForm _ _ _ _ _ _ ?_ ?_ ?_ hWr hbr ?_ g d
  · intro g n h
    rw [Cert.KernelIdeal.KHost.V_v43 m c, h0, h1]
    exact Cert.Pool.padK_eq_padR _ _ g n h
  · intro g n
    rw [h1]
    exact Cert.KernelIdeal.KHost.V_v54_apply m c g n
  · intro i
    rw [h0]
    exact Cert.Pool.padR_real _ hd.1 _ i
  · rw [h1]
    exact hd.2.2.2.2.2.2.2

end Bridge

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run, read at its arguments: no operation writes one. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.RefValue.arg0_eq _), (h c Cert.ReferenceIdeal.main_arg1).trans (Cert.ReferenceIdeal.RefValue.arg1_eq _),
      (h c Cert.ReferenceIdeal.main_arg2).trans (Cert.ReferenceIdeal.RefValue.arg2_eq _), (h c Cert.ReferenceIdeal.main_arg3).trans (Cert.ReferenceIdeal.RefValue.arg3_eq _),
      (h c Cert.ReferenceIdeal.main_arg4).trans (Cert.ReferenceIdeal.RefValue.arg4_eq _), (h c Cert.ReferenceIdeal.main_arg5).trans (Cert.ReferenceIdeal.RefValue.arg5_eq _),
      (h c Cert.ReferenceIdeal.main_arg6).trans (Cert.ReferenceIdeal.RefValue.arg6_eq _), (h c Cert.ReferenceIdeal.main_arg7).trans (Cert.ReferenceIdeal.RefValue.arg7_eq _)⟩)
    (Cert.ReferenceIdeal.RefRun.run_main (F := Ideal) m ρ)

/-- The ideal pass rewrote nothing. -/
theorem preserves : Cert.preserves_Kernel_KernelIdeal := trivial

/-- The shared values are the kernel's three output arrays after its frame run; the reference's three results are
    those arrays, entry by entry (`branch_eq` at the three weight matrices and biases). -/
theorem algebraic : Cert.algebraic_KernelIdeal_ReferenceIdeal := by
  intro m ρ m' ρ' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks (F := Ideal) m ρ, ?_⟩
  have hd := fun c => Cert.Pool.pre_decode _ _ _ _ _ _ _ _ (hpre c)
  refine (θ_run Cert.ReferenceIdeal.defs _ _).mono
    (fun _ h c => ⟨(h c Cert.ReferenceIdeal.main_v82).trans ?_, (h c Cert.ReferenceIdeal.main_v62).trans ?_, (h c Cert.ReferenceIdeal.main_v72).trans ?_,
      (h c Cert.ReferenceIdeal.main_arg0).trans (Cert.ReferenceIdeal.RefValue.arg0_eq _), (h c Cert.ReferenceIdeal.main_arg1).trans (Cert.ReferenceIdeal.RefValue.arg1_eq _),
      (h c Cert.ReferenceIdeal.main_arg2).trans (Cert.ReferenceIdeal.RefValue.arg2_eq _), (h c Cert.ReferenceIdeal.main_arg3).trans (Cert.ReferenceIdeal.RefValue.arg3_eq _),
      (h c Cert.ReferenceIdeal.main_arg4).trans (Cert.ReferenceIdeal.RefValue.arg4_eq _), (h c Cert.ReferenceIdeal.main_arg5).trans (Cert.ReferenceIdeal.RefValue.arg5_eq _),
      (h c Cert.ReferenceIdeal.main_arg6).trans (Cert.ReferenceIdeal.RefValue.arg6_eq _), (h c Cert.ReferenceIdeal.main_arg7).trans (Cert.ReferenceIdeal.RefValue.arg7_eq _)⟩)
    (Cert.ReferenceIdeal.RefRun.run_main (F := Ideal) m' ρ')
  · -- keys: the third weight matrix and bias
    funext i
    obtain ⟨g, d, rfl⟩ : ∃ (g : Fin 2048) (d : Fin 256), i = ix2 g d := ⟨i 0, i 1, eq_ix2 i⟩
    refine (Cert.ReferenceIdeal.RefValue.out_v82_apply _ g d).trans (Eq.trans ?_ (Cert.KernelIdeal.KValue.final8_apply m c g d).symm)
    exact (branch_eq m m' hpre c (hagree c).1 (hagree c).2.1 _ _ _ _
      ((Cert.KernelIdeal.KHost.V_v57 m c).trans (hagree c).2.2.2.2.2.2.1.symm) ((Cert.KernelIdeal.Gen.V_main_arg7 m c).trans (hagree c).2.2.2.2.2.2.2.symm)
      (fun i => by rw [(hagree c).2.2.2.2.2.2.1]; exact (hd c).2.2.2.2.2.1 i)
      (fun i => by rw [(hagree c).2.2.2.2.2.2.2]; exact (hd c).2.2.2.2.2.2.1 i) g d).symm
  · -- p_queries: the first weight matrix and bias
    funext i
    obtain ⟨g, d, rfl⟩ : ∃ (g : Fin 2048) (d : Fin 256), i = ix2 g d := ⟨i 0, i 1, eq_ix2 i⟩
    refine (Cert.ReferenceIdeal.RefValue.out_v62_apply _ g d).trans (Eq.trans ?_ (Cert.KernelIdeal.KValue.final9_apply m c g d).symm)
    exact (branch_eq m m' hpre c (hagree c).1 (hagree c).2.1 _ _ _ _
      ((Cert.KernelIdeal.KHost.V_v55 m c).trans (hagree c).2.2.1.symm) ((Cert.KernelIdeal.Gen.V_main_arg3 m c).trans (hagree c).2.2.2.1.symm)
      (fun i => by rw [(hagree c).2.2.1]; exact (hd c).2.1 i)
      (fun i => by rw [(hagree c).2.2.2.1]; exact (hd c).2.2.1 i) g d).symm
  · -- r_queries: the second weight matrix and bias
    funext i
    obtain ⟨g, d, rfl⟩ : ∃ (g : Fin 2048) (d : Fin 256), i = ix2 g d := ⟨i 0, i 1, eq_ix2 i⟩
    refine (Cert.ReferenceIdeal.RefValue.out_v72_apply _ g d).trans (Eq.trans ?_ (Cert.KernelIdeal.KValue.final10_apply m c g d).symm)
    exact (branch_eq m m' hpre c (hagree c).1 (hagree c).2.1 _ _ _ _
      ((Cert.KernelIdeal.KHost.V_v56 m c).trans (hagree c).2.2.2.2.1.symm) ((Cert.KernelIdeal.Gen.V_main_arg5 m c).trans (hagree c).2.2.2.2.2.1.symm)
      (fun i => by rw [(hagree c).2.2.2.2.1]; exact (hd c).2.2.2.1 i)
      (fun i => by rw [(hagree c).2.2.2.2.2.1]; exact (hd c).2.2.2.2.1 i) g d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
